-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x25000x3 : Shape := ⟨3, ![16, 25000, 3]⟩
abbrev S16x25000x192 : Shape := ⟨3, ![16, 25000, 192]⟩
abbrev S195x3 : Shape := ⟨2, ![195, 3]⟩
abbrev S3 : Shape := ⟨1, ![3]⟩
abbrev S195x4 : Shape := ⟨2, ![195, 4]⟩
abbrev S4 : Shape := ⟨1, ![4]⟩
abbrev S195x1 : Shape := ⟨2, ![195, 1]⟩
abbrev S1 : Shape := ⟨1, ![1]⟩
abbrev S16x3x3 : Shape := ⟨3, ![16, 3, 3]⟩
abbrev S16x4x4 : Shape := ⟨3, ![16, 4, 4]⟩
abbrev S_ : Shape := ⟨0, ![]⟩

class Facts : Prop where
  bcast_S_S16x25000x3 : S_.BroadcastsInDim S16x25000x3 (![] : Fin 0 → Fin S16x25000x3.rank)
  reducesTo_S16x25000x3_S_d0_1_2 : S16x25000x3.ReducesTo [0, 1, 2] S_
  h_S_ : 0 < S_.numel
  bcast_S_S16x25000x192 : S_.BroadcastsInDim S16x25000x192 (![] : Fin 0 → Fin S16x25000x192.rank)
  reducesTo_S16x25000x192_S_d0_1_2 : S16x25000x192.ReducesTo [0, 1, 2] S_
  bcast_S_S195x3 : S_.BroadcastsInDim S195x3 (![] : Fin 0 → Fin S195x3.rank)
  reducesTo_S195x3_S_d0_1 : S195x3.ReducesTo [0, 1] S_
  bcast_S_S3 : S_.BroadcastsInDim S3 (![] : Fin 0 → Fin S3.rank)
  reducesTo_S3_S_d0 : S3.ReducesTo [0] S_
  bcast_S_S195x4 : S_.BroadcastsInDim S195x4 (![] : Fin 0 → Fin S195x4.rank)
  reducesTo_S195x4_S_d0_1 : S195x4.ReducesTo [0, 1] S_
  bcast_S_S4 : S_.BroadcastsInDim S4 (![] : Fin 0 → Fin S4.rank)
  reducesTo_S4_S_d0 : S4.ReducesTo [0] S_
  bcast_S_S195x1 : S_.BroadcastsInDim S195x1 (![] : Fin 0 → Fin S195x1.rank)
  reducesTo_S195x1_S_d0_1 : S195x1.ReducesTo [0, 1] S_
  bcast_S_S1 : S_.BroadcastsInDim S1 (![] : Fin 0 → Fin S1.rank)
  reducesTo_S1_S_d0 : S1.ReducesTo [0] S_
  bcast_S_S16x3x3 : S_.BroadcastsInDim S16x3x3 (![] : Fin 0 → Fin S16x3x3.rank)
  reducesTo_S16x3x3_S_d0_1_2 : S16x3x3.ReducesTo [0, 1, 2] S_
  bcast_S_S16x4x4 : S_.BroadcastsInDim S16x4x4 (![] : Fin 0 → Fin S16x4x4.rank)
  reducesTo_S16x4x4_S_d0_1_2 : S16x4x4.ReducesTo [0, 1, 2] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S3 .f32) (main_arg12 : FVec F S16x3x3 .f32) (main_arg13 : FVec F S16x4x4 .f32) (main_v48 : IVec S_ 1) (main_v49 : FVec F S195x3 .f32) (main_v50 : FVec F S195x3 .f32) : IVec S_ 1 :=
  let main_v51 : IVec S195x3 1 := cmpf .olt main_v49 main_v50
  let main_c_19 : IVec S_ 1 := constantI S_ 1 1#1
  let main_v52 : IVec S_ 1 := (fun x v => Host.reduce IntOp.andi x v reducesTo_S195x3_S_d0_1 h_S_) main_v51 main_c_19
  let main_v53 : IVec S_ 1 := andi main_v48 main_v52
  let main_v54 : FVec F S3 .f32 := Host.absf main_arg11
  let main_cst_20 : FVec F S_ .f32 := constant S_ .f32 0x7F800000#32
  let main_v55 : FVec F S3 .f32 := broadcastInDim S3 ![] bcast_S_S3 main_cst_20
  let main_v56 : IVec S3 1 := cmpf .olt main_v54 main_v55
  let main_c_21 : IVec S_ 1 := constantI S_ 1 1#1
  let main_v57 : IVec S_ 1 := (fun x v => Host.reduce IntOp.andi x v reducesTo_S3_S_d0 h_S_) main_v56 main_c_21
  let main_v58 : IVec S_ 1 := andi main_v53 main_v57
  let main_v59 : FVec F S16x3x3 .f32 := Host.absf main_arg12
  let main_cst_22 : FVec F S_ .f32 := constant S_ .f32 0x7F800000#32
  let main_v60 : FVec F S16x3x3 .f32 := broadcastInDim S16x3x3 ![] bcast_S_S16x3x3 main_cst_22
  let main_v61 : IVec S16x3x3 1 := cmpf .olt main_v59 main_v60
  let main_c_23 : IVec S_ 1 := constantI S_ 1 1#1
  let main_v62 : IVec S_ 1 := (fun x v => Host.reduce IntOp.andi x v reducesTo_S16x3x3_S_d0_1_2 h_S_) main_v61 main_c_23
  let main_v63 : IVec S_ 1 := andi main_v58 main_v62
  let main_v64 : FVec F S16x4x4 .f32 := Host.absf main_arg13
  let main_cst_24 : FVec F S_ .f32 := constant S_ .f32 0x7F800000#32
  let main_v65 : FVec F S16x4x4 .f32 := broadcastInDim S16x4x4 ![] bcast_S_S16x4x4 main_cst_24
  let main_v66 : IVec S16x4x4 1 := cmpf .olt main_v64 main_v65
  let main_c_25 : IVec S_ 1 := constantI S_ 1 1#1
  let main_v67 : IVec S_ 1 := (fun x v => Host.reduce IntOp.andi x v reducesTo_S16x4x4_S_d0_1_2 h_S_) main_v66 main_c_25
  fn_part4 (F := F) main_v63 main_v67

def fn_part2 {F : FTy → Type} [FloatOps F] (main_arg7 : FVec F S3 .f32) (main_arg8 : FVec F S195x1 .f32) (main_arg9 : FVec F S1 .f32) (main_arg10 : FVec F S195x3 .f32) (main_arg11 : FVec F S3 .f32) (main_arg12 : FVec F S16x3x3 .f32) (main_arg13 : FVec F S16x4x4 .f32) (main_v33 : IVec S_ 1) : IVec S_ 1 :=
  let main_v34 : FVec F S3 .f32 := Host.absf main_arg7
  let main_cst_12 : FVec F S_ .f32 := constant S_ .f32 0x7F800000#32
  let main_v35 : FVec F S3 .f32 := broadcastInDim S3 ![] bcast_S_S3 main_cst_12
  let main_v36 : IVec S3 1 := cmpf .olt main_v34 main_v35
  let main_c_13 : IVec S_ 1 := constantI S_ 1 1#1
  let main_v37 : IVec S_ 1 := (fun x v => Host.reduce IntOp.andi x v reducesTo_S3_S_d0 h_S_) main_v36 main_c_13
  let main_v38 : IVec S_ 1 := andi main_v33 main_v37
  let main_v39 : FVec F S195x1 .f32 := Host.absf main_arg8
  let main_cst_14 : FVec F S_ .f32 := constant S_ .f32 0x7F800000#32
  let main_v40 : FVec F S195x1 .f32 := broadcastInDim S195x1 ![] bcast_S_S195x1 main_cst_14
  let main_v41 : IVec S195x1 1 := cmpf .olt main_v39 main_v40
  let main_c_15 : IVec S_ 1 := constantI S_ 1 1#1
  let main_v42 : IVec S_ 1 := (fun x v => Host.reduce IntOp.andi x v reducesTo_S195x1_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : FVec F S195x3 .f32 := Host.absf main_arg10
  let main_cst_18 : FVec F S_ .f32 := constant S_ .f32 0x7F800000#32
  let main_v50 : FVec F S195x3 .f32 := broadcastInDim S195x3 ![] bcast_S_S195x3 main_cst_18
  fn_part3 (F := F) main_arg11 main_arg12 main_arg13 main_v48 main_v49 main_v50

def fn_part1 {F : FTy → Type} [FloatOps F] (main_arg4 : FVec F S195x4 .f32) (main_arg5 : FVec F S4 .f32) (main_arg6 : FVec F S195x3 .f32) (main_arg7 : FVec F S3 .f32) (main_arg8 : FVec F S195x1 .f32) (main_arg9 : FVec F S1 .f32) (main_arg10 : FVec F S195x3 .f32) (main_arg11 : FVec F S3 .f32) (main_arg12 : FVec F S16x3x3 .f32) (main_arg13 : FVec F S16x4x4 .f32) (main_v13 : IVec S_ 1) (main_v16 : IVec S3 1) : IVec S_ 1 :=
  let main_c_5 : IVec S_ 1 := constantI S_ 1 1#1
  let main_v17 : IVec S_ 1 := (fun x v => Host.reduce IntOp.andi x v reducesTo_S3_S_d0 h_S_) main_v16 main_c_5
  let main_v18 : IVec S_ 1 := andi main_v13 main_v17
  let main_v19 : FVec F S195x4 .f32 := Host.absf main_arg4
  let main_cst_6 : FVec F S_ .f32 := constant S_ .f32 0x7F800000#32
  let main_v20 : FVec F S195x4 .f32 := broadcastInDim S195x4 ![] bcast_S_S195x4 main_cst_6
  let main_v21 : IVec S195x4 1 := cmpf .olt main_v19 main_v20
  let main_c_7 : IVec S_ 1 := constantI S_ 1 1#1
  let main_v22 : IVec S_ 1 := (fun x v => Host.reduce IntOp.andi x v reducesTo_S195x4_S_d0_1 h_S_) main_v21 main_c_7
  let main_v23 : IVec S_ 1 := andi main_v18 main_v22
  let main_v24 : FVec F S4 .f32 := Host.absf main_arg5
  let main_cst_8 : FVec F S_ .f32 := constant S_ .f32 0x7F800000#32
  let main_v25 : FVec F S4 .f32 := broadcastInDim S4 ![] bcast_S_S4 main_cst_8
  let main_v26 : IVec S4 1 := cmpf .olt main_v24 main_v25
  let main_c_9 : IVec S_ 1 := constantI S_ 1 1#1
  let main_v27 : IVec S_ 1 := (fun x v => Host.reduce IntOp.andi x v reducesTo_S4_S_d0 h_S_) main_v26 main_c_9
  let main_v28 : IVec S_ 1 := andi main_v23 main_v27
  let main_v29 : FVec F S195x3 .f32 := Host.absf main_arg6
  let main_cst_10 : FVec F S_ .f32 := constant S_ .f32 0x7F800000#32
  let main_v30 : FVec F S195x3 .f32 := broadcastInDim S195x3 ![] bcast_S_S195x3 main_cst_10
  let main_v31 : IVec S195x3 1 := cmpf .olt main_v29 main_v30
  let main_c_11 : IVec S_ 1 := constantI S_ 1 1#1
  let main_v32 : IVec S_ 1 := (fun x v => Host.reduce IntOp.andi x v reducesTo_S195x3_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S16x25000x3 .f32) (main_arg1 : FVec F S16x25000x192 .f32) (main_arg2 : FVec F S195x3 .f32) (main_arg3 : FVec F S3 .f32) (main_arg4 : FVec F S195x4 .f32) (main_arg5 : FVec F S4 .f32) (main_arg6 : FVec F S195x3 .f32) (main_arg7 : FVec F S3 .f32) (main_arg8 : FVec F S195x1 .f32) (main_arg9 : FVec F S1 .f32) (main_arg10 : FVec F S195x3 .f32) (main_arg11 : FVec F S3 .f32) (main_arg12 : FVec F S16x3x3 .f32) (main_arg13 : FVec F S16x4x4 .f32) : IVec S_ 1 :=
  let main_v0 : FVec F S16x25000x3 .f32 := Host.absf main_arg0
  let main_cst : FVec F S_ .f32 := constant S_ .f32 0x7F800000#32
  let main_v1 : FVec F S16x25000x3 .f32 := broadcastInDim S16x25000x3 ![] bcast_S_S16x25000x3 main_cst
  let main_v2 : IVec S16x25000x3 1 := cmpf .olt main_v0 main_v1
  let main_c : IVec S_ 1 := constantI S_ 1 1#1
  let main_v3 : IVec S_ 1 := (fun x v => Host.reduce IntOp.andi x v reducesTo_S16x25000x3_S_d0_1_2 h_S_) main_v2 main_c
  let main_v4 : FVec F S16x25000x192 .f32 := Host.absf main_arg1
  let main_cst_0 : FVec F S_ .f32 := constant S_ .f32 0x7F800000#32
  let main_v5 : FVec F S16x25000x192 .f32 := broadcastInDim S16x25000x192 ![] bcast_S_S16x25000x192 main_cst_0
  let main_v6 : IVec S16x25000x192 1 := cmpf .olt main_v4 main_v5
  let main_c_1 : IVec S_ 1 := constantI S_ 1 1#1
  let main_v7 : IVec S_ 1 := (fun x v => Host.reduce IntOp.andi x v reducesTo_S16x25000x192_S_d0_1_2 h_S_) main_v6 main_c_1
  let main_v8 : IVec S_ 1 := andi main_v3 main_v7
  let main_v9 : FVec F S195x3 .f32 := Host.absf main_arg2
  let main_cst_2 : FVec F S_ .f32 := constant S_ .f32 0x7F800000#32
  let main_v10 : FVec F S195x3 .f32 := broadcastInDim S195x3 ![] bcast_S_S195x3 main_cst_2
  let main_v11 : IVec S195x3 1 := cmpf .olt main_v9 main_v10
  let main_c_3 : IVec S_ 1 := constantI S_ 1 1#1
  let main_v12 : IVec S_ 1 := (fun x v => Host.reduce IntOp.andi x v reducesTo_S195x3_S_d0_1 h_S_) main_v11 main_c_3
  let main_v13 : IVec S_ 1 := andi main_v8 main_v12
  let main_v14 : FVec F S3 .f32 := Host.absf main_arg3
  let main_cst_4 : FVec F S_ .f32 := constant S_ .f32 0x7F800000#32
  let main_v15 : FVec F S3 .f32 := broadcastInDim S3 ![] bcast_S_S3 main_cst_4
  let main_v16 : IVec S3 1 := cmpf .olt main_v14 main_v15
  fn_part1 (F := F) main_arg4 main_arg5 main_arg6 main_arg7 main_arg8 main_arg9 main_arg10 main_arg11 main_arg12 main_arg13 main_v13 main_v16
-- ==== Kernel.lean ====
abbrev S16x25000x3 : Shape := ⟨3, ![16, 25000, 3]⟩
abbrev S16x25000x192 : Shape := ⟨3, ![16, 25000, 192]⟩
abbrev S195x3 : Shape := ⟨2, ![195, 3]⟩
abbrev S3 : Shape := ⟨1, ![3]⟩
abbrev S195x4 : Shape := ⟨2, ![195, 4]⟩
abbrev S4 : Shape := ⟨1, ![4]⟩
abbrev S195x1 : Shape := ⟨2, ![195, 1]⟩
abbrev S1 : Shape := ⟨1, ![1]⟩
abbrev S16x3x3 : Shape := ⟨3, ![16, 3, 3]⟩
abbrev S16x4x4 : Shape := ⟨3, ![16, 4, 4]⟩
abbrev S195x14 : Shape := ⟨2, ![195, 14]⟩
abbrev S14 : Shape := ⟨1, ![14]⟩
abbrev S1x14 : Shape := ⟨2, ![1, 14]⟩
abbrev S16x1x1 : Shape := ⟨3, ![16, 1, 1]⟩
abbrev S16 : Shape := ⟨1, ![16]⟩
abbrev S_ : Shape := ⟨0, ![]⟩
abbrev S2 : Shape := ⟨1, ![2]⟩
abbrev S16x25000x14 : Shape := ⟨3, ![16, 25000, 14]⟩
abbrev S1x1000x3 : Shape := ⟨3, ![1, 1000, 3]⟩
abbrev S1x1000x192 : Shape := ⟨3, ![1, 1000, 192]⟩
abbrev S1x4x4 : Shape := ⟨3, ![1, 4, 4]⟩
abbrev S1x1000x14 : Shape := ⟨3, ![1, 1000, 14]⟩
abbrev S1000x3 : Shape := ⟨2, ![1000, 3]⟩
abbrev S1000x192 : Shape := ⟨2, ![1000, 192]⟩
abbrev S1000x195 : Shape := ⟨2, ![1000, 195]⟩
abbrev S1000x14 : Shape := ⟨2, ![1000, 14]⟩
abbrev S1000x4 : Shape := ⟨2, ![1000, 4]⟩
abbrev S1000x1 : Shape := ⟨2, ![1000, 1]⟩
abbrev S1000 : Shape := ⟨1, ![1000]⟩
abbrev S4x4 : Shape := ⟨2, ![4, 4]⟩
abbrev S1000x2 : Shape := ⟨2, ![1000, 2]⟩

abbrev nBuf : Space → Nat
  | .hbm => 108
  | .vmem => 10
  | .smem => 0
  | _ => 0

abbrev bufTy : (tb : Table) → Fin (tcTables nBuf tb) → BufTy
  | .hbm, ⟨0, _⟩ => ⟨S16x25000x3, .f32⟩
  | .hbm, ⟨1, _⟩ => ⟨S16x25000x192, .f32⟩
  | .hbm, ⟨2, _⟩ => ⟨S195x3, .f32⟩
  | .hbm, ⟨3, _⟩ => ⟨S3, .f32⟩
  | .hbm, ⟨4, _⟩ => ⟨S195x4, .f32⟩
  | .hbm, ⟨5, _⟩ => ⟨S4, .f32⟩
  | .hbm, ⟨6, _⟩ => ⟨S195x3, .f32⟩
  | .hbm, ⟨7, _⟩ => ⟨S3, .f32⟩
  | .hbm, ⟨8, _⟩ => ⟨S195x1, .f32⟩
  | .hbm, ⟨9, _⟩ => ⟨S1, .f32⟩
  | .hbm, ⟨10, _⟩ => ⟨S195x3, .f32⟩
  | .hbm, ⟨11, _⟩ => ⟨S3, .f32⟩
  | .hbm, ⟨12, _⟩ => ⟨S16x3x3, .f32⟩
  | .hbm, ⟨13, _⟩ => ⟨S16x4x4, .f32⟩
  | .hbm, ⟨14, _⟩ => ⟨S195x14, .f32⟩
  | .hbm, ⟨15, _⟩ => ⟨S14, .f32⟩
  | .hbm, ⟨16, _⟩ => ⟨S1x14, .f32⟩
  | .hbm, ⟨17, _⟩ => ⟨S16x4x4, .f32⟩
  | .hbm, ⟨18, _⟩ => ⟨S16x1x1, .f32⟩
  | .hbm, ⟨19, _⟩ => ⟨S16, .f32⟩
  | .hbm, ⟨20, _⟩ => ⟨S16x1x1, .f32⟩
  | .hbm, ⟨21, _⟩ => ⟨S16, .f32⟩
  | .hbm, ⟨22, _⟩ => ⟨S16x1x1, .f32⟩
  | .hbm, ⟨23, _⟩ => ⟨S16, .f32⟩
  | .hbm, ⟨24, _⟩ => ⟨S16x1x1, .f32⟩
  | .hbm, ⟨25, _⟩ => ⟨S16, .f32⟩
  | .hbm, ⟨26, _⟩ => ⟨S_, .f32⟩
  | .hbm, ⟨27, _⟩ => ⟨S16x4x4, .f32⟩
  | .hbm, ⟨28, _⟩ => ⟨S_, .f32⟩
  | .hbm, ⟨29, _⟩ => ⟨S16, .f32⟩
  | .hbm, ⟨30, _⟩ => ⟨S16, .f32⟩
  | .hbm, ⟨31, _⟩ => ⟨S_, .f32⟩
  | .hbm, ⟨32, _⟩ => ⟨S16, .f32⟩
  | .hbm, ⟨33, _⟩ => ⟨S16, .f32⟩
  | .hbm, ⟨34, _⟩ => ⟨S_, .i32⟩
  | .hbm, ⟨35, _⟩ => ⟨S1, .i32⟩
  | .hbm, ⟨36, _⟩ => ⟨S_, .i32⟩
  | .hbm, ⟨37, _⟩ => ⟨S1, .i32⟩
  | .hbm, ⟨38, _⟩ => ⟨S2, .i32⟩
  | .hbm, ⟨39, _⟩ => ⟨S16x4x4, .f32⟩
  | .hbm, ⟨40, _⟩ => ⟨S_, .f32⟩
  | .hbm, ⟨41, _⟩ => ⟨S16, .f32⟩
  | .hbm, ⟨42, _⟩ => ⟨S16, .f32⟩
  | .hbm, ⟨43, _⟩ => ⟨S_, .f32⟩
  | .hbm, ⟨44, _⟩ => ⟨S16, .f32⟩
  | .hbm, ⟨45, _⟩ => ⟨S16, .f32⟩
  | .hbm, ⟨46, _⟩ => ⟨S_, .i32⟩
  | .hbm, ⟨47, _⟩ => ⟨S1, .i32⟩
  | .hbm, ⟨48, _⟩ => ⟨S_, .i32⟩
  | .hbm, ⟨49, _⟩ => ⟨S1, .i32⟩
  | .hbm, ⟨50, _⟩ => ⟨S2, .i32⟩
  | .hbm, ⟨51, _⟩ => ⟨S16x4x4, .f32⟩
  | .hbm, ⟨52, _⟩ => ⟨S_, .f32⟩
  | .hbm, ⟨53, _⟩ => ⟨S16, .f32⟩
  | .hbm, ⟨54, _⟩ => ⟨S16, .f32⟩
  | .hbm, ⟨55, _⟩ => ⟨S_, .f32⟩
  | .hbm, ⟨56, _⟩ => ⟨S16, .f32⟩
  | .hbm, ⟨57, _⟩ => ⟨S16, .f32⟩
  | .hbm, ⟨58, _⟩ => ⟨S_, .f32⟩
  | .hbm, ⟨59, _⟩ => ⟨S16, .f32⟩
  | .hbm, ⟨60, _⟩ => ⟨S16, .f32⟩
  | .hbm, ⟨61, _⟩ => ⟨S_, .i32⟩
  | .hbm, ⟨62, _⟩ => ⟨S1, .i32⟩
  | .hbm, ⟨63, _⟩ => ⟨S_, .i32⟩
  | .hbm, ⟨64, _⟩ => ⟨S1, .i32⟩
  | .hbm, ⟨65, _⟩ => ⟨S2, .i32⟩
  | .hbm, ⟨66, _⟩ => ⟨S16x4x4, .f32⟩
  | .hbm, ⟨67, _⟩ => ⟨S_, .f32⟩
  | .hbm, ⟨68, _⟩ => ⟨S16, .f32⟩
  | .hbm, ⟨69, _⟩ => ⟨S16, .f32⟩
  | .hbm, ⟨70, _⟩ => ⟨S_, .f32⟩
  | .hbm, ⟨71, _⟩ => ⟨S16, .f32⟩
  | .hbm, ⟨72, _⟩ => ⟨S16, .f32⟩
  | .hbm, ⟨73, _⟩ => ⟨S_, .f32⟩
  | .hbm, ⟨74, _⟩ => ⟨S16, .f32⟩
  | .hbm, ⟨75, _⟩ => ⟨S16, .f32⟩
  | .hbm, ⟨76, _⟩ => ⟨S_, .i32⟩
  | .hbm, ⟨77, _⟩ => ⟨S1, .i32⟩
  | .hbm, ⟨78, _⟩ => ⟨S_, .i32⟩
  | .hbm, ⟨79, _⟩ => ⟨S1, .i32⟩
  | .hbm, ⟨80, _⟩ => ⟨S2, .i32⟩
  | .hbm, ⟨81, _⟩ => ⟨S16x4x4, .f32⟩
  | .hbm, ⟨82, _⟩ => ⟨S_, .i32⟩
  | .hbm, ⟨83, _⟩ => ⟨S1, .i32⟩
  | .hbm, ⟨84, _⟩ => ⟨S_, .i32⟩
  | .hbm, ⟨85, _⟩ => ⟨S1, .i32⟩
  | .hbm, ⟨86, _⟩ => ⟨S2, .i32⟩
  | .hbm, ⟨87, _⟩ => ⟨S_, .f32⟩
  | .hbm, ⟨88, _⟩ => ⟨S16, .f32⟩
  | .hbm, ⟨89, _⟩ => ⟨S16x4x4, .f32⟩
  | .hbm, ⟨90, _⟩ => ⟨S_, .i32⟩
  | .hbm, ⟨91, _⟩ => ⟨S1, .i32⟩
  | .hbm, ⟨92, _⟩ => ⟨S_, .i32⟩
  | .hbm, ⟨93, _⟩ => ⟨S1, .i32⟩
  | .hbm, ⟨94, _⟩ => ⟨S2, .i32⟩
  | .hbm, ⟨95, _⟩ => ⟨S_, .f32⟩
  | .hbm, ⟨96, _⟩ => ⟨S16, .f32⟩
  | .hbm, ⟨97, _⟩ => ⟨S16x4x4, .f32⟩
  | .hbm, ⟨98, _⟩ => ⟨S_, .i32⟩
  | .hbm, ⟨99, _⟩ => ⟨S1, .i32⟩
  | .hbm, ⟨100, _⟩ => ⟨S_, .i32⟩
  | .hbm, ⟨101, _⟩ => ⟨S1, .i32⟩
  | .hbm, ⟨102, _⟩ => ⟨S2, .i32⟩
  | .hbm, ⟨103, _⟩ => ⟨S_, .f32⟩
  | .hbm, ⟨104, _⟩ => ⟨S16, .f32⟩
  | .hbm, ⟨105, _⟩ => ⟨S16x4x4, .f32⟩
  | .hbm, ⟨106, _⟩ => ⟨S16x4x4, .f32⟩
  | .hbm, ⟨107, _⟩ => ⟨S16x25000x14, .f32⟩
  | .local _ .vmem, ⟨0, _⟩ => ⟨S1x1000x3, .f32⟩
  | .local _ .vmem, ⟨1, _⟩ => ⟨S1x1000x3, .f32⟩
  | .local _ .vmem, ⟨2, _⟩ => ⟨S1x1000x192, .f32⟩
  | .local _ .vmem, ⟨3, _⟩ => ⟨S1x1000x192, .f32⟩
  | .local _ .vmem, ⟨4, _⟩ => ⟨S1x4x4, .f32⟩
  | .local _ .vmem, ⟨5, _⟩ => ⟨S1x4x4, .f32⟩
  | .local _ .vmem, ⟨6, _⟩ => ⟨S195x14, .f32⟩
  | .local _ .vmem, ⟨7, _⟩ => ⟨S1x14, .f32⟩
  | .local _ .vmem, ⟨8, _⟩ => ⟨S1x1000x14, .f32⟩
  | .local _ .vmem, ⟨9, _⟩ => ⟨S1x1000x14, .f32⟩
  | _, _ => ⟨S16x25000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_cst_0 : Ref sig .tc := ⟨.hbm, 28, rfl⟩
abbrev main_v13 : Ref sig .tc := ⟨.hbm, 29, rfl⟩
abbrev main_v14 : Ref sig .tc := ⟨.hbm, 30, rfl⟩
abbrev main_cst_1 : Ref sig .tc := ⟨.hbm, 31, rfl⟩
abbrev main_v15 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_c_2 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_3 : Ref sig .tc := ⟨.hbm, 40, rfl⟩
abbrev main_v21 : Ref sig .tc := ⟨.hbm, 41, rfl⟩
abbrev main_v22 : Ref sig .tc := ⟨.hbm, 42, rfl⟩
abbrev main_cst_4 : Ref sig .tc := ⟨.hbm, 43, rfl⟩
abbrev main_v23 : Ref sig .tc := ⟨.hbm, 44, rfl⟩
abbrev main_v24 : Ref sig .tc := ⟨.hbm, 45, rfl⟩
abbrev main_c_5 : Ref sig .tc := ⟨.hbm, 46, rfl⟩
abbrev main_v25 : Ref sig .tc := ⟨.hbm, 47, rfl⟩
abbrev main_c_6 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_7 : Ref sig .tc := ⟨.hbm, 52, rfl⟩
abbrev main_v29 : Ref sig .tc := ⟨.hbm, 53, rfl⟩
abbrev main_v30 : Ref sig .tc := ⟨.hbm, 54, rfl⟩
abbrev main_cst_8 : Ref sig .tc := ⟨.hbm, 55, rfl⟩
abbrev main_v31 : Ref sig .tc := ⟨.hbm, 56, rfl⟩
abbrev main_v32 : Ref sig .tc := ⟨.hbm, 57, rfl⟩
abbrev main_cst_9 : Ref sig .tc := ⟨.hbm, 58, rfl⟩
abbrev main_v33 : Ref sig .tc := ⟨.hbm, 59, rfl⟩
abbrev main_v34 : Ref sig .tc := ⟨.hbm, 60, rfl⟩
abbrev main_c_10 : Ref sig .tc := ⟨.hbm, 61, rfl⟩
abbrev main_v35 : Ref sig .tc := ⟨.hbm, 62, rfl⟩
abbrev main_c_11 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_12 : Ref sig .tc := ⟨.hbm, 67, rfl⟩
abbrev main_v39 : Ref sig .tc := ⟨.hbm, 68, rfl⟩
abbrev main_v40 : Ref sig .tc := ⟨.hbm, 69, rfl⟩
abbrev main_cst_13 : Ref sig .tc := ⟨.hbm, 70, rfl⟩
abbrev main_v41 : Ref sig .tc := ⟨.hbm, 71, rfl⟩
abbrev main_v42 : Ref sig .tc := ⟨.hbm, 72, rfl⟩
abbrev main_cst_14 : Ref sig .tc := ⟨.hbm, 73, rfl⟩
abbrev main_v43 : Ref sig .tc := ⟨.hbm, 74, rfl⟩
abbrev main_v44 : Ref sig .tc := ⟨.hbm, 75, rfl⟩
abbrev main_c_15 : Ref sig .tc := ⟨.hbm, 76, rfl⟩
abbrev main_v45 : Ref sig .tc := ⟨.hbm, 77, rfl⟩
abbrev main_c_16 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_c_17 : Ref sig .tc := ⟨.hbm, 82, rfl⟩
abbrev main_v49 : Ref sig .tc := ⟨.hbm, 83, rfl⟩
abbrev main_c_18 : Ref sig .tc := ⟨.hbm, 84, rfl⟩
abbrev main_v50 : Ref sig .tc := ⟨.hbm, 85, rfl⟩
abbrev main_v51 : Ref sig .tc := ⟨.hbm, 86, rfl⟩
abbrev main_cst_19 : Ref sig .tc := ⟨.hbm, 87, rfl⟩
abbrev main_v52 : Ref sig .tc := ⟨.hbm, 88, rfl⟩
abbrev main_v53 : Ref sig .tc := ⟨.hbm, 89, rfl⟩
abbrev main_c_20 : Ref sig .tc := ⟨.hbm, 90, rfl⟩
abbrev main_v54 : Ref sig .tc := ⟨.hbm, 91, rfl⟩
abbrev main_c_21 : Ref sig .tc := ⟨.hbm, 92, rfl⟩
abbrev main_v55 : Ref sig .tc := ⟨.hbm, 93, rfl⟩
abbrev main_v56 : Ref sig .tc := ⟨.hbm, 94, rfl⟩
abbrev main_cst_22 : Ref sig .tc := ⟨.hbm, 95, rfl⟩
abbrev main_v57 : Ref sig .tc := ⟨.hbm, 96, rfl⟩
abbrev main_v58 : Ref sig .tc := ⟨.hbm, 97, rfl⟩
abbrev main_c_23 : Ref sig .tc := ⟨.hbm, 98, rfl⟩
abbrev main_v59 : Ref sig .tc := ⟨.hbm, 99, rfl⟩
abbrev main_c_24 : Ref sig .tc := ⟨.hbm, 100, rfl⟩
abbrev main_v60 : Ref sig .tc := ⟨.hbm, 101, rfl⟩
abbrev main_v61 : Ref sig .tc := ⟨.hbm, 102, rfl⟩
abbrev main_cst_25 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 25], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1000x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S195x14 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x14 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1000x14 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  concatenates_S195x3_S195x4_S195x3_S195x1_S195x3_S195x14_d1 : Shape.Concatenates [S195x3, S195x4, S195x3, S195x1, S195x3] S195x14 1
  concatenates_S3_S4_S3_S1_S3_S14_d0 : Shape.Concatenates [S3, S4, S3, S1, S3] S14 0
  bcast_S14_S1x14_1 : S14.BroadcastsInDim S1x14 (![1] : Fin 1 → Fin S1x14.rank)
  transposes_S16x4x4_S16x4x4_0_2_1 : S16x4x4.Transposes [0, 2, 1] S16x4x4
  slices_S16x3x3_S16x1x1_0_0_0 : S16x3x3.Slices ![0, 0, 0] S16x1x1
  shapeCasts_S16x1x1_S16 : S16x1x1.ShapeCasts S16
  slices_S16x3x3_S16x1x1_0_1_1 : S16x3x3.Slices ![0, 1, 1] S16x1x1
  slices_S16x3x3_S16x1x1_0_0_2 : S16x3x3.Slices ![0, 0, 2] S16x1x1
  slices_S16x3x3_S16x1x1_0_1_2 : S16x3x3.Slices ![0, 1, 2] S16x1x1
  bcast_S_S16x4x4 : S_.BroadcastsInDim S16x4x4 (![] : Fin 0 → Fin S16x4x4.rank)
  bcast_S_S16 : S_.BroadcastsInDim S16 (![] : Fin 0 → Fin S16.rank)
  bcast_S_S1 : S_.BroadcastsInDim S1 (![] : Fin 0 → Fin S1.rank)
  concatenates_S1_S1_S2_d0 : Shape.Concatenates [S1, S1] S2 0
  inb_S1x1000x3_S1x1000x3_0_0_0 : ∀ a, (![0, 0, 0] : Fin 3 → Nat) a + S1x1000x3.size a ≤ S1x1000x3.size a
  h_S1x1000x3 : 0 < S1x1000x3.numel
  shapeCasts_S1x1000x3_S1000x3 : S1x1000x3.ShapeCasts S1000x3
  inb_S1x1000x192_S1x1000x192_0_0_0 : ∀ a, (![0, 0, 0] : Fin 3 → Nat) a + S1x1000x192.size a ≤ S1x1000x192.size a
  h_S1x1000x192 : 0 < S1x1000x192.numel
  shapeCasts_S1x1000x192_S1000x192 : S1x1000x192.ShapeCasts S1000x192
  concatenates_S1000x3_S1000x192_S1000x195_d1 : Shape.Concatenates [S1000x3, S1000x192] S1000x195 1
  bitsLt_bf16_f32 : FTy.bits .bf16 < FTy.bits .f32
  inb_S195x14_S195x14_0_0 : ∀ a, (![0, 0] : Fin 2 → Nat) a + S195x14.size a ≤ S195x14.size a
  h_S195x14 : 0 < S195x14.numel
  shapeCasts_S195x14_S195x14 : S195x14.ShapeCasts S195x14
  inb_S1x14_S1x14_0_0 : ∀ a, (![0, 0] : Fin 2 → Nat) a + S1x14.size a ≤ S1x14.size a
  h_S1x14 : 0 < S1x14.numel
  shapeCasts_S1x14_S1x14 : S1x14.ShapeCasts S1x14
  broadcasts_S1x14_S1000x14 : S1x14.Broadcasts S1000x14
  slices_S1000x14_o0_0_S1000x3 : S1000x14.Slices ![0, 0] S1000x3
  slices_S1000x14_o0_3_S1000x4 : S1000x14.Slices ![0, 3] S1000x4
  slices_S1000x14_o0_7_S1000x3 : S1000x14.Slices ![0, 7] S1000x3
  slices_S1000x14_o0_10_S1000x1 : S1000x14.Slices ![0, 10] S1000x1
  slices_S1000x14_o0_11_S1000x3 : S1000x14.Slices ![0, 11] S1000x3
  reduces_S1000x4_S1000 : S1000x4.Reduces [1] S1000
  shapeCasts_S1000_S1000x1 : S1000.ShapeCasts S1000x1
  broadcasts_S1000x1_S1000x4 : S1000x1.Broadcasts S1000x4
  inb_S1x4x4_S1x4x4_0_0_0 : ∀ a, (![0, 0, 0] : Fin 3 → Nat) a + S1x4x4.size a ≤ S1x4x4.size a
  h_S1x4x4 : 0 < S1x4x4.numel
  shapeCasts_S1x4x4_S4x4 : S1x4x4.ShapeCasts S4x4
  concatenates_S1000x3_S1000x1_S1000x4_d1 : Shape.Concatenates [S1000x3, S1000x1] S1000x4 1
  slices_S1000x4_o0_3_S1000x1 : S1000x4.Slices ![0, 3] S1000x1
  slices_S1000x4_o0_0_S1000x2 : S1000x4.Slices ![0, 0] S1000x2
  broadcasts_S1000x1_S1000x2 : S1000x1.Broadcasts S1000x2
  slices_S1000x4_o0_2_S1000x1 : S1000x4.Slices ![0, 2] S1000x1
  concatenates_S1000x2_S1000x1_S1000x3_S1000x1_S1000x3_S1000x4_S1000x14_d1 : Shape.Concatenates [S1000x2, S1000x1, S1000x3, S1000x1, S1000x3, S1000x4] S1000x14 1
  inb_S1x1000x14_S1x1000x14_0_0_0 : ∀ a, (![0, 0, 0] : Fin 3 → Nat) a + S1x1000x14.size a ≤ S1x1000x14.size a
  h_S1x1000x14 : 0 < S1x1000x14.numel
  shapeCasts_S1x1000x14_S1000x14 : S1x1000x14.ShapeCasts S1000x14
  shapeCasts_S1000x14_S1x1000x14 : S1000x14.ShapeCasts S1x1000x14
  scatter_S16x4x4_S2_S16_0_12_12_0_wf : ScatterDims.WF S16x4x4 S2 S16 [0] [1, 2] [1, 2] 0
  dot_S16x4x4_S16x4x4_S16x4x4_2_2_1_1_0_0_wf : DotDims.WF S16x4x4 S16x4x4 S16x4x4 [2] [2] [1] [1] [0] [0]
  dot_S1000x195_S195x14_S1000x14_1_0_0_1_n_n_wf : DotDims.WF S1000x195 S195x14 S1000x14 [1] [0] [0] [1] [] []
  dot_S1000x4_S4x4_S1000x4_1_0_0_1_n_n_wf : DotDims.WF S1000x4 S4x4 S1000x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1000x3.size a ≤ S16x25000x3.size a
  hwx0_0 : ∀ i : grid0.Coords, EltTy.bits .f32 = 32 ∨ (Rect.block (s := S16x25000x3) S1x1000x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1000x192.size a ≤ S16x25000x192.size a
  hwx0_1 : ∀ i : grid0.Coords, EltTy.bits .f32 = 32 ∨ (Rect.block (s := S16x25000x192) S1x1000x192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4x4.size a ≤ S16x4x4.size a
  hwx0_2 : ∀ i : grid0.Coords, EltTy.bits .f32 = 32 ∨ (Rect.block (s := S16x4x4) S1x4x4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S195x14.size a ≤ S195x14.size a
  hwx0_3 : ∀ i : grid0.Coords, EltTy.bits .f32 = 32 ∨ (Rect.block (s := S195x14) S195x14.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x14.size a ≤ S1x14.size a
  hwx0_4 : ∀ i : grid0.Coords, EltTy.bits .f32 = 32 ∨ (Rect.block (s := S1x14) S1x14.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1000x14.size a ≤ S16x25000x14.size a
  hwx0_5 : ∀ i : grid0.Coords, EltTy.bits .f32 = 32 ∨ (Rect.block (s := S16x25000x14) S1x1000x14.size (cc0_transform_5 i) (hinb0_5 i)).WholeWords (EltTy.packing .f32)

variable [Facts₀]

def scatter_S16x4x4_S2_S16_0_12_12_0 : ScatterDims S16x4x4 S2 S16 where
  updateWindowDims := [0]
  insertedWindowDims := [1, 2]
  scatterDimsToOperandDims := [1, 2]
  indexVectorDim := 0
  wf := scatter_S16x4x4_S2_S16_0_12_12_0_wf
def dot_S16x4x4_S16x4x4_S16x4x4_2_2_1_1_0_0 : DotDims S16x4x4 S16x4x4 S16x4x4 where
  lhsContracting := [2]
  rhsContracting := [2]
  lhsNonContracting := [1]
  rhsNonContracting := [1]
  lhsBatch := [0]
  rhsBatch := [0]
  wf := dot_S16x4x4_S16x4x4_S16x4x4_2_2_1_1_0_0_wf
def dot_S1000x195_S195x14_S1000x14_1_0_0_1_n_n : DotDims S1000x195 S195x14 S1000x14 where
  lhsContracting := [1]
  rhsContracting := [0]
  lhsNonContracting := [0]
  rhsNonContracting := [1]
  lhsBatch := []
  rhsBatch := []
  wf := dot_S1000x195_S195x14_S1000x14_1_0_0_1_n_n_wf
def dot_S1000x4_S4x4_S1000x4_1_0_0_1_n_n : DotDims S1000x4 S4x4 S1000x4 where
  lhsContracting := [1]
  rhsContracting := [0]
  lhsNonContracting := [0]
  rhsNonContracting := [1]
  lhsBatch := []
  rhsBatch := []
  wf := dot_S1000x4_S4x4_S1000x4_1_0_0_1_n_n_wf

abbrev win0_0 : Pipeline.Window sig grid0 :=
  Pipeline.Window.ofSpec (Memref.whole main_arg0) S1x1000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1000x192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v64) S1x4x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S195x14.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x14.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v65) S1x1000x14.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x25000x3 : Shape := ⟨3, ![16, 25000, 3]⟩
abbrev S16x25000x192 : Shape := ⟨3, ![16, 25000, 192]⟩
abbrev S195x3 : Shape := ⟨2, ![195, 3]⟩
abbrev S3 : Shape := ⟨1, ![3]⟩
abbrev S195x4 : Shape := ⟨2, ![195, 4]⟩
abbrev S4 : Shape := ⟨1, ![4]⟩
abbrev S195x1 : Shape := ⟨2, ![195, 1]⟩
abbrev S1 : Shape := ⟨1, ![1]⟩
abbrev S16x3x3 : Shape := ⟨3, ![16, 3, 3]⟩
abbrev S16x4x4 : Shape := ⟨3, ![16, 4, 4]⟩
abbrev S16x25000x195 : Shape := ⟨3, ![16, 25000, 195]⟩
abbrev S1x1x3 : Shape := ⟨3, ![1, 1, 3]⟩
abbrev S16x25000x4 : Shape := ⟨3, ![16, 25000, 4]⟩
abbrev S1x1x4 : Shape := ⟨3, ![1, 1, 4]⟩
abbrev S16x25000x1 : Shape := ⟨3, ![16, 25000, 1]⟩
abbrev S1x1x1 : Shape := ⟨3, ![1, 1, 1]⟩
abbrev S_ : Shape := ⟨0, ![]⟩
abbrev S16x25000 : Shape := ⟨2, ![16, 25000]⟩
abbrev S16x1x1 : Shape := ⟨3, ![16, 1, 1]⟩
abbrev S16 : Shape := ⟨1, ![16]⟩
abbrev S2 : Shape := ⟨1, ![2]⟩
abbrev S16x25000x2 : Shape := ⟨3, ![16, 25000, 2]⟩
abbrev S16x25000x14 : Shape := ⟨3, ![16, 25000, 14]⟩

abbrev nBuf : Space → Nat
  | .hbm => 174
  | .vmem => 0
  | .smem => 0
  | _ => 0

abbrev hbmTy0_0 (i : Nat) : BufTy := match i % 128 with
  | 0 => ⟨S16x25000x3, .f32⟩
  | 1 => ⟨S16x25000x192, .f32⟩
  | 2 => ⟨S195x3, .f32⟩
  | 3 => ⟨S3, .f32⟩
  | 4 => ⟨S195x4, .f32⟩
  | 5 => ⟨S4, .f32⟩
  | 6 => ⟨S195x3, .f32⟩
  | 7 => ⟨S3, .f32⟩
  | 8 => ⟨S195x1, .f32⟩
  | 9 => ⟨S1, .f32⟩
  | 10 => ⟨S195x3, .f32⟩
  | 11 => ⟨S3, .f32⟩
  | 12 => ⟨S16x3x3, .f32⟩
  | 13 => ⟨S16x4x4, .f32⟩
  | 14 => ⟨S16x25000x195, .f32⟩
  | 15 => ⟨S16x25000x3, .f32⟩
  | 16 => ⟨S1x1x3, .f32⟩
  | 17 => ⟨S16x25000x3, .f32⟩
  | 18 => ⟨S16x25000x3, .f32⟩
  | 19 => ⟨S16x25000x4, .f32⟩
  | 20 => ⟨S1x1x4, .f32⟩
  | 21 => ⟨S16x25000x4, .f32⟩
  | 22 => ⟨S16x25000x4, .f32⟩
  | 23 => ⟨S16x25000x3, .f32⟩
  | 24 => ⟨S1x1x3, .f32⟩
  | 25 => ⟨S16x25000x3, .f32⟩
  | 26 => ⟨S16x25000x3, .f32⟩
  | 27 => ⟨S16x25000x1, .f32⟩
  | 28 => ⟨S1x1x1, .f32⟩
  | 29 => ⟨S16x25000x1, .f32⟩
  | 30 => ⟨S16x25000x1, .f32⟩
  | 31 => ⟨S16x25000x3, .f32⟩
  | 32 => ⟨S1x1x3, .f32⟩
  | 33 => ⟨S16x25000x3, .f32⟩
  | 34 => ⟨S16x25000x3, .f32⟩
  | 35 => ⟨S16x25000x3, .f32⟩
  | 36 => ⟨S16x25000x4, .f32⟩
  | 37 => ⟨S_, .f32⟩
  | 38 => ⟨S16x25000, .f32⟩
  | 39 => ⟨S16x25000x1, .f32⟩
  | 40 => ⟨S16x25000x1, .f32⟩
  | 41 => ⟨S_, .f32⟩
  | 42 => ⟨S16x25000x1, .f32⟩
  | 43 => ⟨S16x25000x1, .f32⟩
  | 44 => ⟨S16x25000x4, .f32⟩
  | 45 => ⟨S16x25000x4, .f32⟩
  | 46 => ⟨S_, .f32⟩
  | 47 => ⟨S16x25000x3, .f32⟩
  | 48 => ⟨S16x25000x3, .f32⟩
  | 49 => ⟨S16x25000x3, .f32⟩
  | 50 => ⟨S_, .f32⟩
  | 51 => ⟨S16x25000x3, .f32⟩
  | 52 => ⟨S16x25000x3, .f32⟩
  | 53 => ⟨S16x25000x1, .f32⟩
  | 54 => ⟨S16x25000x1, .f32⟩
  | 55 => ⟨S_, .f32⟩
  | 56 => ⟨S16x25000x1, .f32⟩
  | 57 => ⟨S16x25000x1, .f32⟩
  | 58 => ⟨S_, .f32⟩
  | 59 => ⟨S16x25000x1, .f32⟩
  | 60 => ⟨S16x25000x1, .f32⟩
  | 61 => ⟨S_, .f32⟩
  | 62 => ⟨S_, .f32⟩
  | 63 => ⟨S_, .f32⟩
  | 64 => ⟨S16x25000x3, .f32⟩
  | 65 => ⟨S16x25000x3, .f32⟩
  | 66 => ⟨S_, .f32⟩
  | 67 => ⟨S16x25000x3, .f32⟩
  | 68 => ⟨S16x25000x3, .f32⟩
  | 69 => ⟨S16x4x4, .f32⟩
  | 70 => ⟨S16x1x1, .f32⟩
  | 71 => ⟨S16, .f32⟩
  | 72 => ⟨S16x1x1, .f32⟩
  | 73 => ⟨S16, .f32⟩
  | 74 => ⟨S16x1x1, .f32⟩
  | 75 => ⟨S16, .f32⟩
  | 76 => ⟨S16x1x1, .f32⟩
  | 77 => ⟨S16, .f32⟩
  | 78 => ⟨S_, .f32⟩
  | 79 => ⟨S16x4x4, .f32⟩
  | 80 => ⟨S_, .f32⟩
  | 81 => ⟨S16, .f32⟩
  | 82 => ⟨S16, .f32⟩
  | 83 => ⟨S_, .f32⟩
  | 84 => ⟨S16, .f32⟩
  | 85 => ⟨S16, .f32⟩
  | 86 => ⟨S_, .i32⟩
  | 87 => ⟨S1, .i32⟩
  | 88 => ⟨S_, .i32⟩
  | 89 => ⟨S1, .i32⟩
  | 90 => ⟨S2, .i32⟩
  | 91 => ⟨S16x4x4, .f32⟩
  | 92 => ⟨S_, .f32⟩
  | 93 => ⟨S16, .f32⟩
  | 94 => ⟨S16, .f32⟩
  | 95 => ⟨S_, .f32⟩
  | 96 => ⟨S16, .f32⟩
  | 97 => ⟨S16, .f32⟩
  | 98 => ⟨S_, .i32⟩
  | 99 => ⟨S1, .i32⟩
  | 100 => ⟨S_, .i32⟩
  | 101 => ⟨S1, .i32⟩
  | 102 => ⟨S2, .i32⟩
  | 103 => ⟨S16x4x4, .f32⟩
  | 104 => ⟨S_, .f32⟩
  | 105 => ⟨S16, .f32⟩
  | 106 => ⟨S16, .f32⟩
  | 107 => ⟨S_, .f32⟩
  | 108 => ⟨S16, .f32⟩
  | 109 => ⟨S16, .f32⟩
  | 110 => ⟨S_, .f32⟩
  | 111 => ⟨S16, .f32⟩
  | 112 => ⟨S16, .f32⟩
  | 113 => ⟨S_, .i32⟩
  | 114 => ⟨S1, .i32⟩
  | 115 => ⟨S_, .i32⟩
  | 116 => ⟨S1, .i32⟩
  | 117 => ⟨S2, .i32⟩
  | 118 => ⟨S16x4x4, .f32⟩
  | 119 => ⟨S_, .f32⟩
  | 120 => ⟨S16, .f32⟩
  | 121 => ⟨S16, .f32⟩
  | 122 => ⟨S_, .f32⟩
  | 123 => ⟨S16, .f32⟩
  | 124 => ⟨S16, .f32⟩
  | 125 => ⟨S_, .f32⟩
  | 126 => ⟨S16, .f32⟩
  | 127 => ⟨S16, .f32⟩
  | _ => ⟨S16x25000x3, .f32⟩

abbrev hbmTy0_1 (i : Nat) : BufTy := match i % 128 with
  | 0 => ⟨S_, .i32⟩
  | 1 => ⟨S1, .i32⟩
  | 2 => ⟨S_, .i32⟩
  | 3 => ⟨S1, .i32⟩
  | 4 => ⟨S2, .i32⟩
  | 5 => ⟨S16x4x4, .f32⟩
  | 6 => ⟨S_, .i32⟩
  | 7 => ⟨S1, .i32⟩
  | 8 => ⟨S_, .i32⟩
  | 9 => ⟨S1, .i32⟩
  | 10 => ⟨S2, .i32⟩
  | 11 => ⟨S_, .f32⟩
  | 12 => ⟨S16, .f32⟩
  | 13 => ⟨S16x4x4, .f32⟩
  | 14 => ⟨S_, .i32⟩
  | 15 => ⟨S1, .i32⟩
  | 16 => ⟨S_, .i32⟩
  | 17 => ⟨S1, .i32⟩
  | 18 => ⟨S2, .i32⟩
  | 19 => ⟨S_, .f32⟩
  | 20 => ⟨S16, .f32⟩
  | 21 => ⟨S16x4x4, .f32⟩
  | 22 => ⟨S_, .i32⟩
  | 23 => ⟨S1, .i32⟩
  | 24 => ⟨S_, .i32⟩
  | 25 => ⟨S1, .i32⟩
  | 26 => ⟨S2, .i32⟩
  | 27 => ⟨S_, .f32⟩
  | 28 => ⟨S16, .f32⟩
  | 29 => ⟨S16x4x4, .f32⟩
  | 30 => ⟨S16x4x4, .f32⟩
  | 31 => ⟨S16x25000x1, .f32⟩
  | 32 => ⟨S_, .f32⟩
  | 33 => ⟨S16x25000x1, .f32⟩
  | 34 => ⟨S16x25000x4, .f32⟩
  | 35 => ⟨S16x25000x4, .f32⟩
  | 36 => ⟨S16x25000x1, .f32⟩
  | 37 => ⟨S_, .f32⟩
  | 38 => ⟨S16x25000x1, .f32⟩
  | 39 => ⟨S16x25000x1, .f32⟩
  | 40 => ⟨S16x25000x2, .f32⟩
  | 41 => ⟨S16x25000x2, .f32⟩
  | 42 => ⟨S16x25000x2, .f32⟩
  | 43 => ⟨S16x25000x1, .f32⟩
  | 44 => ⟨S16x25000x1, .f32⟩
  | 45 => ⟨S16x25000x14, .f32⟩
  | _ => ⟨S16x25000x3, .f32⟩

abbrev hbmTy (i : Nat) : BufTy := match i / 128 with
  | 0 => hbmTy0_0 i
  | 1 => hbmTy0_1 i
  | _ => ⟨S16x25000x3, .f32⟩

abbrev bufTy : (tb : Table) → Fin (tcTables nBuf tb) → BufTy
  | .hbm, ⟨i, _⟩ => hbmTy i
  | _, _ => ⟨S16x25000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_call0_v0 : Ref sig .tc := ⟨.hbm, 36, rfl⟩
abbrev main_call0_cst : Ref sig .tc := ⟨.hbm, 37, rfl⟩
abbrev main_call0_v1 : Ref sig .tc := ⟨.hbm, 38, rfl⟩
abbrev main_call0_v2 : Ref sig .tc := ⟨.hbm, 39, rfl⟩
abbrev main_v22 : Ref sig .tc := ⟨.hbm, 40, rfl⟩
abbrev main_cst : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_0 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_1 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_2 : Ref sig .tc := ⟨.hbm, 55, rfl⟩
abbrev main_v34 : Ref sig .tc := ⟨.hbm, 56, rfl⟩
abbrev main_v35 : Ref sig .tc := ⟨.hbm, 57, rfl⟩
abbrev main_cst_3 : Ref sig .tc := ⟨.hbm, 58, rfl⟩
abbrev main_v36 : Ref sig .tc := ⟨.hbm, 59, rfl⟩
abbrev main_v37 : Ref sig .tc := ⟨.hbm, 60, rfl⟩
abbrev main_cst_4 : Ref sig .tc := ⟨.hbm, 61, rfl⟩
abbrev main_cst_5 : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_call1_v3 : Ref sig .tc := ⟨.hbm, 66, rfl⟩
abbrev main_call1_v4 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_6 : Ref sig .tc := ⟨.hbm, 78, rfl⟩
abbrev main_v48 : Ref sig .tc := ⟨.hbm, 79, rfl⟩
abbrev main_cst_7 : Ref sig .tc := ⟨.hbm, 80, rfl⟩
abbrev main_v49 : Ref sig .tc := ⟨.hbm, 81, rfl⟩
abbrev main_v50 : Ref sig .tc := ⟨.hbm, 82, rfl⟩
abbrev main_cst_8 : Ref sig .tc := ⟨.hbm, 83, rfl⟩
abbrev main_v51 : Ref sig .tc := ⟨.hbm, 84, rfl⟩
abbrev main_v52 : Ref sig .tc := ⟨.hbm, 85, rfl⟩
abbrev main_c : Ref sig .tc := ⟨.hbm, 86, rfl⟩
abbrev main_v53 : Ref sig .tc := ⟨.hbm, 87, rfl⟩
abbrev main_c_9 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_cst_10 : Ref sig .tc := ⟨.hbm, 92, rfl⟩
abbrev main_v57 : Ref sig .tc := ⟨.hbm, 93, rfl⟩
abbrev main_v58 : Ref sig .tc := ⟨.hbm, 94, rfl⟩
abbrev main_cst_11 : Ref sig .tc := ⟨.hbm, 95, rfl⟩
abbrev main_v59 : Ref sig .tc := ⟨.hbm, 96, rfl⟩
abbrev main_v60 : Ref sig .tc := ⟨.hbm, 97, rfl⟩
abbrev main_c_12 : Ref sig .tc := ⟨.hbm, 98, rfl⟩
abbrev main_v61 : Ref sig .tc := ⟨.hbm, 99, rfl⟩
abbrev main_c_13 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_cst_14 : Ref sig .tc := ⟨.hbm, 104, rfl⟩
abbrev main_v65 : Ref sig .tc := ⟨.hbm, 105, rfl⟩
abbrev main_v66 : Ref sig .tc := ⟨.hbm, 106, rfl⟩
abbrev main_cst_15 : Ref sig .tc := ⟨.hbm, 107, rfl⟩
abbrev main_v67 : Ref sig .tc := ⟨.hbm, 108, rfl⟩
abbrev main_v68 : Ref sig .tc := ⟨.hbm, 109, rfl⟩
abbrev main_cst_16 : Ref sig .tc := ⟨.hbm, 110, rfl⟩
abbrev main_v69 : Ref sig .tc := ⟨.hbm, 111, rfl⟩
abbrev main_v70 : Ref sig .tc := ⟨.hbm, 112, rfl⟩
abbrev main_c_17 : Ref sig .tc := ⟨.hbm, 113, rfl⟩
abbrev main_v71 : Ref sig .tc := ⟨.hbm, 114, rfl⟩
abbrev main_c_18 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_cst_19 : Ref sig .tc := ⟨.hbm, 119, rfl⟩
abbrev main_v75 : Ref sig .tc := ⟨.hbm, 120, rfl⟩
abbrev main_v76 : Ref sig .tc := ⟨.hbm, 121, rfl⟩
abbrev main_cst_20 : Ref sig .tc := ⟨.hbm, 122, rfl⟩
abbrev main_v77 : Ref sig .tc := ⟨.hbm, 123, rfl⟩
abbrev main_v78 : Ref sig .tc := ⟨.hbm, 124, rfl⟩
abbrev main_cst_21 : Ref sig .tc := ⟨.hbm, 125, rfl⟩
abbrev main_v79 : Ref sig .tc := ⟨.hbm, 126, rfl⟩
abbrev main_v80 : Ref sig .tc := ⟨.hbm, 127, rfl⟩
abbrev main_c_22 : Ref sig .tc := ⟨.hbm, 128, rfl⟩
abbrev main_v81 : Ref sig .tc := ⟨.hbm, 129, rfl⟩
abbrev main_c_23 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_c_24 : Ref sig .tc := ⟨.hbm, 134, rfl⟩
abbrev main_v85 : Ref sig .tc := ⟨.hbm, 135, rfl⟩
abbrev main_c_25 : Ref sig .tc := ⟨.hbm, 136, rfl⟩
abbrev main_v86 : Ref sig .tc := ⟨.hbm, 137, rfl⟩
abbrev main_v87 : Ref sig .tc := ⟨.hbm, 138, rfl⟩
abbrev main_cst_26 : Ref sig .tc := ⟨.hbm, 139, rfl⟩
abbrev main_v88 : Ref sig .tc := ⟨.hbm, 140, rfl⟩
abbrev main_v89 : Ref sig .tc := ⟨.hbm, 141, rfl⟩
abbrev main_c_27 : Ref sig .tc := ⟨.hbm, 142, rfl⟩
abbrev main_v90 : Ref sig .tc := ⟨.hbm, 143, rfl⟩
abbrev main_c_28 : Ref sig .tc := ⟨.hbm, 144, rfl⟩
abbrev main_v91 : Ref sig .tc := ⟨.hbm, 145, rfl⟩
abbrev main_v92 : Ref sig .tc := ⟨.hbm, 146, rfl⟩
abbrev main_cst_29 : Ref sig .tc := ⟨.hbm, 147, rfl⟩
abbrev main_v93 : Ref sig .tc := ⟨.hbm, 148, rfl⟩
abbrev main_v94 : Ref sig .tc := ⟨.hbm, 149, rfl⟩
abbrev main_c_30 : Ref sig .tc := ⟨.hbm, 150, rfl⟩
abbrev main_v95 : Ref sig .tc := ⟨.hbm, 151, rfl⟩
abbrev main_c_31 : Ref sig .tc := ⟨.hbm, 152, rfl⟩
abbrev main_v96 : Ref sig .tc := ⟨.hbm, 153, rfl⟩
abbrev main_v97 : Ref sig .tc := ⟨.hbm, 154, rfl⟩
abbrev main_cst_32 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_cst_33 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_cst_34 : Ref sig .tc := ⟨.hbm, 165, rfl⟩
abbrev main_v106 : Ref sig .tc := ⟨.hbm, 166, rfl⟩
abbrev main_v107 : Ref sig .tc := ⟨.hbm, 167, rfl⟩
abbrev main_v108 : Ref sig .tc := ⟨.hbm, 168, rfl⟩
abbrev main_v109 : Ref sig .tc := ⟨.hbm, 169, rfl⟩
abbrev main_v110 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩

abbrev nD : Nat := 1
abbrev τ : Topo := Topo.v7x

variable {F : FTy → Type} [FloatOps F]

class Facts₀ : Prop where
  concatenates_S16x25000x3_S16x25000x192_S16x25000x195_d2 : Shape.Concatenates [S16x25000x3, S16x25000x192] S16x25000x195 2
  bcast_S3_S1x1x3_2 : S3.BroadcastsInDim S1x1x3 (![2] : Fin 1 → Fin S1x1x3.rank)
  bcast_S1x1x3_S16x25000x3_0_1_2 : S1x1x3.BroadcastsInDim S16x25000x3 (![0, 1, 2] : Fin 3 → Fin S16x25000x3.rank)
  bcast_S4_S1x1x4_2 : S4.BroadcastsInDim S1x1x4 (![2] : Fin 1 → Fin S1x1x4.rank)
  bcast_S1x1x4_S16x25000x4_0_1_2 : S1x1x4.BroadcastsInDim S16x25000x4 (![0, 1, 2] : Fin 3 → Fin S16x25000x4.rank)
  bcast_S1_S1x1x1_2 : S1.BroadcastsInDim S1x1x1 (![2] : Fin 1 → Fin S1x1x1.rank)
  bcast_S1x1x1_S16x25000x1_0_1_2 : S1x1x1.BroadcastsInDim S16x25000x1 (![0, 1, 2] : Fin 3 → Fin S16x25000x1.rank)
  reducesTo_S16x25000x4_S16x25000_d2 : S16x25000x4.ReducesTo [2] S16x25000
  h_S_ : 0 < S_.numel
  bcast_S16x25000_S16x25000x1_0_1 : S16x25000.BroadcastsInDim S16x25000x1 (![0, 1] : Fin 2 → Fin S16x25000x1.rank)
  bcast_S_S16x25000x1 : S_.BroadcastsInDim S16x25000x1 (![] : Fin 0 → Fin S16x25000x1.rank)
  bcast_S16x25000x1_S16x25000x4_0_1_2 : S16x25000x1.BroadcastsInDim S16x25000x4 (![0, 1, 2] : Fin 3 → Fin S16x25000x4.rank)
  bcast_S_S16x25000x3 : S_.BroadcastsInDim S16x25000x3 (![] : Fin 0 → Fin S16x25000x3.rank)
  transposes_S16x4x4_S16x4x4_0_2_1 : S16x4x4.Transposes [0, 2, 1] S16x4x4
  slices_S16x3x3_S16x1x1_0_0_0 : S16x3x3.Slices ![0, 0, 0] S16x1x1
  shapeCasts_S16x1x1_S16 : S16x1x1.ShapeCasts S16
  slices_S16x3x3_S16x1x1_0_1_1 : S16x3x3.Slices ![0, 1, 1] S16x1x1
  slices_S16x3x3_S16x1x1_0_0_2 : S16x3x3.Slices ![0, 0, 2] S16x1x1
  slices_S16x3x3_S16x1x1_0_1_2 : S16x3x3.Slices ![0, 1, 2] S16x1x1
  bcast_S_S16x4x4 : S_.BroadcastsInDim S16x4x4 (![] : Fin 0 → Fin S16x4x4.rank)
  bcast_S_S16 : S_.BroadcastsInDim S16 (![] : Fin 0 → Fin S16.rank)
  bcast_S_S1 : S_.BroadcastsInDim S1 (![] : Fin 0 → Fin S1.rank)
  concatenates_S1_S1_S2_d0 : Shape.Concatenates [S1, S1] S2 0
  slices_S16x25000x3_S16x25000x1_0_0_0 : S16x25000x3.Slices ![0, 0, 0] S16x25000x1
  concatenates_S16x25000x3_S16x25000x1_S16x25000x4_d2 : Shape.Concatenates [S16x25000x3, S16x25000x1] S16x25000x4 2
  slices_S16x25000x4_S16x25000x1_0_0_3 : S16x25000x4.Slices ![0, 0, 3] S16x25000x1
  slices_S16x25000x4_S16x25000x2_0_0_0 : S16x25000x4.Slices ![0, 0, 0] S16x25000x2
  bcast_S16x25000x1_S16x25000x2_0_1_2 : S16x25000x1.BroadcastsInDim S16x25000x2 (![0, 1, 2] : Fin 3 → Fin S16x25000x2.rank)
  slices_S16x25000x4_S16x25000x1_0_0_2 : S16x25000x4.Slices ![0, 0, 2] S16x25000x1
  concatenates_S16x25000x2_S16x25000x1_S16x25000x3_S16x25000x1_S16x25000x3_S16x25000x4_S16x25000x14_d2 : Shape.Concatenates [S16x25000x2, S16x25000x1, S16x25000x3, S16x25000x1, S16x25000x3, S16x25000x4] S16x25000x14 2
  dot_S16x25000x195_S195x3_S16x25000x3_2_0_01_1_n_n_wf : DotDims.WF S16x25000x195 S195x3 S16x25000x3 [2] [0] [0, 1] [1] [] []
  dot_S16x25000x195_S195x4_S16x25000x4_2_0_01_1_n_n_wf : DotDims.WF S16x25000x195 S195x4 S16x25000x4 [2] [0] [0, 1] [1] [] []
  dot_S16x25000x195_S195x1_S16x25000x1_2_0_01_1_n_n_wf : DotDims.WF S16x25000x195 S195x1 S16x25000x1 [2] [0] [0, 1] [1] [] []
  scatter_S16x4x4_S2_S16_0_12_12_0_wf : ScatterDims.WF S16x4x4 S2 S16 [0] [1, 2] [1, 2] 0
  dot_S16x4x4_S16x4x4_S16x4x4_2_2_1_1_0_0_wf : DotDims.WF S16x4x4 S16x4x4 S16x4x4 [2] [2] [1] [1] [0] [0]
  dot_S16x25000x4_S16x4x4_S16x25000x4_2_1_1_2_0_0_wf : DotDims.WF S16x25000x4 S16x4x4 S16x25000x4 [2] [1] [1] [2] [0] [0]

variable [Facts₀]

def dot_S16x25000x195_S195x3_S16x25000x3_2_0_01_1_n_n : DotDims S16x25000x195 S195x3 S16x25000x3 where
  lhsContracting := [2]
  rhsContracting := [0]
  lhsNonContracting := [0, 1]
  rhsNonContracting := [1]
  lhsBatch := []
  rhsBatch := []
  wf := dot_S16x25000x195_S195x3_S16x25000x3_2_0_01_1_n_n_wf
def dot_S16x25000x195_S195x4_S16x25000x4_2_0_01_1_n_n : DotDims S16x25000x195 S195x4 S16x25000x4 where
  lhsContracting := [2]
  rhsContracting := [0]
  lhsNonContracting := [0, 1]
  rhsNonContracting := [1]
  lhsBatch := []
  rhsBatch := []
  wf := dot_S16x25000x195_S195x4_S16x25000x4_2_0_01_1_n_n_wf
def dot_S16x25000x195_S195x1_S16x25000x1_2_0_01_1_n_n : DotDims S16x25000x195 S195x1 S16x25000x1 where
  lhsContracting := [2]
  rhsContracting := [0]
  lhsNonContracting := [0, 1]
  rhsNonContracting := [1]
  lhsBatch := []
  rhsBatch := []
  wf := dot_S16x25000x195_S195x1_S16x25000x1_2_0_01_1_n_n_wf
def scatter_S16x4x4_S2_S16_0_12_12_0 : ScatterDims S16x4x4 S2 S16 where
  updateWindowDims := [0]
  insertedWindowDims := [1, 2]
  scatterDimsToOperandDims := [1, 2]
  indexVectorDim := 0
  wf := scatter_S16x4x4_S2_S16_0_12_12_0_wf
def dot_S16x4x4_S16x4x4_S16x4x4_2_2_1_1_0_0 : DotDims S16x4x4 S16x4x4 S16x4x4 where
  lhsContracting := [2]
  rhsContracting := [2]
  lhsNonContracting := [1]
  rhsNonContracting := [1]
  lhsBatch := [0]
  rhsBatch := [0]
  wf := dot_S16x4x4_S16x4x4_S16x4x4_2_2_1_1_0_0_wf
def dot_S16x25000x4_S16x4x4_S16x25000x4_2_1_1_2_0_0 : DotDims S16x25000x4 S16x4x4 S16x25000x4 where
  lhsContracting := [2]
  rhsContracting := [1]
  lhsNonContracting := [1]
  rhsNonContracting := [2]
  lhsBatch := [0]
  rhsBatch := [0]
  wf := dot_S16x25000x4_S16x4x4_S16x25000x4_2_1_1_2_0_0_wf

class Facts : Prop extends Facts₀ where

variable [Facts]
-- ==== Proof.KHost.lean ====
/-
  The host side of the launch. Before its one kernel region the program runs 93 host operations: it lays the five
  heads' weights side by side and their biases end to end, and builds each frame's projection matrix from the
  intrinsics and the extrinsics. `V` is what the device's buffers hold when the region is entered — the fold of
  those operations over the launch memory; none of them writes an argument array, so each argument is still what
  the launch put there.
-/
import proofs.«141409_j36189394436976_1_alg».proof.Proof.Gen.Kernel.Launch
import Idealize.ShloMosaic.Lib.Pipeline.FrameBody

noncomputable section

namespace Cert.Kernel.Frm

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds

variable {F : FTy → Type} [FloatOps F]

variable (m : (ℓ : Loc nD τ sig) → Buf (Elt F) ℓ)

/-- Core `c`'s buffers when the region is entered: the host operations folded over the launch memory. -/
abbrev V (c : Dev nD) (b : Ref sig .tc) : Buf (Elt F) ((c : Thread nD τ).loc b) :=
  StableHlo.after hostOps0 (fun b => m (c, b)) b

/-- Every host operation writes a buffer the program declares: none allocates. -/
theorem hostOps0_fresh : (hostOps0 : List (HloOp τ sig (Elt F))).Forall fun op => op.fresh = ∅ := by
  simp only [List.Forall]; repeat' constructor

/-- `main` is those operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

set_option maxHeartbeats 2000000 in
/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 2000000 in
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 2000000 in
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 2000000 in
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 2000000 in
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 2000000 in
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 2000000 in
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 2000000 in
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 2000000 in
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 2000000 in
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 2000000 in
/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 2000000 in
/-- No host operation before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 2000000 in
/-- No host operation before the region writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 2000000 in
/-- No host operation before the region writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

end Cert.Kernel.Frm

end
-- ==== Proof.KFrame.lean ====
/-
  The frame of the program: every weakly fair execution of `main` terminates, nothing faults, and the fourteen
  argument arrays end as they were launched; and, beyond the frame, what the result array holds at the end.

  The one kernel region runs its body at the 400 points of a 16 x 25 grid. At a point the pipeline hands the body six
  staging buffers: the point's 1000 x 3 block of points, its 1000 x 192 block of features, frame b's 4 x 4
  projection, the 195 x 14 stacked weights, the 1 x 14 bias row, and the 1000 x 14 output block. The body reads the
  five inputs whole, computes, and overwrites the output block whole; it keeps nothing between points. So the
  proof data are: each input buffer holds, after the body as before, the window's block of the array the region
  found (`iblk`), and the output buffer holds the body's one stored value, a pure function of the five input
  blocks (`out5`).
-/
import proofs.«141409_j36189394436976_1_alg».proof.Proof.KHost
import proofs.«141409_j36189394436976_1_alg».proof.Proof.Gen.Kernel.Skeleton
import proofs.«141409_j36189394436976_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether the pipeline fetched it there
    or not (unfetched, the block index has not moved), for any proof data over the region-entry arrays whose body
    leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- In a state satisfying the library's frame post the fourteen argument arrays are as launched: the two the
    pipeline stages (points, features) are inputs, so they end at their entry contents; the other twelve no window
    touches; and no host operation wrote any of them. -/
theorem kept_args (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  ⟨((h c).1 0).trans (((dats 0 c).arrAt_in 0 rfl _).trans ((hA c 0).trans (V_main_arg0 m c))),
    ((h c).1 1).trans (((dats 0 c).arrAt_in 1 rfl _).trans ((hA c 1).trans (V_main_arg1 m c))),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c),
    ((h c).2 main_arg11 (Pipeline.mem_restRefs_of main_arg11 (by decide) (by decide))).trans (V_main_arg11 m c),
    ((h c).2 main_arg12 (Pipeline.mem_restRefs_of main_arg12 (by decide) (by decide))).trans (V_main_arg12 m c),
    ((h c).2 main_arg13 (Pipeline.mem_restRefs_of main_arg13 (by decide) (by decide))).trans (V_main_arg13 m c)⟩

/-- From a run to the library's frame post, the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => kept_args m dats hA r h c) h

/-! ## The body's accesses -/

abbrev r0 : Rect S1x1000x3 := Rect.unit (s := S1x1000x3) ![0, 0, 0] S1x1000x3.size inb_S1x1000x3_S1x1000x3_0_0_0
abbrev r1 : Rect S1x1000x192 := Rect.unit (s := S1x1000x192) ![0, 0, 0] S1x1000x192.size inb_S1x1000x192_S1x1000x192_0_0_0
abbrev r2 : Rect S1x4x4 := Rect.unit (s := S1x4x4) ![0, 0, 0] S1x4x4.size inb_S1x4x4_S1x4x4_0_0_0
abbrev r3 : Rect S195x14 := Rect.unit (s := S195x14) ![0, 0] S195x14.size inb_S195x14_S195x14_0_0
abbrev r4 : Rect S1x14 := Rect.unit (s := S1x14) ![0, 0] S1x14.size inb_S1x14_S1x14_0_0
abbrev r5 : Rect S1x1000x14 := Rect.unit (s := S1x1000x14) ![0, 0, 0] S1x1000x14.size inb_S1x1000x14_S1x1000x14_0_0_0

/-! ## What the body leaves in the output block -/

/-- The value the body stores, from the five input blocks: the activations of the linear layer's result, the
    camera projection of the mean, packed. -/
def pay5 (x0 : Vec F S1x1000x3 .f32) (x1 : Vec F S1x1000x192 .f32) (x2 : Vec F S1x4x4 .f32) (x3 : Vec F S195x14 .f32) (x4 : Vec F S1x14 .f32) :
    FVec F S1x1000x14 .f32 :=
  k0_pay1 (k0_pay4 (View.ld x0 r0) (View.ld x1 r1) (View.ld x3 r3) (View.ld x4 r4))
    (k0_pay5 (View.ld x0 r0) (View.ld x1 r1) (View.ld x3 r3) (View.ld x4 r4))
    (k0_pay6 (View.ld x0 r0) (View.ld x1 r1) (View.ld x3 r3) (View.ld x4 r4))
    (k0_pay7 (View.ld x0 r0) (View.ld x1 r1) (View.ld x3 r3) (View.ld x4 r4))
    (k0_pay8 (View.ld x0 r0) (View.ld x1 r1) (View.ld x3 r3) (View.ld x4 r4)) (View.ld x2 r2)

/-- The output block after the body: its one store, which covers it. -/
def out5 (x0 : Vec F S1x1000x3 .f32) (x1 : Vec F S1x1000x192 .f32) (x2 : Vec F S1x4x4 .f32) (x3 : Vec F S195x14 .f32) (x4 : Vec F S1x14 .f32) :
    Vec F S1x1000x14 .f32 :=
  View.canon [⟨r5, pay5 x0 x1 x2 x3 x4⟩]

/-- The store's rectangle is the whole block. -/
theorem cover5 (p0 : Vec F S1x1000x14 .f32) (y : S1x1000x14.Idx) :
    ∃ pc ∈ ([⟨r5, p0⟩] : List (View.Piece (Elt F) S1x1000x14 .f32)), y ∈ pc.1.set :=
  View.cover_of_tiled [⟨r5, p0⟩] S1x1000x14.size (by rfl) y

/-! ## The body's triple -/

set_option maxHeartbeats 4000000 in
/-- The body on whole staging buffers, the inputs at contents `x0 .. x4` and the output at anything, runs to the
    continuation with the inputs as they were and the output at `out5` of them. -/
theorem sound_kernel (c : Dev nD) (E : Set ℕ) (i : grid0.Coords)
    (arg2 : Memref sig .tc .vmem S1x1000x3 .f32) (harg2 : arg2.IsWhole) (arg3 : Memref sig .tc .vmem S1x1000x192 .f32) (harg3 : arg3.IsWhole)
    (arg4 : Memref sig .tc .vmem S1x4x4 .f32) (harg4 : arg4.IsWhole) (arg5 : Memref sig .tc .vmem S195x14 .f32) (harg5 : arg5.IsWhole)
    (arg6 : Memref sig .tc .vmem S1x14 .f32) (harg6 : arg6.IsWhole) (arg7 : Memref sig .tc .vmem S1x1000x14 .f32) (harg7 : arg7.IsWhole)
    (x0 : Vec F S1x1000x3 .f32) (x1 : Vec F S1x1000x192 .f32) (x2 : Vec F S1x4x4 .f32) (x3 : Vec F S195x14 .f32) (x4 : Vec F S1x14 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out5 x0 x1 x2 x3 x4)) -∗ K ⟨⟩))
      ⊢ wp frame (wpE (defs₀ (F := F)) Variants.none c none) E
          (cc0__decoder_camera_kernel i arg2 harg2 arg3 harg3 arg4 harg4 arg5 harg5 arg6 harg6 arg7 harg7) K := by
  simp only [cc0__decoder_camera_kernel_eq_skeleton]; unfold cc0__decoder_camera_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5 _)

/-! ## The pipeline's proof data -/

/-- The proof data of the pipeline on core `c`: the arrays as the region finds them; after the body at point `t`
    each input buffer at its block and the output buffer at `out5` of the input blocks; the invariant the scoped
    rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = out5 (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the body's triple applies; the invariant and
    the core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of `main` terminates, and every final state has
    every array of the pipeline at what the proof data say and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

end Cert.Kernel.Frm

end
-- ==== Proof.KIHost.lean ====
/-
  The host side of the launch. Before its one kernel region the program runs 93 host operations: it lays the five
  heads' weights side by side and their biases end to end, and builds each frame's projection matrix from the
  intrinsics and the extrinsics. `V` is what the device's buffers hold when the region is entered — the fold of
  those operations over the launch memory; none of them writes an argument array, so each argument is still what
  the launch put there.
-/
import proofs.«141409_j36189394436976_1_alg».proof.Proof.Gen.KernelIdeal.Launch
import Idealize.ShloMosaic.Lib.Pipeline.FrameBody

noncomputable section

namespace Cert.KernelIdeal.Frm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds

variable {F : FTy → Type} [FloatOps F]

variable (m : (ℓ : Loc nD τ sig) → Buf (Elt F) ℓ)

/-- Core `c`'s buffers when the region is entered: the host operations folded over the launch memory. -/
abbrev V (c : Dev nD) (b : Ref sig .tc) : Buf (Elt F) ((c : Thread nD τ).loc b) :=
  StableHlo.after hostOps0 (fun b => m (c, b)) b

/-- Every host operation writes a buffer the program declares: none allocates. -/
theorem hostOps0_fresh : (hostOps0 : List (HloOp τ sig (Elt F))).Forall fun op => op.fresh = ∅ := by
  simp only [List.Forall]; repeat' constructor

/-- `main` is those operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

set_option maxHeartbeats 2000000 in
/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 2000000 in
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 2000000 in
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 2000000 in
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 2000000 in
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 2000000 in
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 2000000 in
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 2000000 in
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 2000000 in
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 2000000 in
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 2000000 in
/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 2000000 in
/-- No host operation before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 2000000 in
/-- No host operation before the region writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 2000000 in
/-- No host operation before the region writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

end Cert.KernelIdeal.Frm

end
-- ==== Proof.KIFrame.lean ====
/-
  The frame of the program: every weakly fair execution of `main` terminates, nothing faults, and the fourteen
  argument arrays end as they were launched; and, beyond the frame, what the result array holds at the end.

  The one kernel region runs its body at the 400 points of a 16 x 25 grid. At a point the pipeline hands the body six
  staging buffers: the point's 1000 x 3 block of points, its 1000 x 192 block of features, frame b's 4 x 4
  projection, the 195 x 14 stacked weights, the 1 x 14 bias row, and the 1000 x 14 output block. The body reads the
  five inputs whole, computes, and overwrites the output block whole; it keeps nothing between points. So the
  proof data are: each input buffer holds, after the body as before, the window's block of the array the region
  found (`iblk`), and the output buffer holds the body's one stored value, a pure function of the five input
  blocks (`out5`).
-/
import proofs.«141409_j36189394436976_1_alg».proof.Proof.KIHost
import proofs.«141409_j36189394436976_1_alg».proof.Proof.Gen.KernelIdeal.Skeleton
import proofs.«141409_j36189394436976_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether the pipeline fetched it there
    or not (unfetched, the block index has not moved), for any proof data over the region-entry arrays whose body
    leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- In a state satisfying the library's frame post the fourteen argument arrays are as launched: the two the
    pipeline stages (points, features) are inputs, so they end at their entry contents; the other twelve no window
    touches; and no host operation wrote any of them. -/
theorem kept_args (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  ⟨((h c).1 0).trans (((dats 0 c).arrAt_in 0 rfl _).trans ((hA c 0).trans (V_main_arg0 m c))),
    ((h c).1 1).trans (((dats 0 c).arrAt_in 1 rfl _).trans ((hA c 1).trans (V_main_arg1 m c))),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c),
    ((h c).2 main_arg11 (Pipeline.mem_restRefs_of main_arg11 (by decide) (by decide))).trans (V_main_arg11 m c),
    ((h c).2 main_arg12 (Pipeline.mem_restRefs_of main_arg12 (by decide) (by decide))).trans (V_main_arg12 m c),
    ((h c).2 main_arg13 (Pipeline.mem_restRefs_of main_arg13 (by decide) (by decide))).trans (V_main_arg13 m c)⟩

/-- From a run to the library's frame post, the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => kept_args m dats hA r h c) h

/-! ## The body's accesses -/

abbrev r0 : Rect S1x1000x3 := Rect.unit (s := S1x1000x3) ![0, 0, 0] S1x1000x3.size inb_S1x1000x3_S1x1000x3_0_0_0
abbrev r1 : Rect S1x1000x192 := Rect.unit (s := S1x1000x192) ![0, 0, 0] S1x1000x192.size inb_S1x1000x192_S1x1000x192_0_0_0
abbrev r2 : Rect S1x4x4 := Rect.unit (s := S1x4x4) ![0, 0, 0] S1x4x4.size inb_S1x4x4_S1x4x4_0_0_0
abbrev r3 : Rect S195x14 := Rect.unit (s := S195x14) ![0, 0] S195x14.size inb_S195x14_S195x14_0_0
abbrev r4 : Rect S1x14 := Rect.unit (s := S1x14) ![0, 0] S1x14.size inb_S1x14_S1x14_0_0
abbrev r5 : Rect S1x1000x14 := Rect.unit (s := S1x1000x14) ![0, 0, 0] S1x1000x14.size inb_S1x1000x14_S1x1000x14_0_0_0

/-! ## What the body leaves in the output block -/

/-- The value the body stores, from the five input blocks: the activations of the linear layer's result, the
    camera projection of the mean, packed. -/
def pay5 (x0 : Vec F S1x1000x3 .f32) (x1 : Vec F S1x1000x192 .f32) (x2 : Vec F S1x4x4 .f32) (x3 : Vec F S195x14 .f32) (x4 : Vec F S1x14 .f32) :
    FVec F S1x1000x14 .f32 :=
  k0_pay1 (k0_pay4 (View.ld x0 r0) (View.ld x1 r1) (View.ld x3 r3) (View.ld x4 r4))
    (k0_pay5 (View.ld x0 r0) (View.ld x1 r1) (View.ld x3 r3) (View.ld x4 r4))
    (k0_pay6 (View.ld x0 r0) (View.ld x1 r1) (View.ld x3 r3) (View.ld x4 r4))
    (k0_pay7 (View.ld x0 r0) (View.ld x1 r1) (View.ld x3 r3) (View.ld x4 r4))
    (k0_pay8 (View.ld x0 r0) (View.ld x1 r1) (View.ld x3 r3) (View.ld x4 r4)) (View.ld x2 r2)

/-- The output block after the body: its one store, which covers it. -/
def out5 (x0 : Vec F S1x1000x3 .f32) (x1 : Vec F S1x1000x192 .f32) (x2 : Vec F S1x4x4 .f32) (x3 : Vec F S195x14 .f32) (x4 : Vec F S1x14 .f32) :
    Vec F S1x1000x14 .f32 :=
  View.canon [⟨r5, pay5 x0 x1 x2 x3 x4⟩]

/-- The store's rectangle is the whole block. -/
theorem cover5 (p0 : Vec F S1x1000x14 .f32) (y : S1x1000x14.Idx) :
    ∃ pc ∈ ([⟨r5, p0⟩] : List (View.Piece (Elt F) S1x1000x14 .f32)), y ∈ pc.1.set :=
  View.cover_of_tiled [⟨r5, p0⟩] S1x1000x14.size (by rfl) y

/-! ## The body's triple -/

set_option maxHeartbeats 4000000 in
/-- The body on whole staging buffers, the inputs at contents `x0 .. x4` and the output at anything, runs to the
    continuation with the inputs as they were and the output at `out5` of them. -/
theorem sound_kernel (c : Dev nD) (E : Set ℕ) (i : grid0.Coords)
    (arg2 : Memref sig .tc .vmem S1x1000x3 .f32) (harg2 : arg2.IsWhole) (arg3 : Memref sig .tc .vmem S1x1000x192 .f32) (harg3 : arg3.IsWhole)
    (arg4 : Memref sig .tc .vmem S1x4x4 .f32) (harg4 : arg4.IsWhole) (arg5 : Memref sig .tc .vmem S195x14 .f32) (harg5 : arg5.IsWhole)
    (arg6 : Memref sig .tc .vmem S1x14 .f32) (harg6 : arg6.IsWhole) (arg7 : Memref sig .tc .vmem S1x1000x14 .f32) (harg7 : arg7.IsWhole)
    (x0 : Vec F S1x1000x3 .f32) (x1 : Vec F S1x1000x192 .f32) (x2 : Vec F S1x4x4 .f32) (x3 : Vec F S195x14 .f32) (x4 : Vec F S1x14 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out5 x0 x1 x2 x3 x4)) -∗ K ⟨⟩))
      ⊢ wp frame (wpE (defs₀ (F := F)) Variants.none c none) E
          (cc0__decoder_camera_kernel i arg2 harg2 arg3 harg3 arg4 harg4 arg5 harg5 arg6 harg6 arg7 harg7) K := by
  simp only [cc0__decoder_camera_kernel_eq_skeleton]; unfold cc0__decoder_camera_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5 _)

/-! ## The pipeline's proof data -/

/-- The proof data of the pipeline on core `c`: the arrays as the region finds them; after the body at point `t`
    each input buffer at its block and the output buffer at `out5` of the input blocks; the invariant the scoped
    rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = out5 (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the body's triple applies; the invariant and
    the core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of `main` terminates, and every final state has
    every array of the pipeline at what the proof data say and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

end Cert.KernelIdeal.Frm

end
-- ==== Proof.Spec.lean ====
/-
  The mathematics of the certificate, free of either program: what one gaussian's fourteen output numbers are,
  as a function of its point, its feature row, the five decoder heads and its frame's 4 x 4 projection.

  A point p in R^3 and its 192 features form the row x = (p, f) in R^195. The five linear heads, laid side by side,
  are the 195 x 14 matrix `Wall` with bias row `ball`; y = x . Wall + ball holds, in order, the position offset
  (columns 0-2), the quaternion (3-6), the log-scales (7-9), the opacity logit (10) and the colour (11-13).
  The world-space mean is p + y[0..2]; made homogeneous (a fourth coordinate 1) and multiplied by the frame's
  projection P it gives the clip coordinates c; with w = c[3] + 1e-7 the output row is
    ( c[0]/w, c[1]/w, c[2]/w,  min(exp(y[7..9] - 3.9), 0.1),  logistic(y[10]),  min(1, max(0, y[11..13])),
      y[3..6] / (sqrt(sum y[3..6]^2) + 1e-8) ).
  Every float literal is kept as its bit pattern: both programs carry the same words.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The literals of the two programs, as the extended reals their words denote. -/
abbrev cOne : EReal := Ideal.ofBits .f32 0x3F800000#32
abbrev cZero : EReal := Ideal.ofBits .f32 0x00000000#32
abbrev cEpsW : EReal := Ideal.ofBits .f32 0x33D6BF95#32     -- 1e-7, added to the clip w
abbrev cEpsN : EReal := Ideal.ofBits .f32 0x322BCC77#32     -- 1e-8, added to the quaternion's norm
abbrev cBias : EReal := Ideal.ofBits .f32 0x4079999A#32     -- 3.9, the scale bias
abbrev cCap : EReal := Ideal.ofBits .f32 0x3DCCCCCD#32      -- 0.1, the cap on a scale

/-- The decoder's input row: the point's three coordinates, then its 192 features. -/
def xrow (p : Fin 3 → EReal) (f : Fin 192 → EReal) (d : Fin 195) : EReal :=
  if h : d.val < 3 then p ⟨d.val, h⟩ else f ⟨d.val - 3, by have := d.isLt; omega⟩

/-- The five heads' weights side by side: columns 0-2, 3-6, 7-9, 10, 11-13. -/
def Wall (W0 : Fin 195 → Fin 3 → EReal) (W1 : Fin 195 → Fin 4 → EReal) (W2 : Fin 195 → Fin 3 → EReal)
    (W3 : Fin 195 → Fin 1 → EReal) (W4 : Fin 195 → Fin 3 → EReal) (d : Fin 195) (j : Fin 14) : EReal :=
  if h : j.val < 3 then W0 d ⟨j.val, h⟩
  else if h1 : j.val < 7 then W1 d ⟨j.val - 3, by omega⟩
  else if h2 : j.val < 10 then W2 d ⟨j.val - 7, by omega⟩
  else if h3 : j.val < 11 then W3 d ⟨j.val - 10, by omega⟩
  else W4 d ⟨j.val - 11, by have := j.isLt; omega⟩

/-- The five biases end to end, in the same order. -/
def ball (b0 : Fin 3 → EReal) (b1 : Fin 4 → EReal) (b2 : Fin 3 → EReal) (b3 : Fin 1 → EReal) (b4 : Fin 3 → EReal)
    (j : Fin 14) : EReal :=
  if h : j.val < 3 then b0 ⟨j.val, h⟩
  else if h1 : j.val < 7 then b1 ⟨j.val - 3, by omega⟩
  else if h2 : j.val < 10 then b2 ⟨j.val - 7, by omega⟩
  else if h3 : j.val < 11 then b3 ⟨j.val - 10, by omega⟩
  else b4 ⟨j.val - 11, by have := j.isLt; omega⟩

/-- One head column applied to a row: the inner product with the column, plus its bias. -/
def head (x : Fin 195 → EReal) (w : Fin 195 → EReal) (b : EReal) : EReal := (∑ d : Fin 195, x d * w d) + b

/-- The homogeneous world-space mean: p + offset, then 1. -/
def hom (p : Fin 3 → EReal) (y : Fin 14 → EReal) (i : Fin 4) : EReal :=
  if h : i.val < 3 then p ⟨i.val, h⟩ + y ⟨i.val, by omega⟩ else cOne

/-- The clip coordinates: the homogeneous mean times the frame's projection. -/
def clip (p : Fin 3 → EReal) (y : Fin 14 → EReal) (P : Fin 4 → Fin 4 → EReal) (j : Fin 4) : EReal :=
  ∑ i : Fin 4, hom p y i * P i j

/-- The divisor of the perspective division. -/
def wcol (p : Fin 3 → EReal) (y : Fin 14 → EReal) (P : Fin 4 → Fin 4 → EReal) : EReal := clip p y P 3 + cEpsW

/-- The quaternion's norm, made positive. -/
def rnorm (y : Fin 14 → EReal) : EReal :=
  Ideal.sqrt (∑ o : Fin 4, y ⟨3 + o.val, by omega⟩ * y ⟨3 + o.val, by omega⟩) + cEpsN

def ndc (p : Fin 3 → EReal) (y : Fin 14 → EReal) (P : Fin 4 → Fin 4 → EReal) (i : Fin 2) : EReal :=
  Ideal.div (clip p y P ⟨i.val, by omega⟩) (wcol p y P)
def depth (p : Fin 3 → EReal) (y : Fin 14 → EReal) (P : Fin 4 → Fin 4 → EReal) : EReal :=
  Ideal.div (clip p y P 2) (wcol p y P)
def scales (y : Fin 14 → EReal) (i : Fin 3) : EReal := min (Ideal.exp (y ⟨7 + i.val, by omega⟩ - cBias)) cCap
def opac (y : Fin 14 → EReal) : EReal := Ideal.logistic (y 10)
def colors (y : Fin 14 → EReal) (i : Fin 3) : EReal := min cOne (max cZero (y ⟨11 + i.val, by omega⟩))
def rot (y : Fin 14 → EReal) (i : Fin 4) : EReal := Ideal.div (y ⟨3 + i.val, by omega⟩) (rnorm y)

/-- The packed output row: ndc (2), depth (1), scales (3), opacity (1), colour (3), unit quaternion (4). -/
def outRow (p : Fin 3 → EReal) (y : Fin 14 → EReal) (P : Fin 4 → Fin 4 → EReal) (j : Fin 14) : EReal :=
  if h : j.val < 2 then ndc p y P ⟨j.val, h⟩
  else if h1 : j.val < 3 then depth p y P
  else if h2 : j.val < 6 then scales y ⟨j.val - 3, by omega⟩
  else if h3 : j.val < 7 then opac y
  else if h4 : j.val < 10 then colors y ⟨j.val - 7, by omega⟩
  else rot y ⟨j.val - 10, by have := j.isLt; omega⟩

theorem outRow_ndc (p y P) (i : Fin 2) : outRow p y P ⟨i.val, by omega⟩ = ndc p y P i := by
  unfold outRow; rw [dif_pos i.isLt]
theorem outRow_depth (p y P) : outRow p y P 2 = depth p y P := by
  unfold outRow; rw [dif_neg (by decide), dif_pos (by decide)]
theorem outRow_scales (p y P) (i : Fin 3) : outRow p y P ⟨3 + i.val, by omega⟩ = scales y i := by
  unfold outRow
  rw [dif_neg (by dsimp only; omega), dif_neg (by dsimp only; omega), dif_pos (by dsimp only; omega)]
  congr 1 <;> (apply Fin.ext; simp)
theorem outRow_opac (p y P) : outRow p y P 6 = opac y := by
  unfold outRow; rw [dif_neg (by decide), dif_neg (by decide), dif_neg (by decide), dif_pos (by decide)]
theorem outRow_colors (p y P) (i : Fin 3) : outRow p y P ⟨7 + i.val, by omega⟩ = colors y i := by
  unfold outRow
  rw [dif_neg (by dsimp only; omega), dif_neg (by dsimp only; omega), dif_neg (by dsimp only; omega), dif_neg (by dsimp only; omega), dif_pos (by dsimp only; omega)]
  congr 1 <;> (apply Fin.ext; simp)
theorem outRow_rot (p y P) (i : Fin 4) : outRow p y P ⟨10 + i.val, by omega⟩ = rot y i := by
  unfold outRow
  rw [dif_neg (by dsimp only; omega), dif_neg (by dsimp only; omega), dif_neg (by dsimp only; omega), dif_neg (by dsimp only; omega), dif_neg (by dsimp only; omega)]
  congr 1 <;> (apply Fin.ext; simp)

theorem Wall_0 (W0 W1 W2 W3 W4 d) (i : Fin 3) : Wall W0 W1 W2 W3 W4 d ⟨i.val, by omega⟩ = W0 d i := by
  unfold Wall; rw [dif_pos i.isLt]
theorem Wall_1 (W0 W1 W2 W3 W4 d) (i : Fin 4) : Wall W0 W1 W2 W3 W4 d ⟨3 + i.val, by omega⟩ = W1 d i := by
  unfold Wall; rw [dif_neg (by dsimp only; omega), dif_pos (by dsimp only; omega)]; congr 1 <;> (apply Fin.ext; simp)
theorem Wall_2 (W0 W1 W2 W3 W4 d) (i : Fin 3) : Wall W0 W1 W2 W3 W4 d ⟨7 + i.val, by omega⟩ = W2 d i := by
  unfold Wall; rw [dif_neg (by dsimp only; omega), dif_neg (by dsimp only; omega), dif_pos (by dsimp only; omega)]; congr 1 <;> (apply Fin.ext; simp)
theorem Wall_3 (W0 W1 W2 W3 W4 d) (i : Fin 1) : Wall W0 W1 W2 W3 W4 d ⟨10 + i.val, by omega⟩ = W3 d i := by
  unfold Wall; rw [dif_neg (by dsimp only; omega), dif_neg (by dsimp only; omega), dif_neg (by dsimp only; omega), dif_pos (by dsimp only; omega)]; congr 1 <;> (apply Fin.ext; simp)
theorem Wall_4 (W0 W1 W2 W3 W4 d) (i : Fin 3) : Wall W0 W1 W2 W3 W4 d ⟨11 + i.val, by omega⟩ = W4 d i := by
  unfold Wall; rw [dif_neg (by dsimp only; omega), dif_neg (by dsimp only; omega), dif_neg (by dsimp only; omega), dif_neg (by dsimp only; omega)]; congr 1 <;> (apply Fin.ext; simp)

theorem ball_0 (b0 b1 b2 b3 b4) (i : Fin 3) : ball b0 b1 b2 b3 b4 ⟨i.val, by omega⟩ = b0 i := by
  unfold ball; rw [dif_pos i.isLt]
theorem ball_1 (b0 b1 b2 b3 b4) (i : Fin 4) : ball b0 b1 b2 b3 b4 ⟨3 + i.val, by omega⟩ = b1 i := by
  unfold ball; rw [dif_neg (by dsimp only; omega), dif_pos (by dsimp only; omega)]; congr 1 <;> (apply Fin.ext; simp)
theorem ball_2 (b0 b1 b2 b3 b4) (i : Fin 3) : ball b0 b1 b2 b3 b4 ⟨7 + i.val, by omega⟩ = b2 i := by
  unfold ball; rw [dif_neg (by dsimp only; omega), dif_neg (by dsimp only; omega), dif_pos (by dsimp only; omega)]; congr 1 <;> (apply Fin.ext; simp)
theorem ball_3 (b0 b1 b2 b3 b4) (i : Fin 1) : ball b0 b1 b2 b3 b4 ⟨10 + i.val, by omega⟩ = b3 i := by
  unfold ball; rw [dif_neg (by dsimp only; omega), dif_neg (by dsimp only; omega), dif_neg (by dsimp only; omega), dif_pos (by dsimp only; omega)]; congr 1 <;> (apply Fin.ext; simp)
theorem ball_4 (b0 b1 b2 b3 b4) (i : Fin 3) : ball b0 b1 b2 b3 b4 ⟨11 + i.val, by omega⟩ = b4 i := by
  unfold ball; rw [dif_neg (by dsimp only; omega), dif_neg (by dsimp only; omega), dif_neg (by dsimp only; omega), dif_neg (by dsimp only; omega)]; congr 1 <;> (apply Fin.ext; simp)

theorem xrow_lo (p f) (i : Fin 3) : xrow p f ⟨i.val, by omega⟩ = p i := by
  unfold xrow; rw [dif_pos i.isLt]
theorem xrow_hi (p f) (i : Fin 192) : xrow p f ⟨3 + i.val, by omega⟩ = f i := by
  unfold xrow; rw [dif_neg (by dsimp only; omega)]; congr 1 <;> (apply Fin.ext; simp)

/-! ## The whole arrays -/

abbrev Sp : Shape := ⟨3, ![16, 25000, 3]⟩
abbrev Sf : Shape := ⟨3, ![16, 25000, 192]⟩
abbrev So : Shape := ⟨3, ![16, 25000, 14]⟩
abbrev SP : Shape := ⟨3, ![16, 4, 4]⟩
abbrev SW (k : Nat) : Shape := ⟨2, ![195, k]⟩
abbrev Sb (k : Nat) : Shape := ⟨1, ![k]⟩

/-- The head values of gaussian (b, n): its row against the stacked heads. -/
def yrow (pts : Sp.Idx → EReal) (feats : Sf.Idx → EReal)
    (W0 : (SW 3).Idx → EReal) (W1 : (SW 4).Idx → EReal) (W2 : (SW 3).Idx → EReal) (W3 : (SW 1).Idx → EReal) (W4 : (SW 3).Idx → EReal)
    (b0 : (Sb 3).Idx → EReal) (b1 : (Sb 4).Idx → EReal) (b2 : (Sb 3).Idx → EReal) (b3 : (Sb 1).Idx → EReal) (b4 : (Sb 3).Idx → EReal)
    (b : Fin 16) (n : Fin 25000) (j : Fin 14) : EReal :=
  head (xrow (fun o => pts (ix3 b n o)) (fun e => feats (ix3 b n e)))
    (fun d => Wall (fun d o => W0 (ix2 d o)) (fun d o => W1 (ix2 d o)) (fun d o => W2 (ix2 d o)) (fun d o => W3 (ix2 d o)) (fun d o => W4 (ix2 d o)) d j)
    (ball (fun o => b0 (ix1 o)) (fun o => b1 (ix1 o)) (fun o => b2 (ix1 o)) (fun o => b3 (ix1 o)) (fun o => b4 (ix1 o)) j)

/-- The result array at gaussian (b, n), column j, given the frames' projections `P`. -/
def Gat (pts : Sp.Idx → EReal) (feats : Sf.Idx → EReal)
    (W0 : (SW 3).Idx → EReal) (W1 : (SW 4).Idx → EReal) (W2 : (SW 3).Idx → EReal) (W3 : (SW 1).Idx → EReal) (W4 : (SW 3).Idx → EReal)
    (b0 : (Sb 3).Idx → EReal) (b1 : (Sb 4).Idx → EReal) (b2 : (Sb 3).Idx → EReal) (b3 : (Sb 1).Idx → EReal) (b4 : (Sb 3).Idx → EReal)
    (P : SP.Idx → EReal) (b : Fin 16) (n : Fin 25000) (j : Fin 14) : EReal :=
  outRow (fun o => pts (ix3 b n o)) (yrow pts feats W0 W1 W2 W3 W4 b0 b1 b2 b3 b4 b n) (fun a c => P (ix3 b a c)) j

/-- The result array, index by index. -/
def G (pts : Sp.Idx → EReal) (feats : Sf.Idx → EReal)
    (W0 : (SW 3).Idx → EReal) (W1 : (SW 4).Idx → EReal) (W2 : (SW 3).Idx → EReal) (W3 : (SW 1).Idx → EReal) (W4 : (SW 3).Idx → EReal)
    (b0 : (Sb 3).Idx → EReal) (b1 : (Sb 4).Idx → EReal) (b2 : (Sb 3).Idx → EReal) (b3 : (Sb 1).Idx → EReal) (b4 : (Sb 3).Idx → EReal)
    (P : SP.Idx → EReal) : So.Idx → EReal :=
  fun i => Gat pts feats W0 W1 W2 W3 W4 b0 b1 b2 b3 b4 P (i 0) (i 1) (i 2)

theorem G_ix3 (pts feats W0 W1 W2 W3 W4 b0 b1 b2 b3 b4 P) (b : Fin 16) (n : Fin 25000) (j : Fin 14) :
    G pts feats W0 W1 W2 W3 W4 b0 b1 b2 b3 b4 P (ix3 b n j) = Gat pts feats W0 W1 W2 W3 W4 b0 b1 b2 b3 b4 P b n j := rfl

end Cert.Spec

end
-- ==== Proof.LibKeepdims.lean ====
/-
  Two layout operations read at an index given by coordinates, for the column a `keepdims` row reduction leaves:
  a vector `[a]` cast to the column `[a, 1]`, and a column `[a, 1]` broadcast along its unit axis to `[a, b]`.
  Both indices are written with the literal-size constructors `ix1`, `ix2`, so that each lemma applies to a printed
  operation by unification, as the library's leading-unit-axis forms of the same operations do.
-/
import Idealize.ShloMosaic.Lib.Pipeline.Value
import Idealize.ShloMosaic.Lib.ValueIdx

namespace Idealize.ShloMosaic.ValueIdx

open Idealize.ShloMosaic

variable {α : Type}

/-- An `[a]` array cast to the column `[a, 1]` reads, at `(i, u)`, the operand at `i`, whatever the unit
    coordinate `u`: both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KPayY.lean ====
/-
  The decoder's linear layer inside the kernel body, read at one entry: the block of points and the block of features, laid side by side, times the stacked weights, plus the bias row.
-/
import proofs.«141409_j36189394436976_1_alg».proof.Proof.Gen.KernelIdeal.Skeleton
import proofs.«141409_j36189394436976_1_alg».proof.Proof.Spec
import proofs.«141409_j36189394436976_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

namespace Cert.KernelIdeal.Pay

open Cert.KernelIdeal Cert.KernelIdeal.Gen
open Idealize.ShloMosaic Idealize.ShloMosaic.ValueIdx

/-- The fourteen head values of the point in row `r` of the blocks. -/
def yk (x0 : Vec Ideal S1x1000x3 .f32) (x1 : Vec Ideal S1x1000x192 .f32) (x3 : Vec Ideal S195x14 .f32) (x4 : Vec Ideal S1x14 .f32)
    (r : Fin 1000) (c : Fin 14) : EReal :=
  Spec.head (Spec.xrow (fun o => x0 (ix3 (0 : Fin 1) r o)) (fun e => x1 (ix3 (0 : Fin 1) r e))) (fun d => x3 (ix2 d c)) (x4 (ix2 (0 : Fin 1) c))

/-- The points block with its leading unit axis dropped. -/
theorem pay2_apply (x0 : Vec Ideal S1x1000x3 .f32) (r : Fin 1000) (o : Fin 3) :
    k0_pay2 (F := Ideal) x0 (ix2 r o) = x0 (ix3 (0 : Fin 1) r o) := by
  unfold k0_pay2
  exact shapeCast_1ab_ab_apply x0 shapeCasts_S1x1000x3_S1000x3 r o

/-- The features block with its leading unit axis dropped. -/
theorem KPayY_feat_apply (x1 : Vec Ideal S1x1000x192 .f32) (r : Fin 1000) (e : Fin 192) :
    shapeCast S1000x192 x1 shapeCasts_S1x1000x192_S1000x192 (ix2 r e) = x1 (ix3 (0 : Fin 1) r e) :=
  shapeCast_1ab_ab_apply x1 shapeCasts_S1x1000x192_S1000x192 r e

/-- The two blocks side by side, at row `r` and column `d`: the decoder's input row. -/
theorem KPayY_cat_apply (x0 : Vec Ideal S1x1000x3 .f32) (x1 : Vec Ideal S1x1000x192 .f32) (r : Fin 1000) (d : Fin 195) :
    concatenate S1000x195 1 [⟨S1000x3, k0_pay2 (F := Ideal) x0⟩, ⟨S1000x192, shapeCast S1000x192 x1 shapeCasts_S1x1000x192_S1000x192⟩]
        concatenates_S1000x3_S1000x192_S1000x195_d1 (ix2 r d)
      = Spec.xrow (fun o => x0 (ix3 (0 : Fin 1) r o)) (fun e => x1 (ix3 (0 : Fin 1) r e)) d := by
  by_cases hd : d.val < 3
  · -- a column among the first three: the point's coordinate
    rw [concatenate_pair_apply_left (t := S1000x195) (s₁ := S1000x3) (s₂ := S1000x192) 1 _ _
        concatenates_S1000x3_S1000x192_S1000x195_d1 (ix2 r d) rfl (ix2 r (⟨d.val, hd⟩ : Fin 3))
        (fun b => match b with | ⟨0, _⟩ => rfl | ⟨1, _⟩ => rfl)]
    rw [pay2_apply]
    unfold Spec.xrow
    rw [dif_pos hd]
  · -- a later column: the feature three places to the left
    have hlt : d.val - 3 < 192 := by have := d.isLt; omega
    rw [concatenate_pair_apply_right (t := S1000x195) (s₁ := S1000x3) (s₂ := S1000x192) 1 _ _
        concatenates_S1000x3_S1000x192_S1000x195_d1 (ix2 r d) rfl rfl (ix2 r (⟨d.val - 3, hlt⟩ : Fin 192))
        (fun b => match b with
          | ⟨0, _⟩ => fun _ => rfl
          | ⟨1, _⟩ => fun hb => absurd rfl hb)
        (by show d.val - 3 + 3 = d.val; omega)]
    rw [KPayY_feat_apply]
    unfold Spec.xrow
    rw [dif_neg hd]

/-! The product's dimension numbers: rows of the left operand against columns of the right, one contracted axis. -/

theorem KPayY_lhs_0 (i : S1000x14.Idx) (q : dot_S1000x195_S195x14_S1000x14_1_0_0_1_n_n.contr.Idx) :
    (dot_S1000x195_S195x14_S1000x14_1_0_0_1_n_n.lhsIdx i q 0).val = (i 0).val := by
  unfold DotDims.lhsIdx
  rw [dif_neg (show ¬(0 : Fin S1000x195.rank) ∈ dot_S1000x195_S195x14_S1000x14_1_0_0_1_n_n.lhsBatch by decide), dif_pos (show (0 : Fin S1000x195.rank) ∈ dot_S1000x195_S195x14_S1000x14_1_0_0_1_n_n.lhsNonContracting by decide)]
  rfl
theorem KPayY_lhs_1 (i : S1000x14.Idx) (q : dot_S1000x195_S195x14_S1000x14_1_0_0_1_n_n.contr.Idx) :
    (dot_S1000x195_S195x14_S1000x14_1_0_0_1_n_n.lhsIdx i q 1).val = (q ⟨0, by decide⟩).val :=
  dot_S1000x195_S195x14_S1000x14_1_0_0_1_n_n.lhsIdx_val_of_single rfl i q
theorem KPayY_rhs_0 (i : S1000x14.Idx) (q : dot_S1000x195_S195x14_S1000x14_1_0_0_1_n_n.contr.Idx) :
    (dot_S1000x195_S195x14_S1000x14_1_0_0_1_n_n.rhsIdx i q 0).val = (q ⟨0, by decide⟩).val :=
  dot_S1000x195_S195x14_S1000x14_1_0_0_1_n_n.rhsIdx_val_of_single rfl i q
theorem KPayY_rhs_1 (i : S1000x14.Idx) (q : dot_S1000x195_S195x14_S1000x14_1_0_0_1_n_n.contr.Idx) :
    (dot_S1000x195_S195x14_S1000x14_1_0_0_1_n_n.rhsIdx i q 1).val = (i 1).val := by
  unfold DotDims.rhsIdx
  rw [dif_neg (show ¬(1 : Fin S195x14.rank) ∈ dot_S1000x195_S195x14_S1000x14_1_0_0_1_n_n.rhsBatch by decide), dif_pos (show (1 : Fin S195x14.rank) ∈ dot_S1000x195_S195x14_S1000x14_1_0_0_1_n_n.rhsNonContracting by decide)]
  rfl

/-- The matrix product into the zero accumulator, entry (r, c): the sum over the 195 columns of the left operand's row
    against the right operand's column. -/
theorem KPayY_matmul_apply (A : FVec Ideal S1000x195 .bf16) (B : FVec Ideal S195x14 .bf16) (r : Fin 1000) (c : Fin 14) :
    matmul dot_S1000x195_S195x14_S1000x14_1_0_0_1_n_n none A B (constant (F := Ideal) S1000x14 .f32 0x00000000#32) (ix2 r c)
      = ∑ d : Fin 195, A (ix2 r d) * B (ix2 d c) := by
  simp only [matmul]
  rw [Ideal.matmul_constant_zero_apply, ← Equiv.sum_comp (contrEquiv1 dot_S1000x195_S195x14_S1000x14_1_0_0_1_n_n 195 rfl rfl).symm]
  refine Finset.sum_congr rfl fun k _ => ?_
  have hk := contrEquiv1_symm_val dot_S1000x195_S195x14_S1000x14_1_0_0_1_n_n 195 rfl rfl k
  have el : dot_S1000x195_S195x14_S1000x14_1_0_0_1_n_n.lhsIdx (ix2 r c) ((contrEquiv1 dot_S1000x195_S195x14_S1000x14_1_0_0_1_n_n 195 rfl rfl).symm k) = ix2 r k := funext fun a => Fin.ext (by
    match a with
    | ⟨0, _⟩ => exact KPayY_lhs_0 _ _
    | ⟨1, _⟩ => exact (KPayY_lhs_1 _ _).trans hk)
  have er : dot_S1000x195_S195x14_S1000x14_1_0_0_1_n_n.rhsIdx (ix2 r c) ((contrEquiv1 dot_S1000x195_S195x14_S1000x14_1_0_0_1_n_n 195 rfl rfl).symm k) = ix2 k c := funext fun a => Fin.ext (by
    match a with
    | ⟨0, _⟩ => exact (KPayY_rhs_0 _ _).trans hk
    | ⟨1, _⟩ => exact KPayY_rhs_1 _ _)
  rw [el, er]

/-- The bias row, cast to its own shape twice and broadcast over the thousand rows, at entry (r, c). -/
theorem KPayY_bias_apply (x4 : Vec Ideal S1x14 .f32) (r : Fin 1000) (c : Fin 14) :
    broadcastTo S1000x14 (shapeCast S1x14 (shapeCast S1x14 x4 shapeCasts_S1x14_S1x14) shapeCasts_S1x14_S1x14) broadcasts_S1x14_S1000x14 (ix2 r c)
      = x4 (ix2 (0 : Fin 1) c) := by
  rw [shapeCast_self, shapeCast_self]
  exact broadcastTo_1b_ab_apply x4 broadcasts_S1x14_S1000x14 r c

/-- The matrix product with the bias added, entry (r, c): the head value. -/
theorem pay3_apply (x0 : Vec Ideal S1x1000x3 .f32) (x1 : Vec Ideal S1x1000x192 .f32) (x3 : Vec Ideal S195x14 .f32) (x4 : Vec Ideal S1x14 .f32)
    (r : Fin 1000) (c : Fin 14) :
    k0_pay3 (F := Ideal) x0 x1 x3 x4 (ix2 r c) = yk x0 x1 x3 x4 r c := by
  unfold k0_pay3 yk Spec.head
  rw [addf_apply, KPayY_matmul_apply, KPayY_bias_apply]
  refine congrArg (· + x4 (ix2 (0 : Fin 1) c)) (Finset.sum_congr rfl fun d _ => ?_)
  rw [truncf_apply, truncf_apply, KPayY_cat_apply, shapeCast_self]

end Cert.KernelIdeal.Pay

end
-- ==== Proof.KPayMid.lean ====
/-
  The activations inside the kernel body, each read at one entry in terms of the head values of its row.
-/
import proofs.«141409_j36189394436976_1_alg».proof.Proof.Gen.KernelIdeal.Skeleton
import proofs.«141409_j36189394436976_1_alg».proof.Proof.Spec
import proofs.«141409_j36189394436976_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

namespace Cert.KernelIdeal.Pay

open Cert.KernelIdeal Cert.KernelIdeal.Gen
open Idealize.ShloMosaic Idealize.ShloMosaic.ValueIdx

variable (x0 : Vec Ideal S1x1000x3 .f32) (x1 : Vec Ideal S1x1000x192 .f32) (x3 : Vec Ideal S195x14 .f32) (x4 : Vec Ideal S1x14 .f32) (r : Fin 1000)

/-- The reduced row index `r` with column `k` put back is (r, k). -/
theorem KPayMid_lift_ix2 (h : S1000x4.Reduces [1] S1000) (k : Fin (S1000x4.size 1)) :
    h.lift (ix1 r) k = ix2 r (⟨k.val, k.isLt⟩ : Fin 4) := by
  funext c; apply Fin.ext
  match c with
  | ⟨0, _⟩ => rfl
  | ⟨1, _⟩ => rfl

/-- The norm column at row `r`: the square root of the sum of the squares of the row's columns 3..6, plus 1e-8. -/
theorem KPayMid_norm (Y : FVec Ideal S1000x14 .f32) (u : Fin 1) :
    (addf (sqrt (shapeCast S1000x1
        (multiReduction (F := Ideal) .add [1] S1000
          (mulf (extractStridedSlice S1000x4 ![0, 3] Y slices_S1000x14_o0_3_S1000x4)
                (extractStridedSlice S1000x4 ![0, 3] Y slices_S1000x14_o0_3_S1000x4))
          0x00000000#32 reduces_S1000x4_S1000 (.inl rfl) rfl)
        shapeCasts_S1000_S1000x1))
      (broadcast S1000x1 (Scalar.ofBits (F := Ideal) .f32 0x322BCC77#32)) : FVec Ideal S1000x1 .f32) (ix2 r u)
    = Spec.rnorm (fun c => Y (ix2 r c)) := by
  unfold Spec.rnorm
  rw [addf_apply]
  congr 1
  show Ideal.sqrt (shapeCast S1000x1 _ shapeCasts_S1000_S1000x1 (ix2 r u)) = _
  rw [shapeCast_a_a1_apply]
  refine congrArg Ideal.sqrt ?_
  refine (Ideal.multiReduction_add_single _ _ reduces_S1000x4_S1000 _ _ (ix1 r)).trans ?_
  refine Finset.sum_congr rfl fun k _ => ?_
  have hs := slice2_axis1_eq 3 Y slices_S1000x14_o0_3_S1000x4 r (⟨k.val, k.isLt⟩ : Fin 4)
  rw [KPayMid_lift_ix2 r reduces_S1000x4_S1000 k, mulf_apply]
  exact congrArg₂ (· * ·) hs hs

/-- The world-space mean: the point plus the first three head values. -/
theorem pay4_apply (o : Fin 3) :
    k0_pay4 (F := Ideal) x0 x1 x3 x4 (ix2 r o) = k0_pay2 (F := Ideal) x0 (ix2 r o) + k0_pay3 (F := Ideal) x0 x1 x3 x4 (ix2 r ⟨o.val, by omega⟩) := by
  unfold k0_pay4
  generalize k0_pay3 (F := Ideal) x0 x1 x3 x4 = Y
  rw [addf_apply]
  congr 1
  exact slice2_axis1_apply 0 Y _ r o ⟨o.val, by omega⟩ (Nat.zero_add _).symm

/-- The quaternion over its norm. -/
theorem pay5_apply (o : Fin 4) :
    k0_pay5 (F := Ideal) x0 x1 x3 x4 (ix2 r o) = Spec.rot (fun c => k0_pay3 (F := Ideal) x0 x1 x3 x4 (ix2 r c)) o := by
  unfold k0_pay5
  generalize k0_pay3 (F := Ideal) x0 x1 x3 x4 = Y
  unfold Spec.rot
  rw [divf_apply, slice2_axis1_eq 3 Y _ r o, broadcastTo_a1_ab_apply, KPayMid_norm r Y 0]

/-- The capped exponential of the biased log-scales. -/
theorem pay6_apply (o : Fin 3) :
    k0_pay6 (F := Ideal) x0 x1 x3 x4 (ix2 r o) = Spec.scales (fun c => k0_pay3 (F := Ideal) x0 x1 x3 x4 (ix2 r c)) o := by
  unfold k0_pay6
  generalize k0_pay3 (F := Ideal) x0 x1 x3 x4 = Y
  unfold Spec.scales
  have h := slice2_axis1_eq 7 Y slices_S1000x14_o0_7_S1000x3 r o
  show min (Ideal.exp (extractStridedSlice S1000x3 ![0, 7] Y slices_S1000x14_o0_7_S1000x3 (ix2 r o) - Spec.cBias)) Spec.cCap = _
  rw [h]

/-- The logistic of the opacity logit. -/
theorem pay7_apply (o : Fin 1) :
    k0_pay7 (F := Ideal) x0 x1 x3 x4 (ix2 r o) = Spec.opac (fun c => k0_pay3 (F := Ideal) x0 x1 x3 x4 (ix2 r c)) := by
  unfold k0_pay7
  generalize k0_pay3 (F := Ideal) x0 x1 x3 x4 = Y
  unfold Spec.opac
  show Ideal.logistic (extractStridedSlice _ _ Y _ (ix2 r o)) = _
  rw [slice2_axis1_apply 10 Y _ r o (10 : Fin 14) (by have := o.isLt; show 10 = 10 + o.val; omega)]

/-- The colour clamped to [0, 1]. -/
theorem pay8_apply (o : Fin 3) :
    k0_pay8 (F := Ideal) x0 x1 x3 x4 (ix2 r o) = Spec.colors (fun c => k0_pay3 (F := Ideal) x0 x1 x3 x4 (ix2 r c)) o := by
  unfold k0_pay8
  generalize k0_pay3 (F := Ideal) x0 x1 x3 x4 = Y
  rw [minimumf_apply, maximumf_apply, slice2_axis1_eq 11 Y _ r o]
  rfl

end Cert.KernelIdeal.Pay

end
-- ==== Proof.KPayOut.lean ====
/-
  The camera projection and the packing inside the kernel body: the stored block read at one entry, given what its six pieces hold in that row.
-/
import proofs.«141409_j36189394436976_1_alg».proof.Proof.Gen.KernelIdeal.Skeleton
import proofs.«141409_j36189394436976_1_alg».proof.Proof.Spec
import proofs.«141409_j36189394436976_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

namespace Cert.KernelIdeal.Pay

open Cert.KernelIdeal Cert.KernelIdeal.Gen
open Idealize.ShloMosaic Idealize.ShloMosaic.ValueIdx

/-! ## The projection's contraction, re-indexed to the four homogeneous coordinates -/

theorem KPayOut_lhs_0 (i : S1000x4.Idx) (q : dot_S1000x4_S4x4_S1000x4_1_0_0_1_n_n.contr.Idx) :
    (dot_S1000x4_S4x4_S1000x4_1_0_0_1_n_n.lhsIdx i q 0).val = (i 0).val := by
  unfold DotDims.lhsIdx
  rw [dif_neg (show ¬(0 : Fin S1000x4.rank) ∈ dot_S1000x4_S4x4_S1000x4_1_0_0_1_n_n.lhsBatch by decide), dif_pos (show (0 : Fin S1000x4.rank) ∈ dot_S1000x4_S4x4_S1000x4_1_0_0_1_n_n.lhsNonContracting by decide)]
  rfl
theorem KPayOut_lhs_1 (i : S1000x4.Idx) (q : dot_S1000x4_S4x4_S1000x4_1_0_0_1_n_n.contr.Idx) :
    (dot_S1000x4_S4x4_S1000x4_1_0_0_1_n_n.lhsIdx i q 1).val = (q ⟨0, by decide⟩).val :=
  dot_S1000x4_S4x4_S1000x4_1_0_0_1_n_n.lhsIdx_val_of_single rfl i q
theorem KPayOut_rhs_0 (i : S1000x4.Idx) (q : dot_S1000x4_S4x4_S1000x4_1_0_0_1_n_n.contr.Idx) :
    (dot_S1000x4_S4x4_S1000x4_1_0_0_1_n_n.rhsIdx i q 0).val = (q ⟨0, by decide⟩).val :=
  dot_S1000x4_S4x4_S1000x4_1_0_0_1_n_n.rhsIdx_val_of_single rfl i q
theorem KPayOut_rhs_1 (i : S1000x4.Idx) (q : dot_S1000x4_S4x4_S1000x4_1_0_0_1_n_n.contr.Idx) :
    (dot_S1000x4_S4x4_S1000x4_1_0_0_1_n_n.rhsIdx i q 1).val = (i 1).val := by
  unfold DotDims.rhsIdx
  rw [dif_neg (show ¬(1 : Fin S4x4.rank) ∈ dot_S1000x4_S4x4_S1000x4_1_0_0_1_n_n.rhsBatch by decide), dif_pos (show (1 : Fin S4x4.rank) ∈ dot_S1000x4_S4x4_S1000x4_1_0_0_1_n_n.rhsNonContracting by decide)]
  rfl

/-- The product into the zero accumulator, at row `r` and column `j`: the sum over the four contracted coordinates. -/
theorem KPayOut_matmul_apply (A : FVec Ideal S1000x4 .bf16) (B : FVec Ideal S4x4 .bf16) (r : Fin 1000) (j : Fin 4) :
    matmul dot_S1000x4_S4x4_S1000x4_1_0_0_1_n_n none A B (constant (F := Ideal) S1000x4 .f32 0x00000000#32) (ix2 r j)
      = ∑ k : Fin 4, A (ix2 r k) * B (ix2 k j) := by
  refine (Ideal.matmul_constant_zero_apply dot_S1000x4_S4x4_S1000x4_1_0_0_1_n_n none A B (ix2 r j)).trans ?_
  rw [← Equiv.sum_comp (ValueIdx.contrEquiv1 dot_S1000x4_S4x4_S1000x4_1_0_0_1_n_n 4 rfl rfl).symm]
  refine Finset.sum_congr rfl fun k _ => ?_
  have hk := ValueIdx.contrEquiv1_symm_val dot_S1000x4_S4x4_S1000x4_1_0_0_1_n_n 4 rfl rfl k
  have el : dot_S1000x4_S4x4_S1000x4_1_0_0_1_n_n.lhsIdx (ix2 r j) ((ValueIdx.contrEquiv1 dot_S1000x4_S4x4_S1000x4_1_0_0_1_n_n 4 rfl rfl).symm k) = ix2 r k := funext fun a => Fin.ext (by
    match a with
    | ⟨0, _⟩ => exact KPayOut_lhs_0 _ _
    | ⟨1, _⟩ => exact (KPayOut_lhs_1 _ _).trans hk)
  have er : dot_S1000x4_S4x4_S1000x4_1_0_0_1_n_n.rhsIdx (ix2 r j) ((ValueIdx.contrEquiv1 dot_S1000x4_S4x4_S1000x4_1_0_0_1_n_n 4 rfl rfl).symm k) = ix2 k j := funext fun a => Fin.ext (by
    match a with
    | ⟨0, _⟩ => exact (KPayOut_rhs_0 _ _).trans hk
    | ⟨1, _⟩ => exact KPayOut_rhs_1 _ _)
  rw [el, er]

/-! ## The homogeneous mean and the clip coordinates -/

/-- The mean with a fourth coordinate one, at row `r`: the specification's homogeneous mean. -/
theorem KPayOut_hom_apply (v20 : FVec Ideal S1000x3 .f32) (p : Fin 3 → EReal) (y : Fin 14 → EReal) (r : Fin 1000)
    (h20 : ∀ o : Fin 3, v20 (ix2 r o) = p o + y ⟨o.val, by omega⟩) (i : Fin 4) :
    concatenate S1000x4 1 [⟨S1000x3, v20⟩, ⟨S1000x1, broadcast S1000x1 (Scalar.ofBits (F := Ideal) .f32 0x3F800000#32)⟩]
        concatenates_S1000x3_S1000x1_S1000x4_d1 (ix2 r i) = Spec.hom p y i := by
  unfold Spec.hom
  by_cases h : i.val < 3
  · rw [dif_pos h]
    refine (concatenate_pair_apply_left 1 v20 _ concatenates_S1000x3_S1000x1_S1000x4_d1 (ix2 r i) rfl (ix2 r ⟨i.val, h⟩)
      (fun b => match b with | ⟨0, _⟩ => rfl | ⟨1, _⟩ => rfl)).trans ?_
    exact h20 ⟨i.val, h⟩
  · rw [dif_neg h]
    refine (concatenate_pair_apply_right 1 v20 _ concatenates_S1000x3_S1000x1_S1000x4_d1 (ix2 r i) rfl rfl (ix2 r (0 : Fin 1))
      (fun b hb => match b, hb with
        | ⟨0, _⟩, _ => rfl
        | ⟨1, _⟩, hb => absurd (Fin.ext rfl) hb)
      (by show 0 + 3 = i.val; have := i.isLt; omega)).trans ?_
    rfl

/-- The product of the homogeneous mean with the 4 x 4 block, at row `r`: the specification's clip coordinates. -/
theorem KPayOut_clip_apply (v42 : FVec Ideal S1000x4 .f32) (v39 : Vec Ideal S1x4x4 .f32)
    (p : Fin 3 → EReal) (y : Fin 14 → EReal) (r : Fin 1000)
    (h42 : ∀ i : Fin 4, v42 (ix2 r i) = Spec.hom p y i) (j : Fin 4) :
    matmul dot_S1000x4_S4x4_S1000x4_1_0_0_1_n_n none (truncf .bf16 v42 bitsLt_bf16_f32)
        (truncf .bf16 (shapeCast S4x4 v39 shapeCasts_S1x4x4_S4x4) bitsLt_bf16_f32)
        (constant (F := Ideal) S1000x4 .f32 0x00000000#32) (ix2 r j)
      = Spec.clip p y (fun a b => v39 (ix3 (0 : Fin 1) a b)) j := by
  rw [KPayOut_matmul_apply]
  unfold Spec.clip
  refine Finset.sum_congr rfl fun k _ => ?_
  rw [truncf_apply, truncf_apply, h42, shapeCast_1ab_ab_apply]

/-! ## The perspective division -/

/-- Column 3 of the clip coordinates plus the small constant, at row `r`: the specification's divisor. -/
theorem KPayOut_w_apply (v45 : FVec Ideal S1000x4 .f32) (c : Fin 4 → EReal) (r : Fin 1000)
    (h45 : ∀ j : Fin 4, v45 (ix2 r j) = c j) (u : Fin 1) :
    addf (extractStridedSlice S1000x1 ![0, 3] v45 slices_S1000x4_o0_3_S1000x1)
        (broadcast S1000x1 (Scalar.ofBits (F := Ideal) .f32 0x33D6BF95#32)) (ix2 r u) = c 3 + Spec.cEpsW := by
  rw [addf_apply, broadcast_apply,
    slice2_axis1_apply 3 v45 slices_S1000x4_o0_3_S1000x1 r u (3 : Fin 4) (by show 3 = 3 + u.val; have := u.isLt; omega), h45]
  rfl

/-- Columns 0 and 1 over the divisor. -/
theorem KPayOut_ndc_apply (v45 : FVec Ideal S1000x4 .f32) (v48 : FVec Ideal S1000x1 .f32) (c : Fin 4 → EReal) (w : EReal)
    (r : Fin 1000) (h45 : ∀ j : Fin 4, v45 (ix2 r j) = c j) (h48 : ∀ u : Fin 1, v48 (ix2 r u) = w) (i : Fin 2) :
    divf (extractStridedSlice S1000x2 ![0, 0] v45 slices_S1000x4_o0_0_S1000x2)
        (broadcastTo S1000x2 v48 broadcasts_S1000x1_S1000x2) (ix2 r i) = Ideal.div (c ⟨i.val, by omega⟩) w := by
  rw [divf_apply, broadcastTo_a1_ab_apply, h48,
    slice2_axis1_apply 0 v45 slices_S1000x4_o0_0_S1000x2 r i (⟨i.val, by omega⟩ : Fin 4) (Nat.zero_add _).symm, h45]

/-- Column 2 over the divisor. -/
theorem KPayOut_depth_apply (v45 : FVec Ideal S1000x4 .f32) (v48 : FVec Ideal S1000x1 .f32) (c : Fin 4 → EReal) (w : EReal)
    (r : Fin 1000) (h45 : ∀ j : Fin 4, v45 (ix2 r j) = c j) (h48 : ∀ u : Fin 1, v48 (ix2 r u) = w) (u : Fin 1) :
    divf (extractStridedSlice S1000x1 ![0, 2] v45 slices_S1000x4_o0_2_S1000x1) v48 (ix2 r u) = Ideal.div (c 2) w := by
  rw [divf_apply, h48,
    slice2_axis1_apply 2 v45 slices_S1000x4_o0_2_S1000x1 r u (2 : Fin 4) (by show 2 = 2 + u.val; have := u.isLt; omega), h45]

/-! ## The six pieces side by side -/

section Pieces
variable (v51 : FVec Ideal S1000x2 .f32) (v53 : FVec Ideal S1000x1 .f32) (v33 : FVec Ideal S1000x3 .f32)
  (v34 : FVec Ideal S1000x1 .f32) (v38 : FVec Ideal S1000x3 .f32) (v28 : FVec Ideal S1000x4 .f32) (r : Fin 1000)

/-- Columns 0 and 1 are the first piece. -/
theorem KPayOut_cat_ndc (i : Fin 2) :
    concatenate S1000x14 1 [⟨S1000x2, v51⟩, ⟨S1000x1, v53⟩, ⟨S1000x3, v33⟩, ⟨S1000x1, v34⟩, ⟨S1000x3, v38⟩, ⟨S1000x4, v28⟩] concatenates_S1000x2_S1000x1_S1000x3_S1000x1_S1000x3_S1000x4_S1000x14_d1
      (ix2 r ⟨i.val, by omega⟩) = v51 (ix2 r i) :=
  concatenate_apply_piece (t := S1000x14) 1 [⟨S1000x2, v51⟩, ⟨S1000x1, v53⟩, ⟨S1000x3, v33⟩, ⟨S1000x1, v34⟩, ⟨S1000x3, v38⟩, ⟨S1000x4, v28⟩] concatenates_S1000x2_S1000x1_S1000x3_S1000x1_S1000x3_S1000x4_S1000x14_d1 _ 0 (by show (0 : ℕ) < 6; omega) S1000x2 v51 rfl rfl 0 rfl (ix2 r i)
    (fun b hb => match b, hb with | ⟨0, _⟩, _ => rfl | ⟨1, _⟩, hb => absurd (Fin.ext rfl) hb) (Nat.zero_add _)

/-- Column 2 is the second piece. -/
theorem KPayOut_cat_depth :
    concatenate S1000x14 1 [⟨S1000x2, v51⟩, ⟨S1000x1, v53⟩, ⟨S1000x3, v33⟩, ⟨S1000x1, v34⟩, ⟨S1000x3, v38⟩, ⟨S1000x4, v28⟩] concatenates_S1000x2_S1000x1_S1000x3_S1000x1_S1000x3_S1000x4_S1000x14_d1
      (ix2 r (2 : Fin 14)) = v53 (ix2 r (0 : Fin 1)) :=
  concatenate_apply_piece (t := S1000x14) 1 [⟨S1000x2, v51⟩, ⟨S1000x1, v53⟩, ⟨S1000x3, v33⟩, ⟨S1000x1, v34⟩, ⟨S1000x3, v38⟩, ⟨S1000x4, v28⟩] concatenates_S1000x2_S1000x1_S1000x3_S1000x1_S1000x3_S1000x4_S1000x14_d1 _ 1 (by show (1 : ℕ) < 6; omega) S1000x1 v53 rfl rfl 2 rfl (ix2 r (0 : Fin 1))
    (fun b hb => match b, hb with | ⟨0, _⟩, _ => rfl | ⟨1, _⟩, hb => absurd (Fin.ext rfl) hb) rfl

/-- Columns 3 to 5 are the third piece. -/
theorem KPayOut_cat_scales (i : Fin 3) :
    concatenate S1000x14 1 [⟨S1000x2, v51⟩, ⟨S1000x1, v53⟩, ⟨S1000x3, v33⟩, ⟨S1000x1, v34⟩, ⟨S1000x3, v38⟩, ⟨S1000x4, v28⟩] concatenates_S1000x2_S1000x1_S1000x3_S1000x1_S1000x3_S1000x4_S1000x14_d1
      (ix2 r ⟨3 + i.val, by omega⟩) = v33 (ix2 r i) :=
  concatenate_apply_piece (t := S1000x14) 1 [⟨S1000x2, v51⟩, ⟨S1000x1, v53⟩, ⟨S1000x3, v33⟩, ⟨S1000x1, v34⟩, ⟨S1000x3, v38⟩, ⟨S1000x4, v28⟩] concatenates_S1000x2_S1000x1_S1000x3_S1000x1_S1000x3_S1000x4_S1000x14_d1 _ 2 (by show (2 : ℕ) < 6; omega) S1000x3 v33 rfl rfl 3 rfl (ix2 r i)
    (fun b hb => match b, hb with | ⟨0, _⟩, _ => rfl | ⟨1, _⟩, hb => absurd (Fin.ext rfl) hb) rfl

/-- Column 6 is the fourth piece. -/
theorem KPayOut_cat_opac :
    concatenate S1000x14 1 [⟨S1000x2, v51⟩, ⟨S1000x1, v53⟩, ⟨S1000x3, v33⟩, ⟨S1000x1, v34⟩, ⟨S1000x3, v38⟩, ⟨S1000x4, v28⟩] concatenates_S1000x2_S1000x1_S1000x3_S1000x1_S1000x3_S1000x4_S1000x14_d1
      (ix2 r (6 : Fin 14)) = v34 (ix2 r (0 : Fin 1)) :=
  concatenate_apply_piece (t := S1000x14) 1 [⟨S1000x2, v51⟩, ⟨S1000x1, v53⟩, ⟨S1000x3, v33⟩, ⟨S1000x1, v34⟩, ⟨S1000x3, v38⟩, ⟨S1000x4, v28⟩] concatenates_S1000x2_S1000x1_S1000x3_S1000x1_S1000x3_S1000x4_S1000x14_d1 _ 3 (by show (3 : ℕ) < 6; omega) S1000x1 v34 rfl rfl 6 rfl (ix2 r (0 : Fin 1))
    (fun b hb => match b, hb with | ⟨0, _⟩, _ => rfl | ⟨1, _⟩, hb => absurd (Fin.ext rfl) hb) rfl

/-- Columns 7 to 9 are the fifth piece. -/
theorem KPayOut_cat_colors (i : Fin 3) :
    concatenate S1000x14 1 [⟨S1000x2, v51⟩, ⟨S1000x1, v53⟩, ⟨S1000x3, v33⟩, ⟨S1000x1, v34⟩, ⟨S1000x3, v38⟩, ⟨S1000x4, v28⟩] concatenates_S1000x2_S1000x1_S1000x3_S1000x1_S1000x3_S1000x4_S1000x14_d1
      (ix2 r ⟨7 + i.val, by omega⟩) = v38 (ix2 r i) :=
  concatenate_apply_piece (t := S1000x14) 1 [⟨S1000x2, v51⟩, ⟨S1000x1, v53⟩, ⟨S1000x3, v33⟩, ⟨S1000x1, v34⟩, ⟨S1000x3, v38⟩, ⟨S1000x4, v28⟩] concatenates_S1000x2_S1000x1_S1000x3_S1000x1_S1000x3_S1000x4_S1000x14_d1 _ 4 (by show (4 : ℕ) < 6; omega) S1000x3 v38 rfl rfl 7 rfl (ix2 r i)
    (fun b hb => match b, hb with | ⟨0, _⟩, _ => rfl | ⟨1, _⟩, hb => absurd (Fin.ext rfl) hb) rfl

/-- Columns 10 to 13 are the sixth piece. -/
theorem KPayOut_cat_rot (i : Fin 4) :
    concatenate S1000x14 1 [⟨S1000x2, v51⟩, ⟨S1000x1, v53⟩, ⟨S1000x3, v33⟩, ⟨S1000x1, v34⟩, ⟨S1000x3, v38⟩, ⟨S1000x4, v28⟩] concatenates_S1000x2_S1000x1_S1000x3_S1000x1_S1000x3_S1000x4_S1000x14_d1
      (ix2 r ⟨10 + i.val, by omega⟩) = v28 (ix2 r i) :=
  concatenate_apply_piece (t := S1000x14) 1 [⟨S1000x2, v51⟩, ⟨S1000x1, v53⟩, ⟨S1000x3, v33⟩, ⟨S1000x1, v34⟩, ⟨S1000x3, v38⟩, ⟨S1000x4, v28⟩] concatenates_S1000x2_S1000x1_S1000x3_S1000x1_S1000x3_S1000x4_S1000x14_d1 _ 5 (by show (5 : ℕ) < 6; omega) S1000x4 v28 rfl rfl 10 rfl (ix2 r i)
    (fun b hb => match b, hb with | ⟨0, _⟩, _ => rfl | ⟨1, _⟩, hb => absurd (Fin.ext rfl) hb) rfl

end Pieces

/-- A column of the output row lies in one of the six groups: two, one, three, one, three and four columns wide. -/
theorem KPayOut_col_cases (Q : Fin 14 → Prop) (h0 : ∀ i : Fin 2, Q ⟨i.val, by omega⟩) (h1 : Q 2)
    (h2 : ∀ i : Fin 3, Q ⟨3 + i.val, by omega⟩) (h3 : Q 6) (h4 : ∀ i : Fin 3, Q ⟨7 + i.val, by omega⟩)
    (h5 : ∀ i : Fin 4, Q ⟨10 + i.val, by omega⟩) (j : Fin 14) : Q j := by
  by_cases c1 : j.val < 2
  · exact h0 ⟨j.val, c1⟩
  by_cases c2 : j.val < 3
  · have e : (2 : Fin 14) = j := Fin.ext (by show 2 = j.val; omega)
    rw [← e]; exact h1
  by_cases c3 : j.val < 6
  · have e : (⟨3 + (j.val - 3), by omega⟩ : Fin 14) = j := Fin.ext (by show 3 + (j.val - 3) = j.val; omega)
    rw [← e]; exact h2 ⟨j.val - 3, by omega⟩
  by_cases c4 : j.val < 7
  · have e : (6 : Fin 14) = j := Fin.ext (by show 6 = j.val; omega)
    rw [← e]; exact h3
  by_cases c5 : j.val < 10
  · have e : (⟨7 + (j.val - 7), by omega⟩ : Fin 14) = j := Fin.ext (by show 7 + (j.val - 7) = j.val; omega)
    rw [← e]; exact h4 ⟨j.val - 7, by omega⟩
  · have hj := j.isLt
    have e : (⟨10 + (j.val - 10), by omega⟩ : Fin 14) = j := Fin.ext (by show 10 + (j.val - 10) = j.val; omega)
    rw [← e]; exact h5 ⟨j.val - 10, by omega⟩

/-- Row `r`, column `j` of the stored block, when in row `r` the mean is `p + y[0..2]` and the other pieces are
    the specification's activations of `y`: the specification's output row, the projection being the 4 x 4 block. -/
theorem pay1_apply (v20 : FVec Ideal S1000x3 .f32) (v28 : FVec Ideal S1000x4 .f32) (v33 : FVec Ideal S1000x3 .f32)
    (v34 : FVec Ideal S1000x1 .f32) (v38 : FVec Ideal S1000x3 .f32) (v39 : Vec Ideal S1x4x4 .f32)
    (p : Fin 3 → EReal) (y : Fin 14 → EReal) (r : Fin 1000)
    (h20 : ∀ o : Fin 3, v20 (ix2 r o) = p o + y ⟨o.val, by omega⟩)
    (h28 : ∀ o : Fin 4, v28 (ix2 r o) = Spec.rot y o)
    (h33 : ∀ o : Fin 3, v33 (ix2 r o) = Spec.scales y o)
    (h34 : ∀ o : Fin 1, v34 (ix2 r o) = Spec.opac y)
    (h38 : ∀ o : Fin 3, v38 (ix2 r o) = Spec.colors y o) (j : Fin 14) :
    k0_pay1 (F := Ideal) v20 v28 v33 v34 v38 v39 (ix3 (0 : Fin 1) r j)
      = Spec.outRow p y (fun a b => v39 (ix3 (0 : Fin 1) a b)) j := by
  have h42 := KPayOut_hom_apply v20 p y r h20
  have h45 := KPayOut_clip_apply _ v39 p y r h42
  have h48 := KPayOut_w_apply _ (Spec.clip p y (fun a b => v39 (ix3 (0 : Fin 1) a b))) r h45
  revert j
  refine KPayOut_col_cases _ (fun i => ?_) ?_ (fun i => ?_) ?_ (fun i => ?_) (fun i => ?_)
  all_goals
    unfold k0_pay1
    refine (shapeCast_ab_1ab_apply _ shapeCasts_S1000x14_S1x1000x14 (0 : Fin 1) r _).trans ?_
  · -- the two normalized device coordinates
    refine (KPayOut_cat_ndc _ _ _ _ _ _ r i).trans ?_
    rw [Spec.outRow_ndc]
    exact KPayOut_ndc_apply _ _ _ _ r h45 h48 i
  · -- the depth
    refine (KPayOut_cat_depth _ _ _ _ _ _ r).trans ?_
    rw [Spec.outRow_depth]
    exact KPayOut_depth_apply _ _ _ _ r h45 h48 (0 : Fin 1)
  · -- the scales
    refine (KPayOut_cat_scales _ _ _ _ _ _ r i).trans ?_
    rw [Spec.outRow_scales]
    exact h33 i
  · -- the opacity
    refine (KPayOut_cat_opac _ _ _ _ _ _ r).trans ?_
    rw [Spec.outRow_opac]
    exact h34 (0 : Fin 1)
  · -- the colours
    refine (KPayOut_cat_colors _ _ _ _ _ _ r i).trans ?_
    rw [Spec.outRow_colors]
    exact h38 i
  · -- the unit quaternion
    refine (KPayOut_cat_rot _ _ _ _ _ _ r i).trans ?_
    rw [Spec.outRow_rot]
    exact h28 i

end Cert.KernelIdeal.Pay

end
-- ==== Proof.KPay.lean ====
/-
  The kernel body's arithmetic, read at one entry of the output block: the three parts of the body (the linear
  layer, the activations, the projection and packing) put together.
-/
import proofs.«141409_j36189394436976_1_alg».proof.Proof.KPayY
import proofs.«141409_j36189394436976_1_alg».proof.Proof.KPayMid
import proofs.«141409_j36189394436976_1_alg».proof.Proof.KPayOut

noncomputable section

namespace Cert.KernelIdeal.Pay

open Cert.KernelIdeal Cert.KernelIdeal.Gen
open Idealize.ShloMosaic Idealize.ShloMosaic.ValueIdx

/-- Row `r`, column `j` of what the body stores, from the five input blocks: the specification's output row of
    the point in row `r` of the points block, its head values those of row `r`, the projection the 4 x 4 block. -/
theorem pay_apply (x0 : Vec Ideal S1x1000x3 .f32) (x1 : Vec Ideal S1x1000x192 .f32) (x2 : Vec Ideal S1x4x4 .f32)
    (x3 : Vec Ideal S195x14 .f32) (x4 : Vec Ideal S1x14 .f32) (r : Fin 1000) (j : Fin 14) :
    k0_pay1 (F := Ideal) (k0_pay4 x0 x1 x3 x4) (k0_pay5 x0 x1 x3 x4) (k0_pay6 x0 x1 x3 x4) (k0_pay7 x0 x1 x3 x4)
        (k0_pay8 x0 x1 x3 x4) x2 (ix3 (0 : Fin 1) r j)
      = Spec.outRow (fun o => x0 (ix3 (0 : Fin 1) r o)) (yk x0 x1 x3 x4 r) (fun a b => x2 (ix3 (0 : Fin 1) a b)) j := by
  have hy : (fun c => k0_pay3 (F := Ideal) x0 x1 x3 x4 (ix2 r c)) = yk x0 x1 x3 x4 r := funext fun c => pay3_apply x0 x1 x3 x4 r c
  refine pay1_apply _ _ _ _ _ x2 (fun o => x0 (ix3 (0 : Fin 1) r o)) (yk x0 x1 x3 x4 r) r ?_ ?_ ?_ ?_ ?_ j
  · intro o; rw [pay4_apply, pay2_apply, pay3_apply]
  · intro o; rw [pay5_apply, hy]
  · intro o; rw [pay6_apply, hy]
  · intro o; rw [pay7_apply, hy]
  · intro o; rw [pay8_apply, hy]

end Cert.KernelIdeal.Pay

end
-- ==== Proof.HostWin.lean ====
/-
  What the kernel's three host-computed windows hold when the region is entered, read where the value proof needs
  them: the stacked weights and the bias row entry by entry, and the projection array as one function of the
  cameras — the same function the reference computes, since both programs run the same host operations on them.
-/
import proofs.«141409_j36189394436976_1_alg».proof.Proof.KIHost
import proofs.«141409_j36189394436976_1_alg».proof.Proof.Gen.ReferenceIdeal.Read
import proofs.«141409_j36189394436976_1_alg».proof.Proof.Spec
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.HostWin

open Cert.KernelIdeal Cert.KernelIdeal.Gen Cert.KernelIdeal.Frm
open Idealize.ShloMosaic Idealize.ShloMosaic.TcCoe Idealize.ShloMosaic.ValueIdx Idealize.SL.Sem

/-- Five blocks of columns side by side, read at (d, j): the block that holds column j. -/
theorem HostWin_cat_cols (x0 : S195x3.Idx → EReal) (x1 : S195x4.Idx → EReal) (x2 : S195x3.Idx → EReal)
    (x3 : S195x1.Idx → EReal) (x4 : S195x3.Idx → EReal) (d : Fin 195) (j : Fin 14) :
    concatenate S195x14 1 [⟨S195x3, x0⟩, ⟨S195x4, x1⟩, ⟨S195x3, x2⟩, ⟨S195x1, x3⟩, ⟨S195x3, x4⟩]
        concatenates_S195x3_S195x4_S195x3_S195x1_S195x3_S195x14_d1 (ix2 d j)
      = Spec.Wall (fun d o => x0 (ix2 d o)) (fun d o => x1 (ix2 d o)) (fun d o => x2 (ix2 d o))
          (fun d o => x3 (ix2 d o)) (fun d o => x4 (ix2 d o)) d j := by
  unfold Spec.Wall
  by_cases h0 : j.val < 3
  · rw [dif_pos h0]
    refine concatenate_apply_piece (t := S195x14) 1 _ _ (ix2 d j) 0 (Nat.lt_of_sub_eq_succ rfl) S195x3 x0 rfl rfl 0 rfl
      (ix2 d ⟨j.val, h0⟩) (fun b hb => ?_) ?_
    · match b, hb with
      | ⟨0, _⟩, _ => rfl
      | ⟨1, _⟩, hb => exact absurd rfl hb
    · show 0 + j.val = j.val
      omega
  rw [dif_neg h0]
  by_cases h1 : j.val < 7
  · rw [dif_pos h1]
    refine concatenate_apply_piece (t := S195x14) 1 _ _ (ix2 d j) 1 (Nat.lt_of_sub_eq_succ rfl) S195x4 x1 rfl rfl 3 rfl
      (ix2 d ⟨j.val - 3, by omega⟩) (fun b hb => ?_) ?_
    · match b, hb with
      | ⟨0, _⟩, _ => rfl
      | ⟨1, _⟩, hb => exact absurd rfl hb
    · show 3 + (j.val - 3) = j.val
      omega
  rw [dif_neg h1]
  by_cases h2 : j.val < 10
  · rw [dif_pos h2]
    refine concatenate_apply_piece (t := S195x14) 1 _ _ (ix2 d j) 2 (Nat.lt_of_sub_eq_succ rfl) S195x3 x2 rfl rfl 7 rfl
      (ix2 d ⟨j.val - 7, by omega⟩) (fun b hb => ?_) ?_
    · match b, hb with
      | ⟨0, _⟩, _ => rfl
      | ⟨1, _⟩, hb => exact absurd rfl hb
    · show 7 + (j.val - 7) = j.val
      omega
  rw [dif_neg h2]
  by_cases h3 : j.val < 11
  · rw [dif_pos h3]
    refine concatenate_apply_piece (t := S195x14) 1 _ _ (ix2 d j) 3 (Nat.lt_of_sub_eq_succ rfl) S195x1 x3 rfl rfl 10 rfl
      (ix2 d ⟨j.val - 10, by omega⟩) (fun b hb => ?_) ?_
    · match b, hb with
      | ⟨0, _⟩, _ => rfl
      | ⟨1, _⟩, hb => exact absurd rfl hb
    · show 10 + (j.val - 10) = j.val
      omega
  rw [dif_neg h3]
  have hj := j.isLt
  refine concatenate_apply_piece (t := S195x14) 1 _ _ (ix2 d j) 4 (Nat.lt_of_sub_eq_succ rfl) S195x3 x4 rfl rfl 11 rfl
    (ix2 d ⟨j.val - 11, by omega⟩) (fun b hb => ?_) ?_
  · match b, hb with
    | ⟨0, _⟩, _ => rfl
    | ⟨1, _⟩, hb => exact absurd rfl hb
  · show 11 + (j.val - 11) = j.val
    omega

/-- Five runs end to end, read at j: the run that holds position j. -/
theorem HostWin_cat_row (x0 : S3.Idx → EReal) (x1 : S4.Idx → EReal) (x2 : S3.Idx → EReal)
    (x3 : S1.Idx → EReal) (x4 : S3.Idx → EReal) (j : Fin 14) :
    concatenate S14 0 [⟨S3, x0⟩, ⟨S4, x1⟩, ⟨S3, x2⟩, ⟨S1, x3⟩, ⟨S3, x4⟩]
        concatenates_S3_S4_S3_S1_S3_S14_d0 (ix1 j)
      = Spec.ball (fun o => x0 (ix1 o)) (fun o => x1 (ix1 o)) (fun o => x2 (ix1 o))
          (fun o => x3 (ix1 o)) (fun o => x4 (ix1 o)) j := by
  unfold Spec.ball
  by_cases h0 : j.val < 3
  · rw [dif_pos h0]
    refine concatenate_apply_piece (t := S14) 0 _ _ (ix1 j) 0 (Nat.lt_of_sub_eq_succ rfl) S3 x0 rfl rfl 0 rfl
      (ix1 ⟨j.val, h0⟩) (fun b hb => ?_) ?_
    · match b, hb with
      | ⟨0, _⟩, hb => exact absurd rfl hb
    · show 0 + j.val = j.val
      omega
  rw [dif_neg h0]
  by_cases h1 : j.val < 7
  · rw [dif_pos h1]
    refine concatenate_apply_piece (t := S14) 0 _ _ (ix1 j) 1 (Nat.lt_of_sub_eq_succ rfl) S4 x1 rfl rfl 3 rfl
      (ix1 ⟨j.val - 3, by omega⟩) (fun b hb => ?_) ?_
    · match b, hb with
      | ⟨0, _⟩, hb => exact absurd rfl hb
    · show 3 + (j.val - 3) = j.val
      omega
  rw [dif_neg h1]
  by_cases h2 : j.val < 10
  · rw [dif_pos h2]
    refine concatenate_apply_piece (t := S14) 0 _ _ (ix1 j) 2 (Nat.lt_of_sub_eq_succ rfl) S3 x2 rfl rfl 7 rfl
      (ix1 ⟨j.val - 7, by omega⟩) (fun b hb => ?_) ?_
    · match b, hb with
      | ⟨0, _⟩, hb => exact absurd rfl hb
    · show 7 + (j.val - 7) = j.val
      omega
  rw [dif_neg h2]
  by_cases h3 : j.val < 11
  · rw [dif_pos h3]
    refine concatenate_apply_piece (t := S14) 0 _ _ (ix1 j) 3 (Nat.lt_of_sub_eq_succ rfl) S1 x3 rfl rfl 10 rfl
      (ix1 ⟨j.val - 10, by omega⟩) (fun b hb => ?_) ?_
    · match b, hb with
      | ⟨0, _⟩, hb => exact absurd rfl hb
    · show 10 + (j.val - 10) = j.val
      omega
  rw [dif_neg h3]
  have hj := j.isLt
  refine concatenate_apply_piece (t := S14) 0 _ _ (ix1 j) 4 (Nat.lt_of_sub_eq_succ rfl) S3 x4 rfl rfl 11 rfl
    (ix1 ⟨j.val - 11, by omega⟩) (fun b hb => ?_) ?_
  · match b, hb with
    | ⟨0, _⟩, hb => exact absurd rfl hb
  · show 11 + (j.val - 11) = j.val
    omega

/-- A row vector broadcast to a one-row matrix, read at (0, j): the vector at j. -/
theorem HostWin_bcast_row (x : S14.Idx → EReal) (j : Fin 14) :
    broadcastInDim S1x14 ![1] bcast_S14_S1x14_1 x (ix2 (0 : Fin 1) j) = x (ix1 j) := by
  refine broadcastInDim_apply _ bcast_S14_S1x14_1 x (ix2 (0 : Fin 1) j) (ix1 j) (fun a => ?_)
  match a with
  | ⟨0, _⟩ => rfl

set_option maxHeartbeats 4000000 in
/-- The stacked-weights array the region finds: the five weight arrays side by side. -/
theorem HostWin_v0_eq (m : (ℓ : Loc nD τ sig) → Buf (Elt Ideal) ℓ) (c : Dev nD) :
    (V m c main_v0 : S195x14.Idx → EReal)
      = concatenate S195x14 1 [⟨S195x3, (m ((c : Thread nD τ).loc main_arg2) : S195x3.Idx → EReal)⟩,
          ⟨S195x4, (m ((c : Thread nD τ).loc main_arg4) : S195x4.Idx → EReal)⟩,
          ⟨S195x3, (m ((c : Thread nD τ).loc main_arg6) : S195x3.Idx → EReal)⟩,
          ⟨S195x1, (m ((c : Thread nD τ).loc main_arg8) : S195x1.Idx → EReal)⟩,
          ⟨S195x3, (m ((c : Thread nD τ).loc main_arg10) : S195x3.Idx → EReal)⟩]
          concatenates_S195x3_S195x4_S195x3_S195x1_S195x3_S195x14_d1 := by
  dsimp only [V, hostOps0]
  after_results
  rfl

set_option maxHeartbeats 4000000 in
/-- The bias-row array the region finds: the five biases end to end, as a one-row matrix. -/
theorem HostWin_v2_eq (m : (ℓ : Loc nD τ sig) → Buf (Elt Ideal) ℓ) (c : Dev nD) :
    (V m c main_v2 : S1x14.Idx → EReal)
      = broadcastInDim S1x14 ![1] bcast_S14_S1x14_1 (concatenate S14 0 [⟨S3, (m ((c : Thread nD τ).loc main_arg3) : S3.Idx → EReal)⟩,
          ⟨S4, (m ((c : Thread nD τ).loc main_arg5) : S4.Idx → EReal)⟩,
          ⟨S3, (m ((c : Thread nD τ).loc main_arg7) : S3.Idx → EReal)⟩,
          ⟨S1, (m ((c : Thread nD τ).loc main_arg9) : S1.Idx → EReal)⟩,
          ⟨S3, (m ((c : Thread nD τ).loc main_arg11) : S3.Idx → EReal)⟩]
          concatenates_S3_S4_S3_S1_S3_S14_d0) := by
  dsimp only [V, hostOps0]
  after_results
  rfl

set_option maxHeartbeats 4000000 in
set_option maxRecDepth 8192 in
/-- The projection array the region finds is the reference's projection stage of the two camera arrays. -/
theorem proj_eq {F : FTy → Type} [FloatOps F] (m : (ℓ : Loc nD τ sig) → Buf (Elt F) ℓ) (c : Dev nD) :
    (V m c main_v64 : S16x4x4.Idx → F .f32)
      = Cert.ReferenceIdeal.Read.val_main_v100 (F := F) (m ((c : Thread nD τ).loc main_arg12)) (m ((c : Thread nD τ).loc main_arg13)) := by
  dsimp only [V, hostOps0]
  after_results_simp
  repeat (first
    | rw [StableHlo.nullary_result] | rw [StableHlo.unary_result] | rw [StableHlo.binary_result]
    | rw [StableHlo.reshape_result]
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide)
    | (rw [StableHlo.reshape_result_ne]; rotate_left; decide))
  rfl

variable (m : (ℓ : Loc nD τ sig) → Buf (Elt Ideal) ℓ) (c : Dev nD)

/-- The stacked weights the region finds, entry (d, j): the five heads' weights side by side. -/
theorem Wcat_apply (d : Fin 195) (j : Fin 14) :
    (V m c main_v0 : S195x14.Idx → EReal) (ix2 d j)
      = Spec.Wall (fun d o => (m ((c : Thread nD τ).loc main_arg2) : S195x3.Idx → EReal) (ix2 d o))
          (fun d o => (m ((c : Thread nD τ).loc main_arg4) : S195x4.Idx → EReal) (ix2 d o))
          (fun d o => (m ((c : Thread nD τ).loc main_arg6) : S195x3.Idx → EReal) (ix2 d o))
          (fun d o => (m ((c : Thread nD τ).loc main_arg8) : S195x1.Idx → EReal) (ix2 d o))
          (fun d o => (m ((c : Thread nD τ).loc main_arg10) : S195x3.Idx → EReal) (ix2 d o)) d j :=
  (congrFun (HostWin_v0_eq m c) (ix2 d j)).trans (HostWin_cat_cols _ _ _ _ _ d j)

/-- The bias row the region finds, entry (0, j): the five biases end to end. -/
theorem bcat_apply (j : Fin 14) :
    (V m c main_v2 : S1x14.Idx → EReal) (ix2 (0 : Fin 1) j)
      = Spec.ball (fun o => (m ((c : Thread nD τ).loc main_arg3) : S3.Idx → EReal) (ix1 o))
          (fun o => (m ((c : Thread nD τ).loc main_arg5) : S4.Idx → EReal) (ix1 o))
          (fun o => (m ((c : Thread nD τ).loc main_arg7) : S3.Idx → EReal) (ix1 o))
          (fun o => (m ((c : Thread nD τ).loc main_arg9) : S1.Idx → EReal) (ix1 o))
          (fun o => (m ((c : Thread nD τ).loc main_arg11) : S3.Idx → EReal) (ix1 o)) j :=
  (congrFun (HostWin_v2_eq m c) (ix2 (0 : Fin 1) j)).trans
    ((HostWin_bcast_row _ j).trans (HostWin_cat_row _ _ _ _ _ j))

end Cert.KernelIdeal.HostWin

end
-- ==== Proof.KIValue.lean ====
/-
  What the result array holds after the run. Point t of the 16 x 25 grid is frame t / 25, tile t % 25: its blocks
  are rows 1000 (t % 25) .. 1000 (t % 25) + 999 of frame t / 25 of the points, the features and the result, frame
  t / 25's projection, and the whole weights and bias. Row r of what the point writes back is therefore the
  specification's output row of gaussian 1000 (t % 25) + r of that frame; the 400 blocks tile the result array;
  so the array ends at the specification's value everywhere.
-/
import proofs.«141409_j36189394436976_1_alg».proof.Proof.KIFrame
import proofs.«141409_j36189394436976_1_alg».proof.Proof.KPay
import proofs.«141409_j36189394436976_1_alg».proof.Proof.HostWin
import Idealize.ShloMosaic.Lib.ValueIdx
import Idealize.ShloMosaic.Lib.Pipeline.Value

set_option maxRecDepth 16384

noncomputable section

namespace Cert.KernelIdeal.Val

open Cert.KernelIdeal Cert.KernelIdeal.Gen Cert.KernelIdeal.Frm
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The result array the specification gives, on core `c`: of the argument arrays as launched and the projection
    array the region finds. -/
def Garr (c : Dev nD) : S16x25000x14.Idx → EReal :=
  Spec.G (m ((c : Thread nD τ).loc main_arg0)) (m ((c : Thread nD τ).loc main_arg1))
    (m ((c : Thread nD τ).loc main_arg2)) (m ((c : Thread nD τ).loc main_arg4)) (m ((c : Thread nD τ).loc main_arg6))
    (m ((c : Thread nD τ).loc main_arg8)) (m ((c : Thread nD τ).loc main_arg10))
    (m ((c : Thread nD τ).loc main_arg3)) (m ((c : Thread nD τ).loc main_arg5)) (m ((c : Thread nD τ).loc main_arg7))
    (m ((c : Thread nD τ).loc main_arg9)) (m ((c : Thread nD τ).loc main_arg11))
    (V m c main_v64)

/-- The index maps over the grid: point `t` is frame `t / 25`, tile `t % 25`; the points, the features and the
    output move with both, the projection with the frame, the weights and the bias stay. -/
theorem idx_facts : ∀ t : Fin cfg0.N,
    win0_0.index t (0 : Fin 3) = t.val / 25 ∧ win0_0.index t (1 : Fin 3) = t.val % 25 ∧ win0_0.index t (2 : Fin 3) = 0
    ∧ win0_1.index t (0 : Fin 3) = t.val / 25 ∧ win0_1.index t (1 : Fin 3) = t.val % 25 ∧ win0_1.index t (2 : Fin 3) = 0
    ∧ win0_2.index t (0 : Fin 3) = t.val / 25 ∧ win0_2.index t (1 : Fin 3) = 0 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val / 25 ∧ win0_5.index t (1 : Fin 3) = t.val % 25 ∧ win0_5.index t (2 : Fin 3) = 0 :=
  (by decide +kernel : ∀ t : Fin grid0.N, _)

/-- The frame and the gaussian a row of point `t`'s blocks belongs to. -/
def fr (t : Fin cfg0.N) : Fin 16 := ⟨t.val / 25, by have h : t.val < grid0.N := t.isLt; have := N_0; omega⟩
def gs (t : Fin cfg0.N) (r : Fin 1000) : Fin 25000 :=
  ⟨t.val % 25 * 1000 + r.val, by have := r.isLt; omega⟩

/-! ## The input blocks, read where the output's rows say -/

theorem blk0_read (c : Dev nD) (t : Fin cfg0.N) (r : Fin 1000) (o : Fin 3) :
    iblk m c 0 t (ix3 (0 : Fin 1) r o) = (m ((c : Thread nD τ).loc main_arg0) : S16x25000x3.Idx → EReal) (ix3 (fr t) (gs t r) o) := by
  show V m c main_arg0 (((cfg0.win 0).blk t).view.emb (ix3 (0 : Fin 1) r o)) = _
  rw [V_main_arg0]
  refine congrArg _ ?_
  obtain ⟨e0, e1, e2, -⟩ := idx_facts t
  funext a; apply Fin.ext
  match a with
  | ⟨0, _⟩ => show win0_0.index t (0 : Fin 3) * 1 + 1 * 0 = t.val / 25; omega
  | ⟨1, _⟩ => show win0_0.index t (1 : Fin 3) * 1000 + 1 * r.val = t.val % 25 * 1000 + r.val; omega
  | ⟨2, _⟩ => show win0_0.index t (2 : Fin 3) * 3 + 1 * o.val = o.val; omega

theorem blk1_read (c : Dev nD) (t : Fin cfg0.N) (r : Fin 1000) (e : Fin 192) :
    iblk m c 1 t (ix3 (0 : Fin 1) r e) = (m ((c : Thread nD τ).loc main_arg1) : S16x25000x192.Idx → EReal) (ix3 (fr t) (gs t r) e) := by
  show V m c main_arg1 (((cfg0.win 1).blk t).view.emb (ix3 (0 : Fin 1) r e)) = _
  rw [V_main_arg1]
  refine congrArg _ ?_
  obtain ⟨-, -, -, e0, e1, e2, -⟩ := idx_facts t
  funext a; apply Fin.ext
  match a with
  | ⟨0, _⟩ => show win0_1.index t (0 : Fin 3) * 1 + 1 * 0 = t.val / 25; omega
  | ⟨1, _⟩ => show win0_1.index t (1 : Fin 3) * 1000 + 1 * r.val = t.val % 25 * 1000 + r.val; omega
  | ⟨2, _⟩ => show win0_1.index t (2 : Fin 3) * 192 + 1 * e.val = e.val; omega

theorem blk2_read (c : Dev nD) (t : Fin cfg0.N) (a b : Fin 4) :
    iblk m c 2 t (ix3 (0 : Fin 1) a b) = (V m c main_v64 : S16x4x4.Idx → EReal) (ix3 (fr t) a b) := by
  show V m c main_v64 (((cfg0.win 2).blk t).view.emb (ix3 (0 : Fin 1) a b)) = _
  refine congrArg _ ?_
  obtain ⟨-, -, -, -, -, -, e0, e1, e2, -⟩ := idx_facts t
  funext x; apply Fin.ext
  match x with
  | ⟨0, _⟩ => show win0_2.index t (0 : Fin 3) * 1 + 1 * 0 = t.val / 25; omega
  | ⟨1, _⟩ => show win0_2.index t (1 : Fin 3) * 4 + 1 * a.val = a.val; omega
  | ⟨2, _⟩ => show win0_2.index t (2 : Fin 3) * 4 + 1 * b.val = b.val; omega

theorem blk3_read (c : Dev nD) (t : Fin cfg0.N) (d : Fin 195) (j : Fin 14) :
    iblk m c 3 t (ix2 d j) = (V m c main_v0 : S195x14.Idx → EReal) (ix2 d j) := by
  show V m c main_v0 (((cfg0.win 3).blk t).view.emb (ix2 d j)) = _
  refine congrArg _ ?_
  obtain ⟨-, -, -, -, -, -, -, -, -, e0, e1, -⟩ := idx_facts t
  funext x; apply Fin.ext
  match x with
  | ⟨0, _⟩ => show win0_3.index t (0 : Fin 2) * 195 + 1 * d.val = d.val; omega
  | ⟨1, _⟩ => show win0_3.index t (1 : Fin 2) * 14 + 1 * j.val = j.val; omega

theorem blk4_read (c : Dev nD) (t : Fin cfg0.N) (j : Fin 14) :
    iblk m c 4 t (ix2 (0 : Fin 1) j) = (V m c main_v2 : S1x14.Idx → EReal) (ix2 (0 : Fin 1) j) := by
  show V m c main_v2 (((cfg0.win 4).blk t).view.emb (ix2 (0 : Fin 1) j)) = _
  refine congrArg _ ?_
  obtain ⟨-, -, -, -, -, -, -, -, -, -, -, e0, e1, -⟩ := idx_facts t
  funext x; apply Fin.ext
  match x with
  | ⟨0, _⟩ => show win0_4.index t (0 : Fin 2) * 1 + 1 * 0 = 0; omega
  | ⟨1, _⟩ => show win0_4.index t (1 : Fin 2) * 14 + 1 * j.val = j.val; omega

/-- Where row `r`, column `j` of point `t`'s output block lies in the result array. -/
theorem emb5 (t : Fin cfg0.N) (r : Fin 1000) (j : Fin 14) :
    ((cfg0.win 5).blk t).view.emb (ix3 (0 : Fin 1) r j) = (ix3 (fr t) (gs t r) j : S16x25000x14.Idx) := by
  obtain ⟨-, -, -, -, -, -, -, -, -, -, -, -, -, e0, e1, e2⟩ := idx_facts t
  funext x; apply Fin.ext
  match x with
  | ⟨0, _⟩ => show win0_5.index t (0 : Fin 3) * 1 + 1 * 0 = t.val / 25; omega
  | ⟨1, _⟩ => show win0_5.index t (1 : Fin 3) * 1000 + 1 * r.val = t.val % 25 * 1000 + r.val; omega
  | ⟨2, _⟩ => show win0_5.index t (2 : Fin 3) * 14 + 1 * j.val = j.val; omega

/-! ## What a point writes back -/

/-- The head values of row `r` of point `t`'s blocks are those of gaussian (frame, tile row) of the arrays. -/
theorem yk_eq (c : Dev nD) (t : Fin cfg0.N) (r : Fin 1000) :
    Pay.yk (iblk m c 0 t) (iblk m c 1 t) (iblk m c 3 t) (iblk m c 4 t) r
      = Spec.yrow (m ((c : Thread nD τ).loc main_arg0)) (m ((c : Thread nD τ).loc main_arg1))
          (m ((c : Thread nD τ).loc main_arg2)) (m ((c : Thread nD τ).loc main_arg4)) (m ((c : Thread nD τ).loc main_arg6))
          (m ((c : Thread nD τ).loc main_arg8)) (m ((c : Thread nD τ).loc main_arg10))
          (m ((c : Thread nD τ).loc main_arg3)) (m ((c : Thread nD τ).loc main_arg5)) (m ((c : Thread nD τ).loc main_arg7))
          (m ((c : Thread nD τ).loc main_arg9)) (m ((c : Thread nD τ).loc main_arg11)) (fr t) (gs t r) := by
  funext j
  unfold Pay.yk Spec.yrow
  have hp : (fun o => iblk m c 0 t (ix3 (0 : Fin 1) r o)) = fun o => (m ((c : Thread nD τ).loc main_arg0) : S16x25000x3.Idx → EReal) (ix3 (fr t) (gs t r) o) :=
    funext fun o => blk0_read m c t r o
  have hf : (fun e => iblk m c 1 t (ix3 (0 : Fin 1) r e)) = fun e => (m ((c : Thread nD τ).loc main_arg1) : S16x25000x192.Idx → EReal) (ix3 (fr t) (gs t r) e) :=
    funext fun e => blk1_read m c t r e
  have hw : (fun d => iblk m c 3 t (ix2 d j)) = fun d => Spec.Wall (fun d o => (m ((c : Thread nD τ).loc main_arg2) : S195x3.Idx → EReal) (ix2 d o))
          (fun d o => (m ((c : Thread nD τ).loc main_arg4) : S195x4.Idx → EReal) (ix2 d o))
          (fun d o => (m ((c : Thread nD τ).loc main_arg6) : S195x3.Idx → EReal) (ix2 d o))
          (fun d o => (m ((c : Thread nD τ).loc main_arg8) : S195x1.Idx → EReal) (ix2 d o))
          (fun d o => (m ((c : Thread nD τ).loc main_arg10) : S195x3.Idx → EReal) (ix2 d o)) d j :=
    funext fun d => (blk3_read m c t d j).trans (HostWin.Wcat_apply m c d j)
  have hb : iblk m c 4 t (ix2 (0 : Fin 1) j) = Spec.ball (fun o => (m ((c : Thread nD τ).loc main_arg3) : S3.Idx → EReal) (ix1 o))
          (fun o => (m ((c : Thread nD τ).loc main_arg5) : S4.Idx → EReal) (ix1 o))
          (fun o => (m ((c : Thread nD τ).loc main_arg7) : S3.Idx → EReal) (ix1 o))
          (fun o => (m ((c : Thread nD τ).loc main_arg9) : S1.Idx → EReal) (ix1 o))
          (fun o => (m ((c : Thread nD τ).loc main_arg11) : S3.Idx → EReal) (ix1 o)) j :=
    (blk4_read m c t j).trans (HostWin.bcat_apply m c j)
  rw [hp, hf, hw, hb]

/-- What point `t` writes back is block `t` of the specification's result array. -/
theorem flushed_eq (c : Dev nD) (t : Fin cfg0.N) :
    (dats m 0 c).flushed 5 t = ((cfg0.win 5).blk t).view.read (Elt Ideal) (Garr m c) := by
  show (cfg0.win 5).cut (grid0.coords t) ((dats m 0 c).after 5 t) = _
  rw [after0_5]
  unfold out5
  rw [View.canon_unit_zero hz3]
  funext y
  obtain ⟨r, j, rfl⟩ : ∃ (r : Fin 1000) (j : Fin 14), y = ix3 (0 : Fin 1) r j :=
    ⟨y 1, y 2, funext fun a => by
      match a with
      | ⟨0, _⟩ => exact Fin.ext (by have h : (y 0).val < 1 := (y 0).isLt; show (y 0).val = 0; omega)
      | ⟨1, _⟩ => rfl
      | ⟨2, _⟩ => rfl⟩
  show pay5 (iblk m c 0 t) (iblk m c 1 t) (iblk m c 2 t) (iblk m c 3 t) (iblk m c 4 t) (ix3 (0 : Fin 1) r j)
    = Garr m c (((cfg0.win 5).blk t).view.emb (ix3 (0 : Fin 1) r j))
  rw [emb5]
  unfold pay5
  simp only [View.ld_unit_zero (S := S1x1000x3) hz3, View.ld_unit_zero (S := S1x1000x192) hz3, View.ld_unit_zero (S := S1x4x4) hz3,
    View.ld_unit_zero (S := S195x14) hz2, View.ld_unit_zero (S := S1x14) hz2]
  refine (Pay.pay_apply (iblk m c 0 t) (iblk m c 1 t) (iblk m c 2 t) (iblk m c 3 t) (iblk m c 4 t) r j).trans ?_
  unfold Garr
  rw [Spec.G_ix3]
  unfold Spec.Gat
  rw [yk_eq]
  have hp : (fun o => iblk m c 0 t (ix3 (0 : Fin 1) r o)) = fun o => (m ((c : Thread nD τ).loc main_arg0) : S16x25000x3.Idx → EReal) (ix3 (fr t) (gs t r) o) :=
    funext fun o => blk0_read m c t r o
  have hP : (fun a b => iblk m c 2 t (ix3 (0 : Fin 1) a b)) = fun a b => (V m c main_v64 : S16x4x4.Idx → EReal) (ix3 (fr t) a b) :=
    funext fun a => funext fun b => blk2_read m c t a b
  rw [hp, hP]

/-! ## Every entry of the result is some point's -/

theorem mem_blk5 (t : Fin cfg0.N) (i : S16x25000x14.Idx) :
    i ∈ ((cfg0.win 5).blk t).view.set ↔ ∀ a : Fin 3, win0_5.index t a * S1x1000x14.size a ≤ (i a).val
      ∧ (i a).val < win0_5.index t a * S1x1000x14.size a + S1x1000x14.size a := by
  show i ∈ ((View.whole main_v65).slice (win0_5.rect t)).set ↔ _
  rw [View.set_slice_whole, Rect.mem_set_unit]
  exact Iff.rfl

/-- Gaussian `n` of frame `b` is in the block of point `25 b + n / 1000`. -/
theorem cover (i : S16x25000x14.Idx) : ∃ t : Fin cfg0.N, (cfg0.win 5).flush t = true ∧ i ∈ ((cfg0.win 5).blk t).view.set := by
  have h0 : (i 0).val < 16 := (i 0).isLt
  have h1 : (i 1).val < 25000 := (i 1).isLt
  have h2 : (i 2).val < 14 := (i 2).isLt
  let t : Fin cfg0.N := ⟨(i 0).val * 25 + (i 1).val / 1000, by show _ < grid0.N; have := N_0; omega⟩
  refine ⟨t, flush0_5 t, ?_⟩
  rw [mem_blk5]
  obtain ⟨-, -, -, -, -, -, -, -, -, -, -, -, -, e0, e1, e2⟩ := idx_facts t
  have ht : t.val = (i 0).val * 25 + (i 1).val / 1000 := rfl
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1000 ≤ (i 1).val ∧ (i 1).val < win0_5.index t (1 : Fin 3) * 1000 + 1000; omega
  | ⟨2, _⟩ => show win0_5.index t (2 : Fin 3) * 14 ≤ (i 2).val ∧ (i 2).val < win0_5.index t (2 : Fin 3) * 14 + 14; omega

/-- The result array after the run is the specification's. -/
theorem final (c : Dev nD) : (dats m 0 c).arrAt 5 cfg0.N = Garr m c :=
  (dats m 0 c).arrAt_eq_of_cover 5 (Garr m c) (fun t _ => flushed_eq m c t) cover

/-- The run, read: the result array at the specification's value, the arguments unchanged. -/
theorem run : θ_run defs (onTc (τ := τ) (main (F := Ideal))) ⟨m, fun _ => 0, ρ⟩ fun r => ∀ c : Dev nD,
      r.2.mem ((c.tc : Thread nD τ).loc main_v65) = Garr m c
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨((h c).1 5).trans (final m c), kept_args m (dats m) (A_eq m) r h c⟩) (run_main m ρ)

end Cert.KernelIdeal.Val

end
-- ==== Proof.RefHeads.lean ====
/-
  The reference's five linear heads, each read at one entry: the gaussian's row (its point, then its features) against one column of the head's weights, plus that column's bias.
-/
import proofs.«141409_j36189394436976_1_alg».proof.Proof.Gen.ReferenceIdeal.Read
import proofs.«141409_j36189394436976_1_alg».proof.Proof.Spec
import proofs.«141409_j36189394436976_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

namespace Cert.ReferenceIdeal.RefValue

open Cert.ReferenceIdeal Cert.ReferenceIdeal.Gen Cert.ReferenceIdeal.Read
open Idealize.ShloMosaic Idealize.ShloMosaic.ValueIdx

set_option quotPrecheck false in
local notation "A3" => (⟨S16x25000x3, .f32⟩ : BufTy).Contents (Elt Ideal)
set_option quotPrecheck false in
local notation "A192" => (⟨S16x25000x192, .f32⟩ : BufTy).Contents (Elt Ideal)

variable (x0 : A3) (x1 : A192) (b : Fin 16) (n : Fin 25000)

/-- The concatenated row at one coordinate: the point below 3, the features from 3 on. -/
theorem RefHeads_v0_apply (k : Fin 195) :
    val_main_v0 (F := Ideal) x0 x1 (ix3 b n k)
      = Spec.xrow (fun q => x0 (ix3 b n q)) (fun e => x1 (ix3 b n e)) k := by
  unfold val_main_v0 Spec.xrow
  by_cases h : k.val < 3
  · rw [dif_pos h]
    exact concatenate_pair_apply_left (2 : Fin 3) x0 x1 _ (ix3 b n k) rfl (ix3 b n ⟨k.val, h⟩)
      (fun a => by match a with | ⟨0, _⟩ => rfl | ⟨1, _⟩ => rfl | ⟨2, _⟩ => rfl)
  · rw [dif_neg h]
    exact concatenate_pair_apply_right (2 : Fin 3) x0 x1 _ (ix3 b n k) rfl rfl
      (ix3 b n ⟨k.val - 3, by have := k.isLt; omega⟩)
      (fun a ha => by
        match a with
        | ⟨0, _⟩ => rfl
        | ⟨1, _⟩ => rfl
        | ⟨2, _⟩ => exact absurd rfl ha)
      (by show k.val - 3 + 3 = k.val; omega)

/-- The position-offset head. -/
theorem v4_apply (x2 : (⟨S195x3, .f32⟩ : BufTy).Contents (Elt Ideal)) (x3 : (⟨S3, .f32⟩ : BufTy).Contents (Elt Ideal)) (o : Fin 3) :
    val_main_v4 (F := Ideal) x0 x1 x2 x3 (ix3 b n o)
      = Spec.head (Spec.xrow (fun q => x0 (ix3 b n q)) (fun e => x1 (ix3 b n e))) (fun d => x2 (ix2 d o)) (x3 (ix1 o)) := by
  rw [val_main_v4_apply, val_main_v1_apply, val_main_v3_apply, val_main_v2_apply]
  unfold Spec.head
  -- the bias, broadcast twice, is read at its own coordinate
  have hb : idx_main_v2 (idx_main_v3 (ix3 b n o)) = ix1 o :=
    funext fun a => Fin.ext (by match a with | ⟨0, _⟩ => rfl)
  rw [hb]
  show (∑ k : Fin 195, _) + _ = _
  congr 1
  -- term by term: the row's k-th entry against the column's k-th entry
  refine Finset.sum_congr rfl fun k _ => ?_
  have hl : lidx_main_v1 (ix3 b n o) k = ix3 b n k :=
    funext fun a => Fin.ext (by match a with | ⟨0, _⟩ => rfl | ⟨1, _⟩ => rfl | ⟨2, _⟩ => rfl)
  have hr : ridx_main_v1 (ix3 b n o) k = ix2 k o :=
    funext fun a => Fin.ext (by match a with | ⟨0, _⟩ => rfl | ⟨1, _⟩ => rfl)
  rw [hl, hr, RefHeads_v0_apply]

/-- The quaternion head. -/
theorem v8_apply (x4 : (⟨S195x4, .f32⟩ : BufTy).Contents (Elt Ideal)) (x5 : (⟨S4, .f32⟩ : BufTy).Contents (Elt Ideal)) (o : Fin 4) :
    val_main_v8 (F := Ideal) x0 x1 x4 x5 (ix3 b n o)
      = Spec.head (Spec.xrow (fun q => x0 (ix3 b n q)) (fun e => x1 (ix3 b n e))) (fun d => x4 (ix2 d o)) (x5 (ix1 o)) := by
  rw [val_main_v8_apply, val_main_v5_apply, val_main_v7_apply, val_main_v6_apply]
  unfold Spec.head
  -- the bias, broadcast twice, is read at its own coordinate
  have hb : idx_main_v6 (idx_main_v7 (ix3 b n o)) = ix1 o :=
    funext fun a => Fin.ext (by match a with | ⟨0, _⟩ => rfl)
  rw [hb]
  show (∑ k : Fin 195, _) + _ = _
  congr 1
  -- term by term: the row's k-th entry against the column's k-th entry
  refine Finset.sum_congr rfl fun k _ => ?_
  have hl : lidx_main_v5 (ix3 b n o) k = ix3 b n k :=
    funext fun a => Fin.ext (by match a with | ⟨0, _⟩ => rfl | ⟨1, _⟩ => rfl | ⟨2, _⟩ => rfl)
  have hr : ridx_main_v5 (ix3 b n o) k = ix2 k o :=
    funext fun a => Fin.ext (by match a with | ⟨0, _⟩ => rfl | ⟨1, _⟩ => rfl)
  rw [hl, hr, RefHeads_v0_apply]

/-- The log-scale head. -/
theorem v12_apply (x6 : (⟨S195x3, .f32⟩ : BufTy).Contents (Elt Ideal)) (x7 : (⟨S3, .f32⟩ : BufTy).Contents (Elt Ideal)) (o : Fin 3) :
    val_main_v12 (F := Ideal) x0 x1 x6 x7 (ix3 b n o)
      = Spec.head (Spec.xrow (fun q => x0 (ix3 b n q)) (fun e => x1 (ix3 b n e))) (fun d => x6 (ix2 d o)) (x7 (ix1 o)) := by
  rw [val_main_v12_apply, val_main_v9_apply, val_main_v11_apply, val_main_v10_apply]
  unfold Spec.head
  -- the bias, broadcast twice, is read at its own coordinate
  have hb : idx_main_v10 (idx_main_v11 (ix3 b n o)) = ix1 o :=
    funext fun a => Fin.ext (by match a with | ⟨0, _⟩ => rfl)
  rw [hb]
  show (∑ k : Fin 195, _) + _ = _
  congr 1
  -- term by term: the row's k-th entry against the column's k-th entry
  refine Finset.sum_congr rfl fun k _ => ?_
  have hl : lidx_main_v9 (ix3 b n o) k = ix3 b n k :=
    funext fun a => Fin.ext (by match a with | ⟨0, _⟩ => rfl | ⟨1, _⟩ => rfl | ⟨2, _⟩ => rfl)
  have hr : ridx_main_v9 (ix3 b n o) k = ix2 k o :=
    funext fun a => Fin.ext (by match a with | ⟨0, _⟩ => rfl | ⟨1, _⟩ => rfl)
  rw [hl, hr, RefHeads_v0_apply]

/-- The opacity head. -/
theorem v16_apply (x8 : (⟨S195x1, .f32⟩ : BufTy).Contents (Elt Ideal)) (x9 : (⟨S1, .f32⟩ : BufTy).Contents (Elt Ideal)) (o : Fin 1) :
    val_main_v16 (F := Ideal) x0 x1 x8 x9 (ix3 b n o)
      = Spec.head (Spec.xrow (fun q => x0 (ix3 b n q)) (fun e => x1 (ix3 b n e))) (fun d => x8 (ix2 d o)) (x9 (ix1 o)) := by
  rw [val_main_v16_apply, val_main_v13_apply, val_main_v15_apply, val_main_v14_apply]
  unfold Spec.head
  -- the bias, broadcast twice, is read at its own coordinate
  have hb : idx_main_v14 (idx_main_v15 (ix3 b n o)) = ix1 o :=
    funext fun a => Fin.ext (by match a with | ⟨0, _⟩ => (show (0 : Nat) = o.val; have := o.isLt; omega))
  rw [hb]
  show (∑ k : Fin 195, _) + _ = _
  congr 1
  -- term by term: the row's k-th entry against the column's k-th entry
  refine Finset.sum_congr rfl fun k _ => ?_
  have hl : lidx_main_v13 (ix3 b n o) k = ix3 b n k :=
    funext fun a => Fin.ext (by match a with | ⟨0, _⟩ => rfl | ⟨1, _⟩ => rfl | ⟨2, _⟩ => rfl)
  have hr : ridx_main_v13 (ix3 b n o) k = ix2 k o :=
    funext fun a => Fin.ext (by match a with | ⟨0, _⟩ => rfl | ⟨1, _⟩ => rfl)
  rw [hl, hr, RefHeads_v0_apply]

/-- The colour head. -/
theorem v20_apply (x10 : (⟨S195x3, .f32⟩ : BufTy).Contents (Elt Ideal)) (x11 : (⟨S3, .f32⟩ : BufTy).Contents (Elt Ideal)) (o : Fin 3) :
    val_main_v20 (F := Ideal) x0 x1 x10 x11 (ix3 b n o)
      = Spec.head (Spec.xrow (fun q => x0 (ix3 b n q)) (fun e => x1 (ix3 b n e))) (fun d => x10 (ix2 d o)) (x11 (ix1 o)) := by
  rw [val_main_v20_apply, val_main_v17_apply, val_main_v19_apply, val_main_v18_apply]
  unfold Spec.head
  -- the bias, broadcast twice, is read at its own coordinate
  have hb : idx_main_v18 (idx_main_v19 (ix3 b n o)) = ix1 o :=
    funext fun a => Fin.ext (by match a with | ⟨0, _⟩ => rfl)
  rw [hb]
  show (∑ k : Fin 195, _) + _ = _
  congr 1
  -- term by term: the row's k-th entry against the column's k-th entry
  refine Finset.sum_congr rfl fun k _ => ?_
  have hl : lidx_main_v17 (ix3 b n o) k = ix3 b n k :=
    funext fun a => Fin.ext (by match a with | ⟨0, _⟩ => rfl | ⟨1, _⟩ => rfl | ⟨2, _⟩ => rfl)
  have hr : ridx_main_v17 (ix3 b n o) k = ix2 k o :=
    funext fun a => Fin.ext (by match a with | ⟨0, _⟩ => rfl | ⟨1, _⟩ => rfl)
  rw [hl, hr, RefHeads_v0_apply]

end Cert.ReferenceIdeal.RefValue

end
-- ==== Proof.RefPost.lean ====
/-
  The reference's activations, each read at one entry in terms of its head's values at the same gaussian.
-/
import proofs.«141409_j36189394436976_1_alg».proof.Proof.Gen.ReferenceIdeal.Read
import proofs.«141409_j36189394436976_1_alg».proof.Proof.Spec
import proofs.«141409_j36189394436976_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

namespace Cert.ReferenceIdeal.RefValue

open Cert.ReferenceIdeal Cert.ReferenceIdeal.Gen Cert.ReferenceIdeal.Read
open Idealize.ShloMosaic Idealize.ShloMosaic.ValueIdx

set_option quotPrecheck false in
local notation "A3" => (⟨S16x25000x3, .f32⟩ : BufTy).Contents (Elt Ideal)
set_option quotPrecheck false in
local notation "A192" => (⟨S16x25000x192, .f32⟩ : BufTy).Contents (Elt Ideal)

variable (x0 : A3) (x1 : A192) (b : Fin 16) (n : Fin 25000)

/-- The index the sum of squares reads at: the same gaussian, the summed coordinate in place of the column. -/
theorem RefPost_idx26 (b : Fin 16) (n : Fin 25000) (o k : Fin 4) :
    idx_main_call0_v1 (idx_main_call0_v2 (idx_main_v25 (ix3 b n o))) k = ix3 b n k :=
  funext fun a => Fin.ext (by
    match a with
    | ⟨0, _⟩ => rfl
    | ⟨1, _⟩ => rfl
    | ⟨2, _⟩ => rfl)

/-- The sum of the squared products, read at the quaternion head's four entries of one gaussian. -/
theorem RefPost_sumsq (x4 : (⟨S195x4, .f32⟩ : BufTy).Contents (Elt Ideal)) (x5 : (⟨S4, .f32⟩ : BufTy).Contents (Elt Ideal)) (o : Fin 4) :
    (∑ k : Fin 4, val_main_call0_v0 (F := Ideal) x0 x1 x4 x5 (idx_main_call0_v1 (idx_main_call0_v2 (idx_main_v25 (ix3 b n o))) k))
      = ∑ q : Fin 4, val_main_v8 (F := Ideal) x0 x1 x4 x5 (ix3 b n q) * val_main_v8 (F := Ideal) x0 x1 x4 x5 (ix3 b n q) :=
  Finset.sum_congr rfl fun k _ => by
    rw [RefPost_idx26, val_main_call0_v0_apply, Ideal.mulf_def]

/-- The world-space mean: the point plus the offset head. -/
theorem v21_apply (x2 : (⟨S195x3, .f32⟩ : BufTy).Contents (Elt Ideal)) (x3 : (⟨S3, .f32⟩ : BufTy).Contents (Elt Ideal)) (o : Fin 3) :
    val_main_v21 (F := Ideal) x0 x1 x2 x3 (ix3 b n o) = x0 (ix3 b n o) + val_main_v4 (F := Ideal) x0 x1 x2 x3 (ix3 b n o) := by
  rw [val_main_v21_apply, Ideal.addf_def]

/-- The quaternion over its norm (the root of the sum of its four squares, plus 1e-8). -/
theorem v26_apply (x4 : (⟨S195x4, .f32⟩ : BufTy).Contents (Elt Ideal)) (x5 : (⟨S4, .f32⟩ : BufTy).Contents (Elt Ideal)) (o : Fin 4) :
    val_main_v26 (F := Ideal) x0 x1 x4 x5 (ix3 b n o)
      = Ideal.div (val_main_v8 (F := Ideal) x0 x1 x4 x5 (ix3 b n o))
          (Ideal.sqrt (∑ q : Fin 4, val_main_v8 (F := Ideal) x0 x1 x4 x5 (ix3 b n q) * val_main_v8 (F := Ideal) x0 x1 x4 x5 (ix3 b n q)) + Spec.cEpsN) := by
  rw [val_main_v26_apply, val_main_v25_apply, val_main_v24_apply, val_main_v22_apply, val_main_call0_v2_apply,
    val_main_call0_v1_apply, val_main_v23_apply, val_main_cst_apply, val_main_call0_cst_apply]
  rw [RefPost_sumsq, Ideal.hostDivf_def, Ideal.addf_def, Ideal.hostUnary_sqrt_def, Ideal.ofBits_def, Ideal.ofBits_def,
    Ideal.ofBits_zero_f32, zero_add]

/-- The capped exponential of the biased log-scales. -/
theorem v31_apply (x6 : (⟨S195x3, .f32⟩ : BufTy).Contents (Elt Ideal)) (x7 : (⟨S3, .f32⟩ : BufTy).Contents (Elt Ideal)) (o : Fin 3) :
    val_main_v31 (F := Ideal) x0 x1 x6 x7 (ix3 b n o)
      = min (Ideal.exp (val_main_v12 (F := Ideal) x0 x1 x6 x7 (ix3 b n o) - Spec.cBias)) Spec.cCap := by
  rw [val_main_v31_apply, val_main_v29_apply, val_main_v28_apply, val_main_v30_apply, val_main_v27_apply,
    val_main_cst_0_apply, val_main_cst_1_apply]
  simp only [Ideal.minimumf_def, Ideal.hostUnary_exp_def, Ideal.subf_def, Ideal.ofBits_def]

/-- The logistic of the opacity logit, spelt 1 / (1 + exp (-x)). -/
theorem v37_apply (x8 : (⟨S195x1, .f32⟩ : BufTy).Contents (Elt Ideal)) (x9 : (⟨S1, .f32⟩ : BufTy).Contents (Elt Ideal)) (o : Fin 1) :
    val_main_v37 (F := Ideal) x0 x1 x8 x9 (ix3 b n o) = Ideal.logistic (val_main_v16 (F := Ideal) x0 x1 x8 x9 (ix3 b n o)) := by
  rw [val_main_v37_apply, val_main_v36_apply, val_main_cst_3_apply, val_main_v35_apply, val_main_v34_apply,
    val_main_cst_2_apply, val_main_v33_apply, val_main_v32_apply]
  simp only [Ideal.hostDivf_def, Ideal.addf_def, Ideal.hostUnary_exp_def, Ideal.hostNegf_def, Ideal.negf_def,
    Ideal.ofBits_def, Ideal.ofBits_one_f32]
  rfl

/-- The colour clamped to [0, 1]. -/
theorem v38_apply (x10 : (⟨S195x3, .f32⟩ : BufTy).Contents (Elt Ideal)) (x11 : (⟨S3, .f32⟩ : BufTy).Contents (Elt Ideal)) (o : Fin 3) :
    val_main_v38 (F := Ideal) x0 x1 x10 x11 (ix3 b n o)
      = min Spec.cOne (max Spec.cZero (val_main_v20 (F := Ideal) x0 x1 x10 x11 (ix3 b n o))) := by
  rw [val_main_v38_apply, val_main_call1_v4_apply, val_main_call1_v3_apply, val_main_cst_5_apply,
    val_main_call1_v2_apply, val_main_call1_v1_apply, val_main_call1_v0_apply, val_main_cst_4_apply]
  simp only [Ideal.minimumf_def, Ideal.maximumf_def, Ideal.ofBits_def]

end Cert.ReferenceIdeal.RefValue

end
-- ==== Proof.RefOut.lean ====
/-
  The reference's camera projection and packing: the result array read at one entry, given what its pieces hold at that gaussian.
-/
import proofs.«141409_j36189394436976_1_alg».proof.Proof.Gen.ReferenceIdeal.Read
import proofs.«141409_j36189394436976_1_alg».proof.Proof.Spec
import proofs.«141409_j36189394436976_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

namespace Cert.ReferenceIdeal.RefValue

open Cert.ReferenceIdeal Cert.ReferenceIdeal.Gen Cert.ReferenceIdeal.Read
open Idealize.ShloMosaic Idealize.ShloMosaic.ValueIdx

set_option quotPrecheck false in
local notation "A3" => (⟨S16x25000x3, .f32⟩ : BufTy).Contents (Elt Ideal)
set_option quotPrecheck false in
local notation "A192" => (⟨S16x25000x192, .f32⟩ : BufTy).Contents (Elt Ideal)

/-! ## Joins along the last axis, read at an index given by coordinates -/

section Cat
variable {α : Type}

/-- A [16, 25000, 3] array joined with a [16, 25000, 1] array along the last axis reads, at a last coordinate below 3,
    the first array at the same coordinates. -/
theorem RefOut_cat31_left (u : S16x25000x3.Idx → α) (v : S16x25000x1.Idx → α)
    (h : Shape.Concatenates [S16x25000x3, S16x25000x1] S16x25000x4 2)
    (b : Fin 16) (n : Fin 25000) (i : Fin 3) :
    concatenate S16x25000x4 2 [⟨S16x25000x3, u⟩, ⟨S16x25000x1, v⟩] h (ix3 b n (⟨i.val, by omega⟩ : Fin 4))
      = u (ix3 b n i) :=
  concatenate_pair_apply_left 2 u v h _ rfl (ix3 b n i) (fun a => match a with
    | ⟨0, _⟩ => rfl | ⟨1, _⟩ => rfl | ⟨2, _⟩ => rfl)

/-- The same join at last coordinate 3 reads the second array at last coordinate 0. -/
theorem RefOut_cat31_right (u : S16x25000x3.Idx → α) (v : S16x25000x1.Idx → α)
    (h : Shape.Concatenates [S16x25000x3, S16x25000x1] S16x25000x4 2)
    (b : Fin 16) (n : Fin 25000) :
    concatenate S16x25000x4 2 [⟨S16x25000x3, u⟩, ⟨S16x25000x1, v⟩] h (ix3 b n (3 : Fin 4))
      = v (ix3 b n (0 : Fin 1)) :=
  concatenate_pair_apply_right 2 u v h _ rfl rfl (ix3 b n (0 : Fin 1)) (fun a ha => match a, ha with
    | ⟨0, _⟩, _ => rfl | ⟨1, _⟩, _ => rfl | ⟨2, _⟩, ha => absurd rfl ha) rfl

/-- The six-piece join of widths 2, 1, 3, 1, 3, 4 along the last axis, read in piece 0 (the two normalized-device columns, starting at
    column 0): at column 0 + i it is piece 0 at column i. -/
theorem RefOut_cat6_p0 (u0 : S16x25000x2.Idx → α) (u1 : S16x25000x1.Idx → α) (u2 : S16x25000x3.Idx → α)
    (u3 : S16x25000x1.Idx → α) (u4 : S16x25000x3.Idx → α) (u5 : S16x25000x4.Idx → α)
    (h : Shape.Concatenates [S16x25000x2, S16x25000x1, S16x25000x3, S16x25000x1, S16x25000x3, S16x25000x4] S16x25000x14 2)
    (b : Fin 16) (n : Fin 25000) (i : Fin 2) :
    concatenate S16x25000x14 2 [⟨S16x25000x2, u0⟩, ⟨S16x25000x1, u1⟩, ⟨S16x25000x3, u2⟩, ⟨S16x25000x1, u3⟩,
        ⟨S16x25000x3, u4⟩, ⟨S16x25000x4, u5⟩] h (ix3 b n (⟨i.val, by omega⟩ : Fin 14)) = u0 (ix3 b n i) :=
  concatenate_apply_piece 2 [⟨S16x25000x2, u0⟩, ⟨S16x25000x1, u1⟩, ⟨S16x25000x3, u2⟩, ⟨S16x25000x1, u3⟩,
        ⟨S16x25000x3, u4⟩, ⟨S16x25000x4, u5⟩] h _ 0 (show 0 < 6 by omega) S16x25000x2 u0 rfl rfl 0 rfl (ix3 b n i) (fun a ha => match a, ha with
    | ⟨0, _⟩, _ => rfl | ⟨1, _⟩, _ => rfl | ⟨2, _⟩, ha => absurd rfl ha) (Nat.zero_add _)

/-- The six-piece join of widths 2, 1, 3, 1, 3, 4 along the last axis, read in piece 1 (the depth column, starting at
    column 2): at column 2 + i it is piece 1 at column i. -/
theorem RefOut_cat6_p1 (u0 : S16x25000x2.Idx → α) (u1 : S16x25000x1.Idx → α) (u2 : S16x25000x3.Idx → α)
    (u3 : S16x25000x1.Idx → α) (u4 : S16x25000x3.Idx → α) (u5 : S16x25000x4.Idx → α)
    (h : Shape.Concatenates [S16x25000x2, S16x25000x1, S16x25000x3, S16x25000x1, S16x25000x3, S16x25000x4] S16x25000x14 2)
    (b : Fin 16) (n : Fin 25000) (i : Fin 1) :
    concatenate S16x25000x14 2 [⟨S16x25000x2, u0⟩, ⟨S16x25000x1, u1⟩, ⟨S16x25000x3, u2⟩, ⟨S16x25000x1, u3⟩,
        ⟨S16x25000x3, u4⟩, ⟨S16x25000x4, u5⟩] h (ix3 b n (⟨2 + i.val, by omega⟩ : Fin 14)) = u1 (ix3 b n i) :=
  concatenate_apply_piece 2 [⟨S16x25000x2, u0⟩, ⟨S16x25000x1, u1⟩, ⟨S16x25000x3, u2⟩, ⟨S16x25000x1, u3⟩,
        ⟨S16x25000x3, u4⟩, ⟨S16x25000x4, u5⟩] h _ 1 (show 1 < 6 by omega) S16x25000x1 u1 rfl rfl 2 rfl (ix3 b n i) (fun a ha => match a, ha with
    | ⟨0, _⟩, _ => rfl | ⟨1, _⟩, _ => rfl | ⟨2, _⟩, ha => absurd rfl ha) rfl

/-- The six-piece join of widths 2, 1, 3, 1, 3, 4 along the last axis, read in piece 2 (the three scale columns, starting at
    column 3): at column 3 + i it is piece 2 at column i. -/
theorem RefOut_cat6_p2 (u0 : S16x25000x2.Idx → α) (u1 : S16x25000x1.Idx → α) (u2 : S16x25000x3.Idx → α)
    (u3 : S16x25000x1.Idx → α) (u4 : S16x25000x3.Idx → α) (u5 : S16x25000x4.Idx → α)
    (h : Shape.Concatenates [S16x25000x2, S16x25000x1, S16x25000x3, S16x25000x1, S16x25000x3, S16x25000x4] S16x25000x14 2)
    (b : Fin 16) (n : Fin 25000) (i : Fin 3) :
    concatenate S16x25000x14 2 [⟨S16x25000x2, u0⟩, ⟨S16x25000x1, u1⟩, ⟨S16x25000x3, u2⟩, ⟨S16x25000x1, u3⟩,
        ⟨S16x25000x3, u4⟩, ⟨S16x25000x4, u5⟩] h (ix3 b n (⟨3 + i.val, by omega⟩ : Fin 14)) = u2 (ix3 b n i) :=
  concatenate_apply_piece 2 [⟨S16x25000x2, u0⟩, ⟨S16x25000x1, u1⟩, ⟨S16x25000x3, u2⟩, ⟨S16x25000x1, u3⟩,
        ⟨S16x25000x3, u4⟩, ⟨S16x25000x4, u5⟩] h _ 2 (show 2 < 6 by omega) S16x25000x3 u2 rfl rfl 3 rfl (ix3 b n i) (fun a ha => match a, ha with
    | ⟨0, _⟩, _ => rfl | ⟨1, _⟩, _ => rfl | ⟨2, _⟩, ha => absurd rfl ha) rfl

/-- The six-piece join of widths 2, 1, 3, 1, 3, 4 along the last axis, read in piece 3 (the opacity column, starting at
    column 6): at column 6 + i it is piece 3 at column i. -/
theorem RefOut_cat6_p3 (u0 : S16x25000x2.Idx → α) (u1 : S16x25000x1.Idx → α) (u2 : S16x25000x3.Idx → α)
    (u3 : S16x25000x1.Idx → α) (u4 : S16x25000x3.Idx → α) (u5 : S16x25000x4.Idx → α)
    (h : Shape.Concatenates [S16x25000x2, S16x25000x1, S16x25000x3, S16x25000x1, S16x25000x3, S16x25000x4] S16x25000x14 2)
    (b : Fin 16) (n : Fin 25000) (i : Fin 1) :
    concatenate S16x25000x14 2 [⟨S16x25000x2, u0⟩, ⟨S16x25000x1, u1⟩, ⟨S16x25000x3, u2⟩, ⟨S16x25000x1, u3⟩,
        ⟨S16x25000x3, u4⟩, ⟨S16x25000x4, u5⟩] h (ix3 b n (⟨6 + i.val, by omega⟩ : Fin 14)) = u3 (ix3 b n i) :=
  concatenate_apply_piece 2 [⟨S16x25000x2, u0⟩, ⟨S16x25000x1, u1⟩, ⟨S16x25000x3, u2⟩, ⟨S16x25000x1, u3⟩,
        ⟨S16x25000x3, u4⟩, ⟨S16x25000x4, u5⟩] h _ 3 (show 3 < 6 by omega) S16x25000x1 u3 rfl rfl 6 rfl (ix3 b n i) (fun a ha => match a, ha with
    | ⟨0, _⟩, _ => rfl | ⟨1, _⟩, _ => rfl | ⟨2, _⟩, ha => absurd rfl ha) rfl

/-- The six-piece join of widths 2, 1, 3, 1, 3, 4 along the last axis, read in piece 4 (the three colour columns, starting at
    column 7): at column 7 + i it is piece 4 at column i. -/
theorem RefOut_cat6_p4 (u0 : S16x25000x2.Idx → α) (u1 : S16x25000x1.Idx → α) (u2 : S16x25000x3.Idx → α)
    (u3 : S16x25000x1.Idx → α) (u4 : S16x25000x3.Idx → α) (u5 : S16x25000x4.Idx → α)
    (h : Shape.Concatenates [S16x25000x2, S16x25000x1, S16x25000x3, S16x25000x1, S16x25000x3, S16x25000x4] S16x25000x14 2)
    (b : Fin 16) (n : Fin 25000) (i : Fin 3) :
    concatenate S16x25000x14 2 [⟨S16x25000x2, u0⟩, ⟨S16x25000x1, u1⟩, ⟨S16x25000x3, u2⟩, ⟨S16x25000x1, u3⟩,
        ⟨S16x25000x3, u4⟩, ⟨S16x25000x4, u5⟩] h (ix3 b n (⟨7 + i.val, by omega⟩ : Fin 14)) = u4 (ix3 b n i) :=
  concatenate_apply_piece 2 [⟨S16x25000x2, u0⟩, ⟨S16x25000x1, u1⟩, ⟨S16x25000x3, u2⟩, ⟨S16x25000x1, u3⟩,
        ⟨S16x25000x3, u4⟩, ⟨S16x25000x4, u5⟩] h _ 4 (show 4 < 6 by omega) S16x25000x3 u4 rfl rfl 7 rfl (ix3 b n i) (fun a ha => match a, ha with
    | ⟨0, _⟩, _ => rfl | ⟨1, _⟩, _ => rfl | ⟨2, _⟩, ha => absurd rfl ha) rfl

/-- The six-piece join of widths 2, 1, 3, 1, 3, 4 along the last axis, read in piece 5 (the four quaternion columns, starting at
    column 10): at column 10 + i it is piece 5 at column i. -/
theorem RefOut_cat6_p5 (u0 : S16x25000x2.Idx → α) (u1 : S16x25000x1.Idx → α) (u2 : S16x25000x3.Idx → α)
    (u3 : S16x25000x1.Idx → α) (u4 : S16x25000x3.Idx → α) (u5 : S16x25000x4.Idx → α)
    (h : Shape.Concatenates [S16x25000x2, S16x25000x1, S16x25000x3, S16x25000x1, S16x25000x3, S16x25000x4] S16x25000x14 2)
    (b : Fin 16) (n : Fin 25000) (i : Fin 4) :
    concatenate S16x25000x14 2 [⟨S16x25000x2, u0⟩, ⟨S16x25000x1, u1⟩, ⟨S16x25000x3, u2⟩, ⟨S16x25000x1, u3⟩,
        ⟨S16x25000x3, u4⟩, ⟨S16x25000x4, u5⟩] h (ix3 b n (⟨10 + i.val, by omega⟩ : Fin 14)) = u5 (ix3 b n i) :=
  concatenate_apply_piece 2 [⟨S16x25000x2, u0⟩, ⟨S16x25000x1, u1⟩, ⟨S16x25000x3, u2⟩, ⟨S16x25000x1, u3⟩,
        ⟨S16x25000x3, u4⟩, ⟨S16x25000x4, u5⟩] h _ 5 (show 5 < 6 by omega) S16x25000x4 u5 rfl rfl 10 rfl (ix3 b n i) (fun a ha => match a, ha with
    | ⟨0, _⟩, _ => rfl | ⟨1, _⟩, _ => rfl | ⟨2, _⟩, ha => absurd rfl ha) rfl

end Cat

/-! ## The projection chain at one gaussian -/

/-- The homogeneous mean at gaussian (b, n): the three coordinates of the mean, then the literal one. -/
theorem RefOut_v103_apply (x0 : A3) (x1 : A192)
    (x2 : (⟨S195x3, .f32⟩ : BufTy).Contents (Elt Ideal)) (x3 : (⟨S3, .f32⟩ : BufTy).Contents (Elt Ideal))
    (b : Fin 16) (n : Fin 25000) (p : Fin 3 → EReal) (y : Fin 14 → EReal)
    (h21 : ∀ o : Fin 3, val_main_v21 (F := Ideal) x0 x1 x2 x3 (ix3 b n o) = p o + y ⟨o.val, by omega⟩) (i : Fin 4) :
    val_main_v103 (F := Ideal) x0 x1 x2 x3 (ix3 b n i) = Spec.hom p y i := by
  unfold val_main_v103 Spec.hom
  by_cases hi : i.val < 3
  · rw [dif_pos hi]
    exact (RefOut_cat31_left _ _ _ b n ⟨i.val, hi⟩).trans (h21 ⟨i.val, hi⟩)
  · rw [dif_neg hi]
    have e : i = (3 : Fin 4) := Fin.ext (by have := i.isLt; show i.val = 3; omega)
    subst e
    refine (RefOut_cat31_right _ _ _ b n).trans ?_
    rw [val_main_v102_apply, val_main_cst_33_apply]
    rfl

/-- The clip coordinates at gaussian (b, n): the homogeneous mean against frame b's slab of the projection array. -/
theorem RefOut_v104_apply (x0 : A3) (x1 : A192)
    (x2 : (⟨S195x3, .f32⟩ : BufTy).Contents (Elt Ideal)) (x3 : (⟨S3, .f32⟩ : BufTy).Contents (Elt Ideal))
    (x12 : (⟨S16x3x3, .f32⟩ : BufTy).Contents (Elt Ideal)) (x13 : (⟨S16x4x4, .f32⟩ : BufTy).Contents (Elt Ideal))
    (b : Fin 16) (n : Fin 25000) (p : Fin 3 → EReal) (y : Fin 14 → EReal)
    (h21 : ∀ o : Fin 3, val_main_v21 (F := Ideal) x0 x1 x2 x3 (ix3 b n o) = p o + y ⟨o.val, by omega⟩) (j : Fin 4) :
    val_main_v104 (F := Ideal) x0 x1 x2 x3 x12 x13 (ix3 b n j) = Spec.clip p y (fun a c => val_main_v100 (F := Ideal) x12 x13 (ix3 b a c)) j := by
  rw [val_main_v104_apply]
  unfold Spec.clip
  refine Finset.sum_congr rfl fun k _ => ?_
  have el : lidx_main_v104 (ix3 b n j) k = ix3 b n k := funext fun a => match a with
    | ⟨0, _⟩ => rfl | ⟨1, _⟩ => rfl | ⟨2, _⟩ => rfl
  have er : ridx_main_v104 (ix3 b n j) k = ix3 b k j := funext fun a => match a with
    | ⟨0, _⟩ => rfl | ⟨1, _⟩ => rfl | ⟨2, _⟩ => rfl
  rw [el, er, RefOut_v103_apply x0 x1 x2 x3 b n p y h21 k]

/-- The divisor of the perspective division at gaussian (b, n): clip column 3 plus the literal 1e-7. -/
theorem RefOut_v107_apply (x0 : A3) (x1 : A192)
    (x2 : (⟨S195x3, .f32⟩ : BufTy).Contents (Elt Ideal)) (x3 : (⟨S3, .f32⟩ : BufTy).Contents (Elt Ideal))
    (x12 : (⟨S16x3x3, .f32⟩ : BufTy).Contents (Elt Ideal)) (x13 : (⟨S16x4x4, .f32⟩ : BufTy).Contents (Elt Ideal))
    (b : Fin 16) (n : Fin 25000) (p : Fin 3 → EReal) (y : Fin 14 → EReal)
    (h21 : ∀ o : Fin 3, val_main_v21 (F := Ideal) x0 x1 x2 x3 (ix3 b n o) = p o + y ⟨o.val, by omega⟩) :
    val_main_v107 (F := Ideal) x0 x1 x2 x3 x12 x13 (ix3 b n (0 : Fin 1)) = Spec.wcol p y (fun a c => val_main_v100 (F := Ideal) x12 x13 (ix3 b a c)) := by
  rw [val_main_v107_apply, val_main_v105_apply, val_main_v106_apply, val_main_cst_34_apply]
  have e : idx_main_v105 (ix3 b n (0 : Fin 1)) = ix3 b n (3 : Fin 4) := funext fun a => match a with
    | ⟨0, _⟩ => rfl | ⟨1, _⟩ => rfl | ⟨2, _⟩ => rfl
  rw [e, RefOut_v104_apply x0 x1 x2 x3 x12 x13 b n p y h21 3]
  rfl

/-- Clip columns 0 and 1 over the divisor. -/
theorem RefOut_v110_apply (x0 : A3) (x1 : A192)
    (x2 : (⟨S195x3, .f32⟩ : BufTy).Contents (Elt Ideal)) (x3 : (⟨S3, .f32⟩ : BufTy).Contents (Elt Ideal))
    (x12 : (⟨S16x3x3, .f32⟩ : BufTy).Contents (Elt Ideal)) (x13 : (⟨S16x4x4, .f32⟩ : BufTy).Contents (Elt Ideal))
    (b : Fin 16) (n : Fin 25000) (p : Fin 3 → EReal) (y : Fin 14 → EReal)
    (h21 : ∀ o : Fin 3, val_main_v21 (F := Ideal) x0 x1 x2 x3 (ix3 b n o) = p o + y ⟨o.val, by omega⟩) (i : Fin 2) :
    val_main_v110 (F := Ideal) x0 x1 x2 x3 x12 x13 (ix3 b n i) = Spec.ndc p y (fun a c => val_main_v100 (F := Ideal) x12 x13 (ix3 b a c)) i := by
  rw [val_main_v110_apply, val_main_v108_apply, val_main_v109_apply]
  have e8 : idx_main_v108 (ix3 b n i) = ix3 b n (⟨i.val, by omega⟩ : Fin 4) := funext fun a => match a with
    | ⟨0, _⟩ => rfl | ⟨1, _⟩ => rfl | ⟨2, _⟩ => rfl
  have e9 : idx_main_v109 (ix3 b n i) = ix3 b n (0 : Fin 1) := funext fun a => match a with
    | ⟨0, _⟩ => rfl | ⟨1, _⟩ => rfl | ⟨2, _⟩ => rfl
  rw [e8, e9, RefOut_v104_apply x0 x1 x2 x3 x12 x13 b n p y h21, RefOut_v107_apply x0 x1 x2 x3 x12 x13 b n p y h21]
  rfl

/-- Clip column 2 over the divisor. -/
theorem RefOut_v112_apply (x0 : A3) (x1 : A192)
    (x2 : (⟨S195x3, .f32⟩ : BufTy).Contents (Elt Ideal)) (x3 : (⟨S3, .f32⟩ : BufTy).Contents (Elt Ideal))
    (x12 : (⟨S16x3x3, .f32⟩ : BufTy).Contents (Elt Ideal)) (x13 : (⟨S16x4x4, .f32⟩ : BufTy).Contents (Elt Ideal))
    (b : Fin 16) (n : Fin 25000) (p : Fin 3 → EReal) (y : Fin 14 → EReal)
    (h21 : ∀ o : Fin 3, val_main_v21 (F := Ideal) x0 x1 x2 x3 (ix3 b n o) = p o + y ⟨o.val, by omega⟩) :
    val_main_v112 (F := Ideal) x0 x1 x2 x3 x12 x13 (ix3 b n (0 : Fin 1)) = Spec.depth p y (fun a c => val_main_v100 (F := Ideal) x12 x13 (ix3 b a c)) := by
  rw [val_main_v112_apply, val_main_v111_apply]
  have e : idx_main_v111 (ix3 b n (0 : Fin 1)) = ix3 b n (2 : Fin 4) := funext fun a => match a with
    | ⟨0, _⟩ => rfl | ⟨1, _⟩ => rfl | ⟨2, _⟩ => rfl
  rw [e, RefOut_v104_apply x0 x1 x2 x3 x12 x13 b n p y h21, RefOut_v107_apply x0 x1 x2 x3 x12 x13 b n p y h21]
  rfl

/-- Gaussian (b, n), column `j` of the reference's result, when at (b, n) the mean is `p + y[0..2]` and the
    other pieces are the specification's activations of `y`: the specification's output row, the projection
    being frame b's 4 x 4 slab of the projection array the reference computes from the cameras. -/
theorem v113_apply (x0 : A3) (x1 : A192)
    (x2 : (⟨S195x3, .f32⟩ : BufTy).Contents (Elt Ideal)) (x3 : (⟨S3, .f32⟩ : BufTy).Contents (Elt Ideal))
    (x4 : (⟨S195x4, .f32⟩ : BufTy).Contents (Elt Ideal)) (x5 : (⟨S4, .f32⟩ : BufTy).Contents (Elt Ideal))
    (x6 : (⟨S195x3, .f32⟩ : BufTy).Contents (Elt Ideal)) (x7 : (⟨S3, .f32⟩ : BufTy).Contents (Elt Ideal))
    (x8 : (⟨S195x1, .f32⟩ : BufTy).Contents (Elt Ideal)) (x9 : (⟨S1, .f32⟩ : BufTy).Contents (Elt Ideal))
    (x10 : (⟨S195x3, .f32⟩ : BufTy).Contents (Elt Ideal)) (x11 : (⟨S3, .f32⟩ : BufTy).Contents (Elt Ideal))
    (x12 : (⟨S16x3x3, .f32⟩ : BufTy).Contents (Elt Ideal)) (x13 : (⟨S16x4x4, .f32⟩ : BufTy).Contents (Elt Ideal))
    (b : Fin 16) (n : Fin 25000) (p : Fin 3 → EReal) (y : Fin 14 → EReal)
    (h21 : ∀ o : Fin 3, val_main_v21 (F := Ideal) x0 x1 x2 x3 (ix3 b n o) = p o + y ⟨o.val, by omega⟩)
    (h26 : ∀ o : Fin 4, val_main_v26 (F := Ideal) x0 x1 x4 x5 (ix3 b n o) = Spec.rot y o)
    (h31 : ∀ o : Fin 3, val_main_v31 (F := Ideal) x0 x1 x6 x7 (ix3 b n o) = Spec.scales y o)
    (h37 : ∀ o : Fin 1, val_main_v37 (F := Ideal) x0 x1 x8 x9 (ix3 b n o) = Spec.opac y)
    (h38 : ∀ o : Fin 3, val_main_v38 (F := Ideal) x0 x1 x10 x11 (ix3 b n o) = Spec.colors y o) (j : Fin 14) :
    val_main_v113 (F := Ideal) x0 x1 x2 x3 x4 x5 x6 x7 x8 x9 x10 x11 x12 x13 (ix3 b n j)
      = Spec.outRow p y (fun a c => val_main_v100 (F := Ideal) x12 x13 (ix3 b a c)) j := by
  unfold val_main_v113
  obtain ⟨jv, hj⟩ := j
  by_cases h2 : jv < 2
  · refine (RefOut_cat6_p0 _ _ _ _ _ _ _ b n ⟨jv, h2⟩).trans ?_
    rw [RefOut_v110_apply x0 x1 x2 x3 x12 x13 b n p y h21 ⟨jv, h2⟩]
    exact (Spec.outRow_ndc p y _ ⟨jv, h2⟩).symm
  by_cases h3 : jv < 3
  · obtain rfl : jv = 2 := by omega
    refine (RefOut_cat6_p1 _ _ _ _ _ _ _ b n 0).trans ?_
    rw [RefOut_v112_apply x0 x1 x2 x3 x12 x13 b n p y h21]
    exact (Spec.outRow_depth p y _).symm
  by_cases h6 : jv < 6
  · obtain ⟨i, rfl⟩ : ∃ i : Fin 3, jv = 3 + i.val := ⟨⟨jv - 3, by omega⟩, by show jv = 3 + (jv - 3); omega⟩
    refine (RefOut_cat6_p2 _ _ _ _ _ _ _ b n i).trans ?_
    rw [h31 i]
    exact (Spec.outRow_scales p y _ i).symm
  by_cases h7 : jv < 7
  · obtain rfl : jv = 6 := by omega
    refine (RefOut_cat6_p3 _ _ _ _ _ _ _ b n 0).trans ?_
    rw [h37 0]
    exact (Spec.outRow_opac p y _).symm
  by_cases h10 : jv < 10
  · obtain ⟨i, rfl⟩ : ∃ i : Fin 3, jv = 7 + i.val := ⟨⟨jv - 7, by omega⟩, by show jv = 7 + (jv - 7); omega⟩
    refine (RefOut_cat6_p4 _ _ _ _ _ _ _ b n i).trans ?_
    rw [h38 i]
    exact (Spec.outRow_colors p y _ i).symm
  · obtain ⟨i, rfl⟩ : ∃ i : Fin 4, jv = 10 + i.val := ⟨⟨jv - 10, by omega⟩, by show jv = 10 + (jv - 10); omega⟩
    refine (RefOut_cat6_p5 _ _ _ _ _ _ _ b n i).trans ?_
    rw [h26 i]
    exact (Spec.outRow_rot p y _ i).symm

end Cert.ReferenceIdeal.RefValue

end
-- ==== Proof.SpecRows.lean ====
/-
  The head values of a gaussian, column group by column group: a column of the stacked weights is a column of
  one head, and the same for the biases.
-/
import proofs.«141409_j36189394436976_1_alg».proof.Proof.Spec

noncomputable section

namespace Cert.Spec

open Idealize.ShloMosaic Idealize.ShloMosaic.ValueIdx

variable (pts : Sp.Idx → EReal) (feats : Sf.Idx → EReal)
    (W0 : (SW 3).Idx → EReal) (W1 : (SW 4).Idx → EReal) (W2 : (SW 3).Idx → EReal) (W3 : (SW 1).Idx → EReal) (W4 : (SW 3).Idx → EReal)
    (b0 : (Sb 3).Idx → EReal) (b1 : (Sb 4).Idx → EReal) (b2 : (Sb 3).Idx → EReal) (b3 : (Sb 1).Idx → EReal) (b4 : (Sb 3).Idx → EReal)
    (b : Fin 16) (n : Fin 25000)

theorem yrow_0 (o : Fin 3) : yrow pts feats W0 W1 W2 W3 W4 b0 b1 b2 b3 b4 b n ⟨o.val, by omega⟩
    = head (xrow (fun q => pts (ix3 b n q)) (fun e => feats (ix3 b n e))) (fun d => W0 (ix2 d o)) (b0 (ix1 o)) := by
  unfold yrow; simp only [Wall_0, ball_0]
theorem yrow_1 (o : Fin 4) : yrow pts feats W0 W1 W2 W3 W4 b0 b1 b2 b3 b4 b n ⟨3 + o.val, by omega⟩
    = head (xrow (fun q => pts (ix3 b n q)) (fun e => feats (ix3 b n e))) (fun d => W1 (ix2 d o)) (b1 (ix1 o)) := by
  unfold yrow; simp only [Wall_1, ball_1]
theorem yrow_2 (o : Fin 3) : yrow pts feats W0 W1 W2 W3 W4 b0 b1 b2 b3 b4 b n ⟨7 + o.val, by omega⟩
    = head (xrow (fun q => pts (ix3 b n q)) (fun e => feats (ix3 b n e))) (fun d => W2 (ix2 d o)) (b2 (ix1 o)) := by
  unfold yrow; simp only [Wall_2, ball_2]
theorem yrow_3 (o : Fin 1) : yrow pts feats W0 W1 W2 W3 W4 b0 b1 b2 b3 b4 b n ⟨10 + o.val, by omega⟩
    = head (xrow (fun q => pts (ix3 b n q)) (fun e => feats (ix3 b n e))) (fun d => W3 (ix2 d o)) (b3 (ix1 o)) := by
  unfold yrow; simp only [Wall_3, ball_3]
theorem yrow_4 (o : Fin 3) : yrow pts feats W0 W1 W2 W3 W4 b0 b1 b2 b3 b4 b n ⟨11 + o.val, by omega⟩
    = head (xrow (fun q => pts (ix3 b n q)) (fun e => feats (ix3 b n e))) (fun d => W4 (ix2 d o)) (b4 (ix1 o)) := by
  unfold yrow; simp only [Wall_4, ball_4]

end Cert.Spec

end
-- ==== Proof.RefAsm.lean ====
/-
  The reference's result array, read at one entry: its heads, activations, projection and packing put together
  are the specification's result for that gaussian.
-/
import proofs.«141409_j36189394436976_1_alg».proof.Proof.RefHeads
import proofs.«141409_j36189394436976_1_alg».proof.Proof.RefPost
import proofs.«141409_j36189394436976_1_alg».proof.Proof.RefOut
import proofs.«141409_j36189394436976_1_alg».proof.Proof.SpecRows

noncomputable section

namespace Cert.ReferenceIdeal.RefValue

open Cert.ReferenceIdeal Cert.ReferenceIdeal.Gen Cert.ReferenceIdeal.Read
open Idealize.ShloMosaic Idealize.ShloMosaic.ValueIdx

/-- Gaussian (b, n), column `j` of the reference's result is the specification's, the projection being the
    reference's own projection stage of the two camera arrays. -/
theorem ref_apply (x0 : (⟨S16x25000x3, .f32⟩ : BufTy).Contents (Elt Ideal)) (x1 : (⟨S16x25000x192, .f32⟩ : BufTy).Contents (Elt Ideal))
    (x2 : (⟨S195x3, .f32⟩ : BufTy).Contents (Elt Ideal)) (x3 : (⟨S3, .f32⟩ : BufTy).Contents (Elt Ideal))
    (x4 : (⟨S195x4, .f32⟩ : BufTy).Contents (Elt Ideal)) (x5 : (⟨S4, .f32⟩ : BufTy).Contents (Elt Ideal))
    (x6 : (⟨S195x3, .f32⟩ : BufTy).Contents (Elt Ideal)) (x7 : (⟨S3, .f32⟩ : BufTy).Contents (Elt Ideal))
    (x8 : (⟨S195x1, .f32⟩ : BufTy).Contents (Elt Ideal)) (x9 : (⟨S1, .f32⟩ : BufTy).Contents (Elt Ideal))
    (x10 : (⟨S195x3, .f32⟩ : BufTy).Contents (Elt Ideal)) (x11 : (⟨S3, .f32⟩ : BufTy).Contents (Elt Ideal))
    (x12 : (⟨S16x3x3, .f32⟩ : BufTy).Contents (Elt Ideal)) (x13 : (⟨S16x4x4, .f32⟩ : BufTy).Contents (Elt Ideal))
    (b : Fin 16) (n : Fin 25000) (j : Fin 14) :
    val_main_v113 (F := Ideal) x0 x1 x2 x3 x4 x5 x6 x7 x8 x9 x10 x11 x12 x13 (ix3 b n j)
      = Spec.Gat x0 x1 x2 x4 x6 x8 x10 x3 x5 x7 x9 x11 (val_main_v100 (F := Ideal) x12 x13) b n j := by
  unfold Spec.Gat
  refine v113_apply x0 x1 x2 x3 x4 x5 x6 x7 x8 x9 x10 x11 x12 x13 b n (fun o => x0 (ix3 b n o))
    (Spec.yrow x0 x1 x2 x4 x6 x8 x10 x3 x5 x7 x9 x11 b n) ?_ ?_ ?_ ?_ ?_ j
  · intro o
    rw [v21_apply, v4_apply, Spec.yrow_0]
  · intro o
    rw [v26_apply]
    simp only [v8_apply]
    unfold Spec.rot Spec.rnorm
    simp only [Spec.yrow_1]
  · intro o
    rw [v31_apply, v12_apply]
    unfold Spec.scales
    rw [Spec.yrow_2]
  · intro o
    obtain rfl : o = 0 := Subsingleton.elim _ _
    rw [v37_apply, v16_apply]
    unfold Spec.opac
    exact congrArg Ideal.logistic (Spec.yrow_3 x0 x1 x2 x4 x6 x8 x10 x3 x5 x7 x9 x11 b n 0).symm
  · intro o
    rw [v38_apply, v20_apply]
    unfold Spec.colors
    rw [Spec.yrow_4]

end Cert.ReferenceIdeal.RefValue

end
-- ==== Proof.lean ====
/-
  The certificate's claims assembled.

  The two kernel programs (as printed, and idealized) are the same text, so one frame argument serves both: the
  host operations write no argument array, the pipeline stages two of them as inputs and never writes them back,
  and the body touches only its staging buffers. The reference has no kernel: its frame is its run with the result
  dropped. The idealization rewrote nothing, so there is nothing to preserve.

  For the values: the kernel's result array ends at the specification's `G` of the argument arrays and the
  projection array its host operations compute; the reference's result, entry by entry, is the same `G` with the
  projection stage of its own host operations; and the two projection arrays are one function of the cameras,
  because both programs run the same host operations on them.
-/
import proofs.«141409_j36189394436976_1_alg».proof.Defs
import proofs.«141409_j36189394436976_1_alg».proof.Proof.Gen.Kernel
import proofs.«141409_j36189394436976_1_alg».proof.Proof.Gen.Kernel.Skeleton
import proofs.«141409_j36189394436976_1_alg».proof.Proof.Gen.Kernel.Launch
import proofs.«141409_j36189394436976_1_alg».proof.Proof.Gen.Kernel.Points
import proofs.«141409_j36189394436976_1_alg».proof.Proof.Gen.KernelIdeal
import proofs.«141409_j36189394436976_1_alg».proof.Proof.Gen.KernelIdeal.Skeleton
import proofs.«141409_j36189394436976_1_alg».proof.Proof.Gen.KernelIdeal.Launch
import proofs.«141409_j36189394436976_1_alg».proof.Proof.Gen.KernelIdeal.Points
import proofs.«141409_j36189394436976_1_alg».proof.Proof.Gen.ReferenceIdeal
import proofs.«141409_j36189394436976_1_alg».proof.Proof.Gen.Pre_finite_inputs
import proofs.«141409_j36189394436976_1_alg».proof.Proof.Gen.ReferenceIdeal.Run
import proofs.«141409_j36189394436976_1_alg».proof.Proof.Gen.ReferenceIdeal.Read
import proofs.«141409_j36189394436976_1_alg».proof.Proof.KFrame
import proofs.«141409_j36189394436976_1_alg».proof.Proof.KIValue
import proofs.«141409_j36189394436976_1_alg».proof.Proof.RefAsm
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Frm.frame m ρ
theorem frame_ki : Cert.frame_KernelIdeal := fun m ρ _ => Cert.KernelIdeal.Frm.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments, the kernel's result array and the reference's are the
    specification's `G` of the same arrays: entry by entry by the two readings, the projection array by the
    shared host operations. -/
theorem algebraic : Cert.algebraic_KernelIdeal_ReferenceIdeal := by
  intro m ρ m' ρ' _ hagree
  refine ⟨fun c => Cert.KernelIdeal.Val.Garr m c, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v113_eq]
  obtain ⟨a0, a1, a2, a3, a4, a5, a6, a7, a8, a9, a10, a11, a12, a13⟩ := hagree c
  rw [a0, a1, a2, a3, a4, a5, a6, a7, a8, a9, a10, a11, a12, a13]
  funext i
  obtain ⟨b, n, j, rfl⟩ : ∃ (b : Fin 16) (n : Fin 25000) (j : Fin 14), i = ix3 b n j := ⟨i 0, i 1, i 2, eq_ix3 i⟩
  rw [Cert.ReferenceIdeal.RefValue.ref_apply]
  show _ = Cert.KernelIdeal.Val.Garr m c (ix3 b n j)
  unfold Cert.KernelIdeal.Val.Garr
  rw [Spec.G_ix3, Cert.KernelIdeal.HostWin.proj_eq]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
